-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S16x128 : Shape := ⟨2, ![16, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S16x128 .f32) (main_arg3 : FVec F S128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S16x128 : Shape := ⟨2, ![16, 128]⟩
abbrev S128 : Shape := ⟨1, ![128]⟩
abbrev S1x128 : Shape := ⟨2, ![1, 128]⟩
abbrev S400x10000 : Shape := ⟨2, ![400, 10000]⟩
abbrev S8x128 : Shape := ⟨2, ![8, 128]⟩
abbrev S16x16 : Shape := ⟨2, ![16, 16]⟩
abbrev S128x16 : Shape := ⟨2, ![128, 16]⟩
abbrev S128x128 : Shape := ⟨2, ![128, 128]⟩
abbrev S400x128 : Shape := ⟨2, ![400, 128]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S10000x128, .f32⟩
  | .local _ .vmem, ⟨0, _⟩ => ⟨S10000x128, .f32⟩
  | .local _ .vmem, ⟨1, _⟩ => ⟨S16x128, .f32⟩
  | .local _ .vmem, ⟨2, _⟩ => ⟨S1x128, .f32⟩
  | .local _ .vmem, ⟨3, _⟩ => ⟨S1x128, .f32⟩
  | .local _ .vmem, ⟨4, _⟩ => ⟨S400x10000, .f32⟩
  | .local _ .vmem, ⟨5, _⟩ => ⟨S400x10000, .f32⟩
  | .local _ .vmem, ⟨6, _⟩ => ⟨S10000x128, .f32⟩
  | .local _ .vmem, ⟨7, _⟩ => ⟨S10000x128, .f32⟩
  | .local _ .vmem, ⟨8, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v6 : BitVec 32 := Scalar.muli arg0 c400_i32
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S128_S1x128 : S128.ShapeCasts S1x128
  inb_S16x128_S16x128_0_0 : ∀ a, (![0, 0] : Fin 2 → Nat) a + S16x128.size a ≤ S16x128.size a
  h_S16x128 : 0 < S16x128.numel
  slices_S16x128_o0_0_S16x16 : S16x128.Slices ![0, 0] S16x16
  slices_S16x128_o0_16_S16x16 : S16x128.Slices ![0, 16] S16x16
  slices_S16x128_o0_32_S16x16 : S16x128.Slices ![0, 32] S16x16
  slices_S16x128_o0_48_S16x16 : S16x128.Slices ![0, 48] S16x16
  slices_S16x128_o0_64_S16x16 : S16x128.Slices ![0, 64] S16x16
  slices_S16x128_o0_80_S16x16 : S16x128.Slices ![0, 80] S16x16
  slices_S16x128_o0_96_S16x16 : S16x128.Slices ![0, 96] S16x16
  slices_S16x128_o0_112_S16x16 : S16x128.Slices ![0, 112] S16x16
  concatenates_S16x16_S16x16_S16x16_S16x16_S16x16_S16x16_S16x16_S16x16_S128x16_d0 : Shape.Concatenates [S16x16, S16x16, S16x16, S16x16, S16x16, S16x16, S16x16, S16x16] S128x16 0
  concatenates_S128x16_S128x16_S128x16_S128x16_S128x16_S128x16_S128x16_S128x16_S128x128_d1 : Shape.Concatenates [S128x16, S128x16, S128x16, S128x16, S128x16, S128x16, S128x16, S128x16] S128x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S400x10000_S400x10000_0_0 : ∀ a, (![0, 0] : Fin 2 → Nat) a + S400x10000.size a ≤ S400x10000.size a
  h_S400x10000 : 0 < S400x10000.numel
  h_S400x128 : 0 < S400x128.numel
  inb_S8x128_S1x128_0_0 : ∀ a, (![0, 0] : Fin 2 → Nat) a + S1x128.size a ≤ S8x128.size a
  h_S1x128 : 0 < S1x128.numel
  reduces_S400x128_S128 : S400x128.Reduces [0] S128
  shapeCasts_S1x128_S1x128 : S1x128.ShapeCasts S1x128
  inb_S8x128_S1x128_1_0 : ∀ a, (![1, 0] : Fin 2 → Nat) a + S1x128.size a ≤ S8x128.size a
  inb_S1x128_S1x128_0_0 : ∀ a, (![0, 0] : Fin 2 → Nat) a + S1x128.size a ≤ S1x128.size a
  inb_S10000x128_S400x128_0_0 : ∀ a, (![0, 0] : Fin 2 → Nat) a + S400x128.size a ≤ S10000x128.size a
  shapeCasts_S400x128_S400x128 : S400x128.ShapeCasts S400x128
  broadcasts_S1x128_S400x128 : S1x128.Broadcasts S400x128
  inb_S10000x128_S400x128_400_0 : ∀ a, (![400, 0] : Fin 2 → Nat) a + S400x128.size a ≤ S10000x128.size a
  inb_S10000x128_S400x128_800_0 : ∀ a, (![800, 0] : Fin 2 → Nat) a + S400x128.size a ≤ S10000x128.size a
  inb_S10000x128_S400x128_1200_0 : ∀ a, (![1200, 0] : Fin 2 → Nat) a + S400x128.size a ≤ S10000x128.size a
  inb_S10000x128_S400x128_1600_0 : ∀ a, (![1600, 0] : Fin 2 → Nat) a + S400x128.size a ≤ S10000x128.size a
  inb_S10000x128_S400x128_2000_0 : ∀ a, (![2000, 0] : Fin 2 → Nat) a + S400x128.size a ≤ S10000x128.size a
  inb_S10000x128_S400x128_2400_0 : ∀ a, (![2400, 0] : Fin 2 → Nat) a + S400x128.size a ≤ S10000x128.size a
  inb_S10000x128_S400x128_2800_0 : ∀ a, (![2800, 0] : Fin 2 → Nat) a + S400x128.size a ≤ S10000x128.size a
  inb_S10000x128_S400x128_3200_0 : ∀ a, (![3200, 0] : Fin 2 → Nat) a + S400x128.size a ≤ S10000x128.size a
  inb_S10000x128_S400x128_3600_0 : ∀ a, (![3600, 0] : Fin 2 → Nat) a + S400x128.size a ≤ S10000x128.size a
  inb_S10000x128_S400x128_4000_0 : ∀ a, (![4000, 0] : Fin 2 → Nat) a + S400x128.size a ≤ S10000x128.size a
  inb_S10000x128_S400x128_4400_0 : ∀ a, (![4400, 0] : Fin 2 → Nat) a + S400x128.size a ≤ S10000x128.size a
  inb_S10000x128_S400x128_4800_0 : ∀ a, (![4800, 0] : Fin 2 → Nat) a + S400x128.size a ≤ S10000x128.size a
  inb_S10000x128_S400x128_5200_0 : ∀ a, (![5200, 0] : Fin 2 → Nat) a + S400x128.size a ≤ S10000x128.size a
  inb_S10000x128_S400x128_5600_0 : ∀ a, (![5600, 0] : Fin 2 → Nat) a + S400x128.size a ≤ S10000x128.size a
  inb_S10000x128_S400x128_6000_0 : ∀ a, (![6000, 0] : Fin 2 → Nat) a + S400x128.size a ≤ S10000x128.size a
  inb_S10000x128_S400x128_6400_0 : ∀ a, (![6400, 0] : Fin 2 → Nat) a + S400x128.size a ≤ S10000x128.size a
  inb_S10000x128_S400x128_6800_0 : ∀ a, (![6800, 0] : Fin 2 → Nat) a + S400x128.size a ≤ S10000x128.size a
  inb_S10000x128_S400x128_7200_0 : ∀ a, (![7200, 0] : Fin 2 → Nat) a + S400x128.size a ≤ S10000x128.size a
  inb_S10000x128_S400x128_7600_0 : ∀ a, (![7600, 0] : Fin 2 → Nat) a + S400x128.size a ≤ S10000x128.size a
  inb_S10000x128_S400x128_8000_0 : ∀ a, (![8000, 0] : Fin 2 → Nat) a + S400x128.size a ≤ S10000x128.size a
  inb_S10000x128_S400x128_8400_0 : ∀ a, (![8400, 0] : Fin 2 → Nat) a + S400x128.size a ≤ S10000x128.size a
  inb_S10000x128_S400x128_8800_0 : ∀ a, (![8800, 0] : Fin 2 → Nat) a + S400x128.size a ≤ S10000x128.size a
  inb_S10000x128_S400x128_9200_0 : ∀ a, (![9200, 0] : Fin 2 → Nat) a + S400x128.size a ≤ S10000x128.size a
  inb_S10000x128_S400x128_9600_0 : ∀ a, (![9600, 0] : Fin 2 → Nat) a + S400x128.size a ≤ S10000x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S10000x128.size a
  hwx0_5 : ∀ i : grid0.Coords, EltTy.bits .f32 = 32 ∨ (Rect.block (s := S10000x128) S10000x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S16x128 : Shape := ⟨2, ![16, 128]⟩
abbrev S128 : Shape := ⟨1, ![128]⟩
abbrev S16x16 : Shape := ⟨2, ![16, 16]⟩
abbrev S128x16 : Shape := ⟨2, ![128, 16]⟩
abbrev S128x128 : Shape := ⟨2, ![128, 128]⟩
abbrev S_ : Shape := ⟨0, ![]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S128, .f32⟩
  | .hbm, ⟨4, _⟩ => ⟨S128, .f32⟩
  | .hbm, ⟨5, _⟩ => ⟨S16x16, .f32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S16x16, .f32⟩
  | .hbm, ⟨11, _⟩ => ⟨S16x16, .f32⟩
  | .hbm, ⟨12, _⟩ => ⟨S16x16, .f32⟩
  | .hbm, ⟨13, _⟩ => ⟨S16x16, .f32⟩
  | .hbm, ⟨14, _⟩ => ⟨S16x16, .f32⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S16x16, .f32⟩
  | .hbm, ⟨29, _⟩ => ⟨S16x16, .f32⟩
  | .hbm, ⟨30, _⟩ => ⟨S16x16, .f32⟩
  | .hbm, ⟨31, _⟩ => ⟨S16x16, .f32⟩
  | .hbm, ⟨32, _⟩ => ⟨S16x16, .f32⟩
  | .hbm, ⟨33, _⟩ => ⟨S16x16, .f32⟩
  | .hbm, ⟨34, _⟩ => ⟨S16x16, .f32⟩
  | .hbm, ⟨35, _⟩ => ⟨S16x16, .f32⟩
  | .hbm, ⟨36, _⟩ => ⟨S16x16, .f32⟩
  | .hbm, ⟨37, _⟩ => ⟨S16x16, .f32⟩
  | .hbm, ⟨38, _⟩ => ⟨S16x16, .f32⟩
  | .hbm, ⟨39, _⟩ => ⟨S16x16, .f32⟩
  | .hbm, ⟨40, _⟩ => ⟨S16x16, .f32⟩
  | .hbm, ⟨41, _⟩ => ⟨S128x16, .f32⟩
  | .hbm, ⟨42, _⟩ => ⟨S128x16, .f32⟩
  | .hbm, ⟨43, _⟩ => ⟨S128x16, .f32⟩
  | .hbm, ⟨44, _⟩ => ⟨S128x16, .f32⟩
  | .hbm, ⟨45, _⟩ => ⟨S128x16, .f32⟩
  | .hbm, ⟨46, _⟩ => ⟨S128x16, .f32⟩
  | .hbm, ⟨47, _⟩ => ⟨S128x16, .f32⟩
  | .hbm, ⟨48, _⟩ => ⟨S128x16, .f32⟩
  | .hbm, ⟨49, _⟩ => ⟨S128x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S10000x128, .f32⟩
  | .hbm, ⟨82, _⟩ => ⟨S10000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S10000x128, .f32⟩
  | .hbm, ⟨89, _⟩ => ⟨S10000x128, .f32⟩
  | .hbm, ⟨90, _⟩ => ⟨S1x128, .f32⟩
  | .hbm, ⟨91, _⟩ => ⟨S10000x128, .f32⟩
  | .hbm, ⟨92, _⟩ => ⟨S10000x128, .f32⟩
  | .hbm, ⟨93, _⟩ => ⟨S1x128, .f32⟩
  | .hbm, ⟨94, _⟩ => ⟨S10000x128, .f32⟩
  | .hbm, ⟨95, _⟩ => ⟨S10000x128, .f32⟩
  | .hbm, ⟨96, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst : Ref sig .tc := ⟨.hbm, 52, rfl⟩
abbrev main_v47 : Ref sig .tc := ⟨.hbm, 53, rfl⟩
abbrev main_cst_0 : Ref sig .tc := ⟨.hbm, 54, rfl⟩
abbrev main_v48 : Ref sig .tc := ⟨.hbm, 55, rfl⟩
abbrev main_v49 : Ref sig .tc := ⟨.hbm, 56, rfl⟩
abbrev main_c : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_1 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]

class Facts₀ : Prop where
  slices_S16x128_S16x16_0_0 : S16x128.Slices ![0, 0] S16x16
  slices_S16x128_S16x16_0_16 : S16x128.Slices ![0, 16] S16x16
  slices_S16x128_S16x16_0_32 : S16x128.Slices ![0, 32] S16x16
  slices_S16x128_S16x16_0_48 : S16x128.Slices ![0, 48] S16x16
  slices_S16x128_S16x16_0_64 : S16x128.Slices ![0, 64] S16x16
  slices_S16x128_S16x16_0_80 : S16x128.Slices ![0, 80] S16x16
  slices_S16x128_S16x16_0_96 : S16x128.Slices ![0, 96] S16x16
  slices_S16x128_S16x16_0_112 : S16x128.Slices ![0, 112] S16x16
  concatenates_S16x16_S16x16_S16x16_S16x16_S16x16_S16x16_S16x16_S16x16_S128x16_d0 : Shape.Concatenates [S16x16, S16x16, S16x16, S16x16, S16x16, S16x16, S16x16, S16x16] S128x16 0
  concatenates_S128x16_S128x16_S128x16_S128x16_S128x16_S128x16_S128x16_S128x16_S128x128_d1 : Shape.Concatenates [S128x16, S128x16, S128x16, S128x16, S128x16, S128x16, S128x16, S128x16] S128x128 1
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KShared.lean ====
/-
  The grid of the fused kernel has 25 points. Its body branches twice on the grid coordinate:
  the first branch (building the feature transform and clearing the column statistics) is taken
  exactly at point 0, the second (normalising every row block in place) exactly at point 24.
  Here: the two branch conditions in closed form, decided over the grid; the names of the
  staging buffers the body is called with at a point; and the two scratch buffers the body
  carries from point to point (the transformed features and the column statistics).
-/
import proofs.«167329_g16630113370191_cont_week2b_735_26_alg».proof.Proof.Gen.Kernel.Launch
import proofs.«167329_g16630113370191_cont_week2b_735_26_alg».proof.Proof.Gen.Kernel.Skeleton
import proofs.«167329_g16630113370191_cont_week2b_735_26_alg».proof.Proof.Gen.Kernel.Points
import proofs.«167329_g16630113370191_cont_week2b_735_26_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition as the body computes it from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- The second branch's condition. -/
abbrev cond0_1 (i : grid0.Coords) : Prop := (Scalar.cmpi .ne (Scalar.extui (Scalar.cmpi .eq (BitVec.ofNat 32 (i 0).val) 24#32)) 0#32) = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-- Each window's current staging buffer at point t, as the body is called with it, and that it is a whole buffer. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x128 .f32 := win0_5.stage (cfg0.slots t 5)
abbrev hs0_5 (t : Fin cfg0.N) : (ms0_5 t).IsWhole := hstage0_5 ((cfg0.slots t 5).cast nbuf0_5)
/-- The two scratch buffers: the transformed features (10000 × 128) and the column statistics (8 × 128). -/
abbrev scM0_0 : Memref sig .tc .vmem S10000x128 .f32 := Memref.whole cc0_scratch0
abbrev scM0_1 : Memref sig .tc .vmem S8x128 .f32 := Memref.whole cc0_scratch1
abbrev VS0_0 : View sig .tc .vmem S10000x128 .f32 := scM0_0.view
abbrev VS0_1 : View sig .tc .vmem S8x128 .f32 := scM0_1.view
/-- The output's staging buffer as a view: what it holds is stated through it. -/
abbrev VO (t : Fin cfg0.N) : View sig .tc .vmem S10000x128 .f32 := (ms0_5 t).view

/-- What the launch hands the region besides the windows: the two scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunB.lean ====
/-
  The body of the fused kernel at a middle point of the grid (neither first nor last):
  one row block of adj times the transformed features is stored into the output buffer at the rows
  of this point, and its column sums and column sums of squares are added into the first two rows
  of the statistics.
-/
import proofs.«167329_g16630113370191_cont_week2b_735_26_alg».proof.Proof.KShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last, on whole staging buffers holding the inputs' blocks, the output buffer at any contents xo and the two scratch buffers at contents xs0, xs1, the body runs; it leaves the inputs and the transformed features as they were, the output buffer at xo with one row block overwritten, and the statistics at xs1 with its first two rows overwritten. The overwritten pieces (last first) are what the run finds; those of the statistics do not depend on xo. -/
noncomputable def runB (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i)
    (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) :
    Σ' (LS1 : List (View.Piece (Elt F) S8x128 .f32)), (xo : Vec F S10000x128 .f32) → { LO : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread xo) LO) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, fun xo => ⟨?_, fun E K => ?run⟩⟩
  case run =>
    simp only [cc0_fused_eq_skeleton]; unfold cc0_fused_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.Kernel.Hand

end
-- ==== Proof.KRunA.lean ====
/-
  The body of the fused kernel at the first point of the grid: the Hamilton matrix is assembled
  from the weight block, the features are multiplied by it and stored whole into the first scratch
  buffer, the statistics are cleared; then, as at every point, one row block of adj times the
  transformed features is stored into the output buffer and its column sums and sums of squares
  are added into the statistics.
-/
import proofs.«167329_g16630113370191_cont_week2b_735_26_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, on whole staging buffers holding the inputs' blocks, the output buffer at any contents xo and the two scratch buffers at anything, the body runs; it leaves the inputs as they were, the output buffer at xo with its first row block overwritten, and both scratch buffers wholly written. The written pieces (last first) are what the run finds; those of the scratch buffers do not depend on xo. -/
noncomputable def runA (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i)
    (x0 : Vec F S10000x128 .f32) (x1 : Vec F S16x128 .f32) (x2 : Vec F S1x128 .f32) (x3 : Vec F S1x128 .f32) (x4 : Vec F S400x10000 .f32) :
    Σ' (LS0 : List (View.Piece (Elt F) S10000x128 .f32)) (LS1 : List (View.Piece (Elt F) S8x128 .f32)), (xo : Vec F S10000x128 .f32) → { LO : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread xo) LO) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, fun xo => ⟨?_, fun E K => ?run⟩⟩
  case run =>
    simp only [cc0_fused_eq_skeleton]; unfold cc0_fused_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexists _; iexact HS0
    iexists _; iexact HS1

end Cert.Kernel.Hand

end
-- ==== Proof.KRunC.lean ====
/-
  The body of the fused kernel at the last point of the grid: after the last row block of
  adj times the transformed features is stored and the statistics are completed, the column mean,
  variance, scale and shift are formed from the statistics, gamma and beta, and each of the 25 row
  blocks of the output buffer is read back, mapped through y ↦ tanh(y · scale + shift), and stored
  in place.
-/
import proofs.«167329_g16630113370191_cont_week2b_735_26_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point, on whole staging buffers holding the inputs' blocks, the output buffer at contents xo and the two scratch buffers at contents xs0, xs1, the body runs; it leaves the inputs and the transformed features as they were, the statistics at xs1 with its first two rows overwritten, and the output buffer at xo with the last row block overwritten and then every one of the 25 row blocks replaced by its normalised image. The overwritten pieces (last first) are what the run finds; those of the statistics do not depend on xo. -/
noncomputable def runC (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i)
    (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) :
    Σ' (LS1 : List (View.Piece (Elt F) S8x128 .f32)), (xo : Vec F S10000x128 .f32) → { LO : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread xo) LO) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, fun xo => ⟨?_, fun E K => ?run⟩⟩
  case run =>
    simp only [cc0_fused_eq_skeleton]; unfold cc0_fused_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.Kernel.Hand

end
-- ==== Proof.KData.lean ====
/-
  What the fused kernel's buffers hold from point to point, and the proof data of its pipeline.

  The two scratch buffers are deterministic: after point 0 the first holds the transformed
  features and the second the statistics of row block 0; every later point leaves the first as it
  was and adds its row block's column sums and sums of squares to the second. The output's staging
  buffer is never fetched and is written back only after the last point, so what it holds after a
  point depends on what it held before: the point's row block is overwritten (and, at the last
  point, every row block is then normalised in place). That dependence is stated as a relation
  between the contents the body is handed and the contents it leaves.
-/
import proofs.«167329_g16630113370191_cont_week2b_735_26_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, over any whole buffers -/

/-- First point: the first scratch buffer after the body (its pieces cover it). -/
def scA0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) : Vec F S10000x128 .f32 :=
  arg7.view.read (Elt F) (arg7.view.writes (Elt F) arg7.view.junk (runA c i arg1 harg1 arg2 harg2 arg3 harg3 arg4 harg4 arg5 harg5 arg6 harg6 arg7 harg7 arg8 harg8 hc0 hc1 x0 x1 x2 x3 x4).1)
/-- First point: the statistics after the body (its pieces cover it). -/
def scA1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) : Vec F S8x128 .f32 :=
  arg8.view.read (Elt F) (arg8.view.writes (Elt F) arg8.view.junk (runA c i arg1 harg1 arg2 harg2 arg3 harg3 arg4 harg4 arg5 harg5 arg6 harg6 arg7 harg7 arg8 harg8 hc0 hc1 x0 x1 x2 x3 x4).2.1)
/-- First point: the output buffer after the body, over what it held. -/
def oA (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (xo : Vec F S10000x128 .f32) : Vec F S10000x128 .f32 :=
  arg6.view.read (Elt F) (arg6.view.writes (Elt F) (harg6.unread xo) ((runA c i arg1 harg1 arg2 harg2 arg3 harg3 arg4 harg4 arg5 harg5 arg6 harg6 arg7 harg7 arg8 harg8 hc0 hc1 x0 x1 x2 x3 x4).2.2 xo).1)

/-- The first point's pieces for the first scratch buffer cover it: one piece, the whole buffer. -/
theorem scoverA0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (y : S10000x128.Idx) :
    ∃ pc ∈ (runA c i arg1 harg1 arg2 harg2 arg3 harg3 arg4 harg4 arg5 harg5 arg6 harg6 arg7 harg7 arg8 harg8 hc0 hc1 x0 x1 x2 x3 x4).1, y ∈ pc.1.set :=
  View.cover_of_tiledL (runA c i arg1 harg1 arg2 harg2 arg3 harg3 arg4 harg4 arg5 harg5 arg6 harg6 arg7 harg7 arg8 harg8 hc0 hc1 x0 x1 x2 x3 x4).1 S10000x128.size (by sl_kernel_rfl) y
/-- The first point's pieces for the statistics cover them: one of them clears the whole buffer. -/
theorem scoverA1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (y : S8x128.Idx) :
    ∃ pc ∈ (runA c i arg1 harg1 arg2 harg2 arg3 harg3 arg4 harg4 arg5 harg5 arg6 harg6 arg7 harg7 arg8 harg8 hc0 hc1 x0 x1 x2 x3 x4).2.1, y ∈ pc.1.set :=
  View.cover_of_wholeMem (runA c i arg1 harg1 arg2 harg2 arg3 harg3 arg4 harg4 arg5 harg5 arg6 harg6 arg7 harg7 arg8 harg8 hc0 hc1 x0 x1 x2 x3 x4).2.1 (by sl_whole_mem) y

/-- A middle point: the statistics after the body, over what they held. -/
def scB1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) : Vec F S8x128 .f32 :=
  arg8.view.read (Elt F) (arg8.view.writes (Elt F) (harg8.unread xs1) (runB c i arg1 harg1 arg2 harg2 arg3 harg3 arg4 harg4 arg5 harg5 arg6 harg6 arg7 harg7 arg8 harg8 hc0 hc1 x0 x1 x2 x3 x4 xs0 xs1).1)
/-- A middle point: the output buffer after the body, over what it held. -/
def oB (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) : Vec F S10000x128 .f32 :=
  arg6.view.read (Elt F) (arg6.view.writes (Elt F) (harg6.unread xo) ((runB c i arg1 harg1 arg2 harg2 arg3 harg3 arg4 harg4 arg5 harg5 arg6 harg6 arg7 harg7 arg8 harg8 hc0 hc1 x0 x1 x2 x3 x4 xs0 xs1).2 xo).1)

/-- The last point: the statistics after the body, over what they held. -/
def scC1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) : Vec F S8x128 .f32 :=
  arg8.view.read (Elt F) (arg8.view.writes (Elt F) (harg8.unread xs1) (runC c i arg1 harg1 arg2 harg2 arg3 harg3 arg4 harg4 arg5 harg5 arg6 harg6 arg7 harg7 arg8 harg8 hc0 hc1 x0 x1 x2 x3 x4 xs0 xs1).1)
/-- The last point: the output buffer after the body, over what it held. -/
def oC (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) : Vec F S10000x128 .f32 :=
  arg6.view.read (Elt F) (arg6.view.writes (Elt F) (harg6.unread xo) ((runC c i arg1 harg1 arg2 harg2 arg3 harg3 arg4 harg4 arg5 harg5 arg6 harg6 arg7 harg7 arg8 harg8 hc0 hc1 x0 x1 x2 x3 x4 xs0 xs1).2 xo).1)

variable (m : (ℓ : Loc nD τ sig) → Buf (Elt F) ℓ) (ρ : Dev nD → PrngReg)

/-! ## The scratch buffers after each point -/

theorem N25 : cfg0.N = 25 := N_0

/-- A point after the first is not the first. -/
theorem not_first (n : ℕ) (hn : n + 1 < cfg0.N) : ¬ (n + 1) % 25 = 0 := by
  have hN : n + 1 < 25 := lt_of_lt_of_eq hn N25; omega

/-- What the two scratch buffers hold after the body at point n: the transformed features and the running statistics. -/
def scAt (c : Dev nD) : (n : ℕ) → n < cfg0.N → Vec F S10000x128 .f32 × Vec F S8x128 .f32
  | 0, hn => (scA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩),
      scA1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h1 : (n + 1) % 25 = 24 then
      ((scAt c n (Nat.lt_of_succ_lt hn)).1,
        scC1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => not_first n hn ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2)
    else
      ((scAt c n (Nat.lt_of_succ_lt hn)).1,
        scB1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => not_first n hn ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2)

/-- The scratch buffers after the first point. -/
theorem scAt_A (c : Dev nD) (t : Fin cfg0.N) (h0 : t.val % 25 = 0) (h1 : ¬t.val % 25 = 24) :
    scAt m c t.val t.isLt = (scA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
      scA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact absurd h0 (not_first n hn)

/-- The scratch buffers after a middle point: the features as before, the statistics updated. -/
theorem scAt_B (c : Dev nD) (t : Fin cfg0.N) (h0 : ¬t.val % 25 = 0) (h1 : ¬t.val % 25 = 24) :
    scAt m c t.val t.isLt = ((scAt m c (t.val - 1) (Nat.lt_of_le_of_lt (Nat.sub_le _ _) t.isLt)).1,
      scB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The scratch buffers after the last point. -/
theorem scAt_C (c : Dev nD) (t : Fin cfg0.N) (h0 : ¬t.val % 25 = 0) (h1 : t.val % 25 = 24) :
    scAt m c t.val t.isLt = ((scAt m c (t.val - 1) (Nat.lt_of_le_of_lt (Nat.sub_le _ _) t.isLt)).1,
      scC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The output buffer across a point -/

/-- What the output's staging buffer holds after the body at point t if it held xo before. -/
def outStep (c : Dev nD) (t : Fin cfg0.N) (xo : Vec F S10000x128 .f32) : Vec F S10000x128 .f32 :=
  if h0 : t.val % 25 = 0 then
    if h1 : t.val % 25 = 24 then xo
    else oA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) xo
  else
    if h1 : t.val % 25 = 24 then
      oC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo
    else
      oB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo

theorem outStep_A (c : Dev nD) (t : Fin cfg0.N) (h0 : t.val % 25 = 0) (h1 : ¬t.val % 25 = 24) (xo : Vec F S10000x128 .f32) :
    outStep m c t xo = oA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) xo := by
  unfold outStep; rw [dif_pos h0, dif_neg h1]
theorem outStep_B (c : Dev nD) (t : Fin cfg0.N) (h0 : ¬t.val % 25 = 0) (h1 : ¬t.val % 25 = 24) (xo : Vec F S10000x128 .f32) :
    outStep m c t xo = oB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo := by
  unfold outStep; rw [dif_neg h0, dif_neg h1]
theorem outStep_C (c : Dev nD) (t : Fin cfg0.N) (h0 : ¬t.val % 25 = 0) (h1 : t.val % 25 = 24) (xo : Vec F S10000x128 .f32) :
    outStep m c t xo = oC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo := by
  unfold outStep; rw [dif_neg h0, dif_pos h1]

/-! ## The invariant between points -/

/-- Before the first point the scratch buffers hold anything; after point n they hold what it left. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2)) ∗ (∃ r, prngReg c r)) := by
  cases n with
  | zero => exact absurd rfl hz
  | succ n => rfl

/-! ## The pipeline's proof data -/

/-- The proof data on core c: the arrays as the region finds them; every input's staging buffer left as
    found; the output's staging buffer left at the point's image of what was found; the invariant above;
    nothing owed; full shares. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = outStep m c t Y
  Φ t := PhiS m c t.val (Nat.le_of_lt_succ t.isLt)
  q _ := fullShare
  owed _ := 0

theorem A_eq (c : Dev nD) (w : Fin cfg0.W) : (rdat m c).A w = V m c (Pipeline.arrRef spec0 w) := by
  dsimp only [rdat]

theorem PhiS_castSucc (c : Dev nD) (t : Fin cfg0.N) :
    (rdat m c).Φ t.castSucc = PhiS m c t.val (Nat.le_of_lt t.isLt) := by
  dsimp only [rdat]; simp only [Fin.coe_castSucc]

end Cert.Kernel.Hand

end
-- ==== Proof.KBody.lean ====
/-
  The body obligation of the fused kernel's pipeline and its launch.

  At every point the body is handed each input's staging buffer at that input's block (fetched
  there or carried from the first point: the block index has not moved) and the output's staging
  buffer at whatever it held; it hands every input back as found and the output at the point's
  image of what was found. The case analysis is on the point: first, middle, last.
-/
import proofs.«167329_g16630113370191_cont_week2b_735_26_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the inputs' staging buffers -/

/-- Input window 0's staging buffer holds its block wherever the body is handed it. -/
theorem finds0_0 (c : Dev nD) (t : Fin cfg0.N) (Y : (cfg0.win 0).block.Idx → Elt F (cfg0.win 0).elt)
    (h : (rdat m c).Finds 0 t Y) : Y = iblk m c 0 t := by
  obtain ⟨d, hd⟩ := Pipeline.RDat.finds_in_eq_fetched (rdat m c) 0 rfl (fun _ _ _ => rfl) (fun _ _ _ h => h) t Y h
  rw [hd]; unfold Pipeline.RDat.fetched Pipeline.RDat.blockOf iblk; rw [A_eq]; try rfl
/-- Input window 1's staging buffer holds its block wherever the body is handed it. -/
theorem finds0_1 (c : Dev nD) (t : Fin cfg0.N) (Y : (cfg0.win 1).block.Idx → Elt F (cfg0.win 1).elt)
    (h : (rdat m c).Finds 1 t Y) : Y = iblk m c 1 t := by
  obtain ⟨d, hd⟩ := Pipeline.RDat.finds_in_eq_fetched (rdat m c) 1 rfl (fun _ _ _ => rfl) (fun _ _ _ h => h) t Y h
  rw [hd]; unfold Pipeline.RDat.fetched Pipeline.RDat.blockOf iblk; rw [A_eq]; try rfl
/-- Input window 2's staging buffer holds its block wherever the body is handed it. -/
theorem finds0_2 (c : Dev nD) (t : Fin cfg0.N) (Y : (cfg0.win 2).block.Idx → Elt F (cfg0.win 2).elt)
    (h : (rdat m c).Finds 2 t Y) : Y = iblk m c 2 t := by
  obtain ⟨d, hd⟩ := Pipeline.RDat.finds_in_eq_fetched (rdat m c) 2 rfl (fun _ _ _ => rfl) (fun _ _ _ h => h) t Y h
  rw [hd]; unfold Pipeline.RDat.fetched Pipeline.RDat.blockOf iblk; rw [A_eq]; try rfl
/-- Input window 3's staging buffer holds its block wherever the body is handed it. -/
theorem finds0_3 (c : Dev nD) (t : Fin cfg0.N) (Y : (cfg0.win 3).block.Idx → Elt F (cfg0.win 3).elt)
    (h : (rdat m c).Finds 3 t Y) : Y = iblk m c 3 t := by
  obtain ⟨d, hd⟩ := Pipeline.RDat.finds_in_eq_fetched (rdat m c) 3 rfl (fun _ _ _ => rfl) (fun _ _ _ h => h) t Y h
  rw [hd]; unfold Pipeline.RDat.fetched Pipeline.RDat.blockOf iblk; rw [A_eq]; try rfl
/-- Input window 4's staging buffer holds its block wherever the body is handed it. -/
theorem finds0_4 (c : Dev nD) (t : Fin cfg0.N) (Y : (cfg0.win 4).block.Idx → Elt F (cfg0.win 4).elt)
    (h : (rdat m c).Finds 4 t Y) : Y = iblk m c 4 t := by
  obtain ⟨d, hd⟩ := Pipeline.RDat.finds_in_eq_fetched (rdat m c) 4 rfl (fun _ _ _ => rfl) (fun _ _ _ h => h) t Y h
  rw [hd]; unfold Pipeline.RDat.fetched Pipeline.RDat.blockOf iblk; rw [A_eq]; try rfl

/-! ## The body at a point -/

/-- What the body is called with at point t, the output's buffer at xo, -/
def bodyPre (c : Dev nD) (t : Fin cfg0.N) (xo : Vec F S10000x128 .f32) : sProp 𝕄 :=
  iprop((rdat m c).Φ t.castSucc ∗ (rdat m c).owesAt () t.castSucc
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
    ∗ owns (c : Thread nD τ) (ms0_5 t) fullShare xo)

/-- and what it returns. -/
def bodyPost (c : Dev nD) (t : Fin cfg0.N) (xo : Vec F S10000x128 .f32) : sProp 𝕄 :=
  iprop((rdat m c).Φ t.succ ∗ (rdat m c).owesAt () t.succ
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
    ∗ owns (c : Thread nD τ) (ms0_5 t) fullShare (outStep m c t xo))

set_option maxHeartbeats 9600000 in
/-- The body at any point, by the point's case: the invariant hands it the scratch buffers at what the point before
    left (at anything at the first point) and takes them back at this point's contents. -/
theorem sound_body (c : Dev nD) (t : Fin cfg0.N) (xo : Vec F S10000x128 .f32) :
    bodyPre m c t xo ⊢ wp frame (wpE (defs₀ (F := F)) Variants.none c none) Set.univ (bodyAt0 t) (fun _ => bodyPost m c t xo) := by
  unfold bodyPre bodyPost bodyAt0
  rw [show (rdat m c).owesAt () t.succ = (rdat m c).owesAt () t.castSucc from rfl]
  rw [show (rdat m c).Φ t.succ = PhiS m c (t.val + 1) t.isLt from rfl, PhiS_succ]
  have hN : t.val < 25 := lt_of_lt_of_eq t.isLt N25
  by_cases h0 : t.val % 25 = 0
  · have h1 : ¬ t.val % 25 = 24 := by omega
    have hz : t.val = 0 := by omega
    rw [scAt_A m c t h0 h1, outStep_A m c t h0 h1]
    unfold scA0 scA1 oA; (try dsimp only)
    rw [PhiS_castSucc m c t, PhiS_zero m c _ _ hz, PhiA0_eq]
    iintro ⟨⟨⟨HS0, HS1⟩, Hg⟩, Ho, H0, H1, H2, H3, H4, H5⟩
    iapply (((runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 xo).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverA0 c _ _ _ _ _ _ _ _ _ _ _ _ _ _ _ _ _ _ _ _ _ _ _ _)
        unfold owns; iexists _; isplitr
        swap; · iexact HS1
        ipureintro; exact View.read_writes_of_cover _ _ _ _ _ (scoverA1 c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; rfl
  · have hz : t.val ≠ 0 := by omega
    by_cases h1 : t.val % 25 = 24
    · rw [scAt_C m c t h0 h1, outStep_C m c t h0 h1]
      unfold scC1 oC; (try dsimp only)
      rw [PhiS_castSucc m c t, PhiS_pos m c _ _ hz]
      iintro ⟨⟨⟨HS0, HS1⟩, Hg⟩, Ho, H0, H1, H2, H3, H4, H5⟩
      iapply (((runC c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2).2 xo).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rfl
    · rw [scAt_B m c t h0 h1, outStep_B m c t h0 h1]
      unfold scB1 oB; (try dsimp only)
      rw [PhiS_castSucc m c t, PhiS_pos m c _ _ hz]
      iintro ⟨⟨⟨HS0, HS1⟩, Hg⟩, Ho, H0, H1, H2, H3, H4, H5⟩
      iapply (((runB c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2).2 xo).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rfl

/-- The body obligation of the relational proof data, at every point: each input is found at its block and handed
    back as found; the output is handed back at the point's image of what was found. -/
theorem body_obligation (c : Dev nD) : (rdat (F := F) m c).BodyObligation (defs₀ (F := F)) Variants.none () Set.univ := fun t Y hY => by
  rw [bigSep_W0, bigSep_W0]
  have e0 := finds0_0 m c t (Y 0) (hY 0)
  have e1 := finds0_1 m c t (Y 1) (hY 1)
  have e2 := finds0_2 m c t (Y 2) (hY 2)
  have e3 := finds0_3 m c t (Y 3) (hY 3)
  have e4 := finds0_4 m c t (Y 4) (hY 4)
  rw [e0, e1, e2, e3, e4]
  refine (sound_body m c t (Y 5)).trans (wp_mono _ _ _ fun _ => ?_)
  unfold bodyPost
  iintro ⟨HΦ, Ho, H0, H1, H2, H3, H4, H5⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  iexists _; isplitr; swap; · iexact H5
  ipureintro; exact rfl

/-! ## The launch -/

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After any point but the first the invariant gives it back: the scratch buffers' contents are dropped. -/
theorem Phi_out (c : Dev nD) (t : Fin (cfg0.N + 1)) (ht : t.val ≠ 0) : (rdat m c).Φ t ⊢ Pipeline.ΦA spec0 c := by
  rw [show (rdat m c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (rdat m c).Φ (Fin.last cfg0.N) ⊢ Pipeline.ΦA spec0 c :=
  Phi_out m c _ (by rw [Fin.val_last]; have : cfg0.N = 25 := N25; omega)

set_option backward.isDefEq.respectTransparency.types false in
/-- From any memory with zero counters every weakly fair execution of the program terminates; every input array of
    the pipeline ends unchanged, the output array at contents the relation allows, every other unscoped buffer at its
    region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 4 rfl).trans ((A_eq m c 4).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Hand

end
-- ==== Proof.KIShared.lean ====
/-
  The grid of the fused kernel has 25 points. Its body branches twice on the grid coordinate:
  the first branch (building the feature transform and clearing the column statistics) is taken
  exactly at point 0, the second (normalising every row block in place) exactly at point 24.
  Here: the two branch conditions in closed form, decided over the grid; the names of the
  staging buffers the body is called with at a point; and the two scratch buffers the body
  carries from point to point (the transformed features and the column statistics).
-/
import proofs.«167329_g16630113370191_cont_week2b_735_26_alg».proof.Proof.Gen.KernelIdeal.Launch
import proofs.«167329_g16630113370191_cont_week2b_735_26_alg».proof.Proof.Gen.KernelIdeal.Skeleton
import proofs.«167329_g16630113370191_cont_week2b_735_26_alg».proof.Proof.Gen.KernelIdeal.Points
import proofs.«167329_g16630113370191_cont_week2b_735_26_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition as the body computes it from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (by decide +kernel : ∀ t : Fin grid0.N, cond0_0 (grid0.coords t) ↔ t.val % 25 = 0)

/-- The second branch's condition. -/
abbrev cond0_1 (i : grid0.Coords) : Prop := (Scalar.cmpi .ne (Scalar.extui (Scalar.cmpi .eq (BitVec.ofNat 32 (i 0).val) 24#32)) 0#32) = 1#1
/-- It holds at the last point only. -/
theorem hcond0_1 : ∀ t : Fin cfg0.N, cond0_1 (grid0.coords t) ↔ t.val % 25 = 24 :=
  (by decide +kernel : ∀ t : Fin grid0.N, cond0_1 (grid0.coords t) ↔ t.val % 25 = 24)

/-- Each window's current staging buffer at point t, as the body is called with it, and that it is a whole buffer. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S10000x128 .f32 := win0_5.stage (cfg0.slots t 5)
abbrev hs0_5 (t : Fin cfg0.N) : (ms0_5 t).IsWhole := hstage0_5 ((cfg0.slots t 5).cast nbuf0_5)
/-- The two scratch buffers: the transformed features (10000 × 128) and the column statistics (8 × 128). -/
abbrev scM0_0 : Memref sig .tc .vmem S10000x128 .f32 := Memref.whole cc0_scratch0
abbrev scM0_1 : Memref sig .tc .vmem S8x128 .f32 := Memref.whole cc0_scratch1
abbrev VS0_0 : View sig .tc .vmem S10000x128 .f32 := scM0_0.view
abbrev VS0_1 : View sig .tc .vmem S8x128 .f32 := scM0_1.view
/-- The output's staging buffer as a view: what it holds is stated through it. -/
abbrev VO (t : Fin cfg0.N) : View sig .tc .vmem S10000x128 .f32 := (ms0_5 t).view

/-- What the launch hands the region besides the windows: the two scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KIRunB.lean ====
/-
  The body of the fused kernel at a middle point of the grid (neither first nor last):
  one row block of adj times the transformed features is stored into the output buffer at the rows
  of this point, and its column sums and column sums of squares are added into the first two rows
  of the statistics.
-/
import proofs.«167329_g16630113370191_cont_week2b_735_26_alg».proof.Proof.KIShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither the first nor the last, on whole staging buffers holding the inputs' blocks, the output buffer at any contents xo and the two scratch buffers at contents xs0, xs1, the body runs; it leaves the inputs and the transformed features as they were, the output buffer at xo with one row block overwritten, and the statistics at xs1 with its first two rows overwritten. The overwritten pieces (last first) are what the run finds; those of the statistics do not depend on xo. -/
noncomputable def runB (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i)
    (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) :
    Σ' (LS1 : List (View.Piece (Elt F) S8x128 .f32)), (xo : Vec F S10000x128 .f32) → { LO : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread xo) LO) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, fun xo => ⟨?_, fun E K => ?run⟩⟩
  case run =>
    simp only [cc0_fused_eq_skeleton]; unfold cc0_fused_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.KernelIdeal.Hand

end
-- ==== Proof.KIRunA.lean ====
/-
  The body of the fused kernel at the first point of the grid: the Hamilton matrix is assembled
  from the weight block, the features are multiplied by it and stored whole into the first scratch
  buffer, the statistics are cleared; then, as at every point, one row block of adj times the
  transformed features is stored into the output buffer and its column sums and sums of squares
  are added into the statistics.
-/
import proofs.«167329_g16630113370191_cont_week2b_735_26_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point, on whole staging buffers holding the inputs' blocks, the output buffer at any contents xo and the two scratch buffers at anything, the body runs; it leaves the inputs as they were, the output buffer at xo with its first row block overwritten, and both scratch buffers wholly written. The written pieces (last first) are what the run finds; those of the scratch buffers do not depend on xo. -/
noncomputable def runA (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i)
    (x0 : Vec F S10000x128 .f32) (x1 : Vec F S16x128 .f32) (x2 : Vec F S1x128 .f32) (x3 : Vec F S1x128 .f32) (x4 : Vec F S400x10000 .f32) :
    Σ' (LS0 : List (View.Piece (Elt F) S10000x128 .f32)) (LS1 : List (View.Piece (Elt F) S8x128 .f32)), (xo : Vec F S10000x128 .f32) → { LO : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread xo) LO) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, ?_, fun xo => ⟨?_, fun E K => ?run⟩⟩
  case run =>
    simp only [cc0_fused_eq_skeleton]; unfold cc0_fused_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]; · iexists _; iexact HS0
    iexists _; iexact HS1

end Cert.KernelIdeal.Hand

end
-- ==== Proof.KIRunC.lean ====
/-
  The body of the fused kernel at the last point of the grid: after the last row block of
  adj times the transformed features is stored and the statistics are completed, the column mean,
  variance, scale and shift are formed from the statistics, gamma and beta, and each of the 25 row
  blocks of the output buffer is read back, mapped through y ↦ tanh(y · scale + shift), and stored
  in place.
-/
import proofs.«167329_g16630113370191_cont_week2b_735_26_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point, on whole staging buffers holding the inputs' blocks, the output buffer at contents xo and the two scratch buffers at contents xs0, xs1, the body runs; it leaves the inputs and the transformed features as they were, the statistics at xs1 with its first two rows overwritten, and the output buffer at xo with the last row block overwritten and then every one of the 25 row blocks replaced by its normalised image. The overwritten pieces (last first) are what the run finds; those of the statistics do not depend on xo. -/
noncomputable def runC (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i)
    (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) :
    Σ' (LS1 : List (View.Piece (Elt F) S8x128 .f32)), (xo : Vec F S10000x128 .f32) → { LO : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread xo) LO) ∗ owns (c : Thread nD τ) arg7 fullShare xs0 ∗ (arg8.view.loc (c : Thread nD τ) ↦[arg8.view.set]{fullShare} arg8.view.writes (Elt F) (harg8.unread xs1) LS1)) -∗ K ⟨⟩))
          ⊢ wp frame (wpE (defs₀ (F := F)) Variants.none c none) E (cc0_fused i arg1 harg1 arg2 harg2 arg3 harg3 arg4 harg4 arg5 harg5 arg6 harg6 arg7 harg7 arg8 harg8) K } := by
  refine ⟨?_, fun xo => ⟨?_, fun E K => ?run⟩⟩
  case run =>
    simp only [cc0_fused_eq_skeleton]; unfold cc0_fused_skel
    simp only [k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [HS0]
    · iexists _; isplitr; · ipureintro; exact harg7.read_unread _
      iexact HS0
    iexact HS1

end Cert.KernelIdeal.Hand

end
-- ==== Proof.KIData.lean ====
/-
  What the fused kernel's buffers hold from point to point, and the proof data of its pipeline.

  The two scratch buffers are deterministic: after point 0 the first holds the transformed
  features and the second the statistics of row block 0; every later point leaves the first as it
  was and adds its row block's column sums and sums of squares to the second. The output's staging
  buffer is never fetched and is written back only after the last point, so what it holds after a
  point depends on what it held before: the point's row block is overwritten (and, at the last
  point, every row block is then normalised in place). That dependence is stated as a relation
  between the contents the body is handed and the contents it leaves.
-/
import proofs.«167329_g16630113370191_cont_week2b_735_26_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, over any whole buffers -/

/-- First point: the first scratch buffer after the body (its pieces cover it). -/
def scA0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) : Vec F S10000x128 .f32 :=
  arg7.view.read (Elt F) (arg7.view.writes (Elt F) arg7.view.junk (runA c i arg1 harg1 arg2 harg2 arg3 harg3 arg4 harg4 arg5 harg5 arg6 harg6 arg7 harg7 arg8 harg8 hc0 hc1 x0 x1 x2 x3 x4).1)
/-- First point: the statistics after the body (its pieces cover it). -/
def scA1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) : Vec F S8x128 .f32 :=
  arg8.view.read (Elt F) (arg8.view.writes (Elt F) arg8.view.junk (runA c i arg1 harg1 arg2 harg2 arg3 harg3 arg4 harg4 arg5 harg5 arg6 harg6 arg7 harg7 arg8 harg8 hc0 hc1 x0 x1 x2 x3 x4).2.1)
/-- First point: the output buffer after the body, over what it held. -/
def oA (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (xo : Vec F S10000x128 .f32) : Vec F S10000x128 .f32 :=
  arg6.view.read (Elt F) (arg6.view.writes (Elt F) (harg6.unread xo) ((runA c i arg1 harg1 arg2 harg2 arg3 harg3 arg4 harg4 arg5 harg5 arg6 harg6 arg7 harg7 arg8 harg8 hc0 hc1 x0 x1 x2 x3 x4).2.2 xo).1)

/-- The first point's pieces for the first scratch buffer cover it: one piece, the whole buffer. -/
theorem scoverA0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (y : S10000x128.Idx) :
    ∃ pc ∈ (runA c i arg1 harg1 arg2 harg2 arg3 harg3 arg4 harg4 arg5 harg5 arg6 harg6 arg7 harg7 arg8 harg8 hc0 hc1 x0 x1 x2 x3 x4).1, y ∈ pc.1.set :=
  View.cover_of_tiledL (runA c i arg1 harg1 arg2 harg2 arg3 harg3 arg4 harg4 arg5 harg5 arg6 harg6 arg7 harg7 arg8 harg8 hc0 hc1 x0 x1 x2 x3 x4).1 S10000x128.size (by sl_kernel_rfl) y
/-- The first point's pieces for the statistics cover them: one of them clears the whole buffer. -/
theorem scoverA1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (y : S8x128.Idx) :
    ∃ pc ∈ (runA c i arg1 harg1 arg2 harg2 arg3 harg3 arg4 harg4 arg5 harg5 arg6 harg6 arg7 harg7 arg8 harg8 hc0 hc1 x0 x1 x2 x3 x4).2.1, y ∈ pc.1.set :=
  View.cover_of_wholeMem (runA c i arg1 harg1 arg2 harg2 arg3 harg3 arg4 harg4 arg5 harg5 arg6 harg6 arg7 harg7 arg8 harg8 hc0 hc1 x0 x1 x2 x3 x4).2.1 (by sl_whole_mem) y

/-- A middle point: the statistics after the body, over what they held. -/
def scB1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) : Vec F S8x128 .f32 :=
  arg8.view.read (Elt F) (arg8.view.writes (Elt F) (harg8.unread xs1) (runB c i arg1 harg1 arg2 harg2 arg3 harg3 arg4 harg4 arg5 harg5 arg6 harg6 arg7 harg7 arg8 harg8 hc0 hc1 x0 x1 x2 x3 x4 xs0 xs1).1)
/-- A middle point: the output buffer after the body, over what it held. -/
def oB (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) : Vec F S10000x128 .f32 :=
  arg6.view.read (Elt F) (arg6.view.writes (Elt F) (harg6.unread xo) ((runB c i arg1 harg1 arg2 harg2 arg3 harg3 arg4 harg4 arg5 harg5 arg6 harg6 arg7 harg7 arg8 harg8 hc0 hc1 x0 x1 x2 x3 x4 xs0 xs1).2 xo).1)

/-- The last point: the statistics after the body, over what they held. -/
def scC1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) : Vec F S8x128 .f32 :=
  arg8.view.read (Elt F) (arg8.view.writes (Elt F) (harg8.unread xs1) (runC c i arg1 harg1 arg2 harg2 arg3 harg3 arg4 harg4 arg5 harg5 arg6 harg6 arg7 harg7 arg8 harg8 hc0 hc1 x0 x1 x2 x3 x4 xs0 xs1).1)
/-- The last point: the output buffer after the body, over what it held. -/
def oC (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) : Vec F S10000x128 .f32 :=
  arg6.view.read (Elt F) (arg6.view.writes (Elt F) (harg6.unread xo) ((runC c i arg1 harg1 arg2 harg2 arg3 harg3 arg4 harg4 arg5 harg5 arg6 harg6 arg7 harg7 arg8 harg8 hc0 hc1 x0 x1 x2 x3 x4 xs0 xs1).2 xo).1)

variable (m : (ℓ : Loc nD τ sig) → Buf (Elt F) ℓ) (ρ : Dev nD → PrngReg)

/-! ## The scratch buffers after each point -/

theorem N25 : cfg0.N = 25 := N_0

/-- A point after the first is not the first. -/
theorem not_first (n : ℕ) (hn : n + 1 < cfg0.N) : ¬ (n + 1) % 25 = 0 := by
  have hN : n + 1 < 25 := lt_of_lt_of_eq hn N25; omega

/-- What the two scratch buffers hold after the body at point n: the transformed features and the running statistics. -/
def scAt (c : Dev nD) : (n : ℕ) → n < cfg0.N → Vec F S10000x128 .f32 × Vec F S8x128 .f32
  | 0, hn => (scA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩),
      scA1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h1 : (n + 1) % 25 = 24 then
      ((scAt c n (Nat.lt_of_succ_lt hn)).1,
        scC1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => not_first n hn ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2)
    else
      ((scAt c n (Nat.lt_of_succ_lt hn)).1,
        scB1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => not_first n hn ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (scAt c n (Nat.lt_of_succ_lt hn)).1 (scAt c n (Nat.lt_of_succ_lt hn)).2)

/-- The scratch buffers after the first point. -/
theorem scAt_A (c : Dev nD) (t : Fin cfg0.N) (h0 : t.val % 25 = 0) (h1 : ¬t.val % 25 = 24) :
    scAt m c t.val t.isLt = (scA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
      scA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact absurd h0 (not_first n hn)

/-- The scratch buffers after a middle point: the features as before, the statistics updated. -/
theorem scAt_B (c : Dev nD) (t : Fin cfg0.N) (h0 : ¬t.val % 25 = 0) (h1 : ¬t.val % 25 = 24) :
    scAt m c t.val t.isLt = ((scAt m c (t.val - 1) (Nat.lt_of_le_of_lt (Nat.sub_le _ _) t.isLt)).1,
      scB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- The scratch buffers after the last point. -/
theorem scAt_C (c : Dev nD) (t : Fin cfg0.N) (h0 : ¬t.val % 25 = 0) (h1 : t.val % 25 = 24) :
    scAt m c t.val t.isLt = ((scAt m c (t.val - 1) (Nat.lt_of_le_of_lt (Nat.sub_le _ _) t.isLt)).1,
      scC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The output buffer across a point -/

/-- What the output's staging buffer holds after the body at point t if it held xo before. -/
def outStep (c : Dev nD) (t : Fin cfg0.N) (xo : Vec F S10000x128 .f32) : Vec F S10000x128 .f32 :=
  if h0 : t.val % 25 = 0 then
    if h1 : t.val % 25 = 24 then xo
    else oA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) xo
  else
    if h1 : t.val % 25 = 24 then
      oC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo
    else
      oB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo

theorem outStep_A (c : Dev nD) (t : Fin cfg0.N) (h0 : t.val % 25 = 0) (h1 : ¬t.val % 25 = 24) (xo : Vec F S10000x128 .f32) :
    outStep m c t xo = oA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) xo := by
  unfold outStep; rw [dif_pos h0, dif_neg h1]
theorem outStep_B (c : Dev nD) (t : Fin cfg0.N) (h0 : ¬t.val % 25 = 0) (h1 : ¬t.val % 25 = 24) (xo : Vec F S10000x128 .f32) :
    outStep m c t xo = oB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo := by
  unfold outStep; rw [dif_neg h0, dif_neg h1]
theorem outStep_C (c : Dev nD) (t : Fin cfg0.N) (h0 : ¬t.val % 25 = 0) (h1 : t.val % 25 = 24) (xo : Vec F S10000x128 .f32) :
    outStep m c t xo = oC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2 xo := by
  unfold outStep; rw [dif_neg h0, dif_pos h1]

/-! ## The invariant between points -/

/-- Before the first point the scratch buffers hold anything; after point n they hold what it left. -/
def PhiS (c : Dev nD) : (n : ℕ) → n ≤ cfg0.N → sProp 𝕄
  | 0, _ => Pipeline.ΦA spec0 c
  | n + 1, hn => iprop(iprop(owns (c : Thread nD τ) scM0_0 fullShare ((scAt m c n hn).1) ∗ owns (c : Thread nD τ) scM0_1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2)) ∗ (∃ r, prngReg c r)) := by
  cases n with
  | zero => exact absurd rfl hz
  | succ n => rfl

/-! ## The pipeline's proof data -/

/-- The proof data on core c: the arrays as the region finds them; every input's staging buffer left as
    found; the output's staging buffer left at the point's image of what was found; the invariant above;
    nothing owed; full shares. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = outStep m c t Y
  Φ t := PhiS m c t.val (Nat.le_of_lt_succ t.isLt)
  q _ := fullShare
  owed _ := 0

theorem A_eq (c : Dev nD) (w : Fin cfg0.W) : (rdat m c).A w = V m c (Pipeline.arrRef spec0 w) := by
  dsimp only [rdat]

theorem PhiS_castSucc (c : Dev nD) (t : Fin cfg0.N) :
    (rdat m c).Φ t.castSucc = PhiS m c t.val (Nat.le_of_lt t.isLt) := by
  dsimp only [rdat]; simp only [Fin.coe_castSucc]

end Cert.KernelIdeal.Hand

end
-- ==== Proof.KIBody.lean ====
/-
  The body obligation of the fused kernel's pipeline and its launch.

  At every point the body is handed each input's staging buffer at that input's block (fetched
  there or carried from the first point: the block index has not moved) and the output's staging
  buffer at whatever it held; it hands every input back as found and the output at the point's
  image of what was found. The case analysis is on the point: first, middle, last.
-/
import proofs.«167329_g16630113370191_cont_week2b_735_26_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the inputs' staging buffers -/

/-- Input window 0's staging buffer holds its block wherever the body is handed it. -/
theorem finds0_0 (c : Dev nD) (t : Fin cfg0.N) (Y : (cfg0.win 0).block.Idx → Elt F (cfg0.win 0).elt)
    (h : (rdat m c).Finds 0 t Y) : Y = iblk m c 0 t := by
  obtain ⟨d, hd⟩ := Pipeline.RDat.finds_in_eq_fetched (rdat m c) 0 rfl (fun _ _ _ => rfl) (fun _ _ _ h => h) t Y h
  rw [hd]; unfold Pipeline.RDat.fetched Pipeline.RDat.blockOf iblk; rw [A_eq]; try rfl
/-- Input window 1's staging buffer holds its block wherever the body is handed it. -/
theorem finds0_1 (c : Dev nD) (t : Fin cfg0.N) (Y : (cfg0.win 1).block.Idx → Elt F (cfg0.win 1).elt)
    (h : (rdat m c).Finds 1 t Y) : Y = iblk m c 1 t := by
  obtain ⟨d, hd⟩ := Pipeline.RDat.finds_in_eq_fetched (rdat m c) 1 rfl (fun _ _ _ => rfl) (fun _ _ _ h => h) t Y h
  rw [hd]; unfold Pipeline.RDat.fetched Pipeline.RDat.blockOf iblk; rw [A_eq]; try rfl
/-- Input window 2's staging buffer holds its block wherever the body is handed it. -/
theorem finds0_2 (c : Dev nD) (t : Fin cfg0.N) (Y : (cfg0.win 2).block.Idx → Elt F (cfg0.win 2).elt)
    (h : (rdat m c).Finds 2 t Y) : Y = iblk m c 2 t := by
  obtain ⟨d, hd⟩ := Pipeline.RDat.finds_in_eq_fetched (rdat m c) 2 rfl (fun _ _ _ => rfl) (fun _ _ _ h => h) t Y h
  rw [hd]; unfold Pipeline.RDat.fetched Pipeline.RDat.blockOf iblk; rw [A_eq]; try rfl
/-- Input window 3's staging buffer holds its block wherever the body is handed it. -/
theorem finds0_3 (c : Dev nD) (t : Fin cfg0.N) (Y : (cfg0.win 3).block.Idx → Elt F (cfg0.win 3).elt)
    (h : (rdat m c).Finds 3 t Y) : Y = iblk m c 3 t := by
  obtain ⟨d, hd⟩ := Pipeline.RDat.finds_in_eq_fetched (rdat m c) 3 rfl (fun _ _ _ => rfl) (fun _ _ _ h => h) t Y h
  rw [hd]; unfold Pipeline.RDat.fetched Pipeline.RDat.blockOf iblk; rw [A_eq]; try rfl
/-- Input window 4's staging buffer holds its block wherever the body is handed it. -/
theorem finds0_4 (c : Dev nD) (t : Fin cfg0.N) (Y : (cfg0.win 4).block.Idx → Elt F (cfg0.win 4).elt)
    (h : (rdat m c).Finds 4 t Y) : Y = iblk m c 4 t := by
  obtain ⟨d, hd⟩ := Pipeline.RDat.finds_in_eq_fetched (rdat m c) 4 rfl (fun _ _ _ => rfl) (fun _ _ _ h => h) t Y h
  rw [hd]; unfold Pipeline.RDat.fetched Pipeline.RDat.blockOf iblk; rw [A_eq]; try rfl

/-! ## The body at a point -/

/-- What the body is called with at point t, the output's buffer at xo, -/
def bodyPre (c : Dev nD) (t : Fin cfg0.N) (xo : Vec F S10000x128 .f32) : sProp 𝕄 :=
  iprop((rdat m c).Φ t.castSucc ∗ (rdat m c).owesAt () t.castSucc
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
    ∗ owns (c : Thread nD τ) (ms0_5 t) fullShare xo)

/-- and what it returns. -/
def bodyPost (c : Dev nD) (t : Fin cfg0.N) (xo : Vec F S10000x128 .f32) : sProp 𝕄 :=
  iprop((rdat m c).Φ t.succ ∗ (rdat m c).owesAt () t.succ
    ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t)
    ∗ owns (c : Thread nD τ) (ms0_5 t) fullShare (outStep m c t xo))

set_option maxHeartbeats 9600000 in
/-- The body at any point, by the point's case: the invariant hands it the scratch buffers at what the point before
    left (at anything at the first point) and takes them back at this point's contents. -/
theorem sound_body (c : Dev nD) (t : Fin cfg0.N) (xo : Vec F S10000x128 .f32) :
    bodyPre m c t xo ⊢ wp frame (wpE (defs₀ (F := F)) Variants.none c none) Set.univ (bodyAt0 t) (fun _ => bodyPost m c t xo) := by
  unfold bodyPre bodyPost bodyAt0
  rw [show (rdat m c).owesAt () t.succ = (rdat m c).owesAt () t.castSucc from rfl]
  rw [show (rdat m c).Φ t.succ = PhiS m c (t.val + 1) t.isLt from rfl, PhiS_succ]
  have hN : t.val < 25 := lt_of_lt_of_eq t.isLt N25
  by_cases h0 : t.val % 25 = 0
  · have h1 : ¬ t.val % 25 = 24 := by omega
    have hz : t.val = 0 := by omega
    rw [scAt_A m c t h0 h1, outStep_A m c t h0 h1]
    unfold scA0 scA1 oA; (try dsimp only)
    rw [PhiS_castSucc m c t, PhiS_zero m c _ _ hz, PhiA0_eq]
    iintro ⟨⟨⟨HS0, HS1⟩, Hg⟩, Ho, H0, H1, H2, H3, H4, H5⟩
    iapply (((runA c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 xo).2 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverA0 c _ _ _ _ _ _ _ _ _ _ _ _ _ _ _ _ _ _ _ _ _ _ _ _)
        unfold owns; iexists _; isplitr
        swap; · iexact HS1
        ipureintro; exact View.read_writes_of_cover _ _ _ _ _ (scoverA1 c _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; rfl
  · have hz : t.val ≠ 0 := by omega
    by_cases h1 : t.val % 25 = 24
    · rw [scAt_C m c t h0 h1, outStep_C m c t h0 h1]
      unfold scC1 oC; (try dsimp only)
      rw [PhiS_castSucc m c t, PhiS_pos m c _ _ hz]
      iintro ⟨⟨⟨HS0, HS1⟩, Hg⟩, Ho, H0, H1, H2, H3, H4, H5⟩
      iapply (((runC c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2).2 xo).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rfl
    · rw [scAt_B m c t h0 h1, outStep_B m c t h0 h1]
      unfold scB1 oB; (try dsimp only)
      rw [PhiS_castSucc m c t, PhiS_pos m c _ _ hz]
      iintro ⟨⟨⟨HS0, HS1⟩, Hg⟩, Ho, H0, H1, H2, H3, H4, H5⟩
      iapply (((runB c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (scAt m c (t.val - 1) (Nat.lt_of_le_of_lt (Nat.sub_le _ _) t.isLt)).1 (scAt m c (t.val - 1) (Nat.lt_of_le_of_lt (Nat.sub_le _ _) t.isLt)).2).2 xo).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; rfl

/-- The body obligation of the relational proof data, at every point: each input is found at its block and handed
    back as found; the output is handed back at the point's image of what was found. -/
theorem body_obligation (c : Dev nD) : (rdat (F := F) m c).BodyObligation (defs₀ (F := F)) Variants.none () Set.univ := fun t Y hY => by
  rw [bigSep_W0, bigSep_W0]
  have e0 := finds0_0 m c t (Y 0) (hY 0)
  have e1 := finds0_1 m c t (Y 1) (hY 1)
  have e2 := finds0_2 m c t (Y 2) (hY 2)
  have e3 := finds0_3 m c t (Y 3) (hY 3)
  have e4 := finds0_4 m c t (Y 4) (hY 4)
  rw [e0, e1, e2, e3, e4]
  refine (sound_body m c t (Y 5)).trans (wp_mono _ _ _ fun _ => ?_)
  unfold bodyPost
  iintro ⟨HΦ, Ho, H0, H1, H2, H3, H4, H5⟩
  isplitl [HΦ]; · iexact HΦ
  isplitl [Ho]; · iexact Ho
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  iexists _; isplitr; swap; · iexact H5
  ipureintro; exact rfl

/-! ## The launch -/

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After any point but the first the invariant gives it back: the scratch buffers' contents are dropped. -/
theorem Phi_out (c : Dev nD) (t : Fin (cfg0.N + 1)) (ht : t.val ≠ 0) : (rdat m c).Φ t ⊢ Pipeline.ΦA spec0 c := by
  rw [show (rdat m c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (rdat m c).Φ (Fin.last cfg0.N) ⊢ Pipeline.ΦA spec0 c :=
  Phi_out m c _ (by rw [Fin.val_last]; have : cfg0.N = 25 := N25; omega)

set_option backward.isDefEq.respectTransparency.types false in
/-- From any memory with zero counters every weakly fair execution of the program terminates; every input array of
    the pipeline ends unchanged, the output array at contents the relation allows, every other unscoped buffer at its
    region-entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((A_eq m c 0).trans (V_main_arg0 m c)),
      (Pipeline.RDat.FramePost.arr_in h c 4 rfl).trans ((A_eq m c 4).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Hand

end
-- ==== Proof.KIOut.lean ====
/-
  What the output array holds when the fused kernel's pipeline has run.

  The output's staging buffer is written back once, after the last point, and its block is the
  whole array. So the array ends at what the buffer then holds: the last point's image of the
  image of … of the first point's image of whatever the buffer held at the start.
-/
import proofs.«167329_g16630113370191_cont_week2b_735_26_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's staging buffer after point n, if it held Y0 before the first point. -/
def outAfter (c : Dev nD) (Y0 : Vec F S10000x128 .f32) : (n : ℕ) → n < cfg0.N → Vec F S10000x128 .f32
  | 0, hn => outStep m c ⟨0, hn⟩ Y0
  | n + 1, hn => outStep m c ⟨n + 1, hn⟩ (outAfter c Y0 n (Nat.lt_of_succ_lt hn))

/-- The output window is never fetched. -/
theorem fetch0_5 : ∀ t : Fin cfg0.N, (cfg0.win 5).fetch t = false :=
  (by decide +kernel : ∀ t : Fin grid0.N, win0_5.fetch t = false)

/-- What the body may leave in the output's staging buffer at point t is the iterated image of some start contents. -/
theorem leaves5 (c : Dev nD) : ∀ (n : ℕ) (hn : n < cfg0.N) (X : (cfg0.win 5).block.Idx → Elt F (cfg0.win 5).elt),
    (rdat m c).Leaves 5 ⟨n, hn⟩ X → ∃ Y0 : Vec F S10000x128 .f32, X = outAfter m c Y0 n hn
  | 0, hn, X, h => by
    obtain ⟨Y, -, hR⟩ := h
    exact ⟨Y, hR⟩
  | n + 1, hn, X, h => by
    obtain ⟨Y, hF, hR⟩ := h
    have hN : n + 1 < 25 := lt_of_lt_of_eq hn N25
    rcases ((rdat m c).finds_of_pos (fetch0_5 ⟨n + 1, hn⟩) (Nat.succ_ne_zero n) Y).mp hF with hfl | hL
    · exfalso
      have := (flush0_5 _).mp hfl
      simp only [Nat.add_sub_cancel] at this
      omega
    · obtain ⟨Y0, hY0⟩ := leaves5 c n (Nat.lt_of_succ_lt hn) Y hL
      exact ⟨Y0, by rw [show X = outStep m c ⟨n + 1, hn⟩ Y from hR, hY0]; rfl⟩

/-- The last point. -/
abbrev tLast : Fin cfg0.N := ⟨24, by rw [N25]; omega⟩

/-- Below the last point nothing is written back: the output array is as the region found it. -/
theorem arrAt5_low (c : Dev nD) : ∀ n, n ≤ 24 → (rdat m c).ArrAt 5 n = fun G => G = (rdat m c).A 5
  | 0, _ => rfl
  | n + 1, h => by
    have hn : n < cfg0.N := by rw [N25]; omega
    have e := Pipeline.RDat.ArrAt_succ (rd := rdat m c) 5 ⟨n, hn⟩
    rw [show (⟨n, hn⟩ : Fin cfg0.N).val + 1 = n + 1 from rfl] at e
    rw [e, if_neg, arrAt5_low c n (by omega)]
    intro hf
    have := (flush0_5 ⟨n, hn⟩).mp hf
    simp only at this
    omega

/-- After the run the output array holds the write-back of the last point's buffer. -/
theorem arrAt5 (c : Dev nD) (G : Buf (Elt F) ((cfg0.win 5).arr.view.loc (c.tc : Thread nD τ)))
    (h : (rdat m c).ArrAt 5 cfg0.N G) :
    ∃ Y0 : Vec F S10000x128 .f32, G = ((cfg0.win 5).blk tLast).view.write (Elt F) ((rdat m c).A 5)
      ((cfg0.win 5).cut (cfg0.grid.coords tLast) (outAfter m c Y0 24 tLast.isLt)) Finset.univ := by
  rw [N25] at h
  have e := Pipeline.RDat.ArrAt_succ (rd := rdat m c) 5 tLast
  rw [show tLast.val + 1 = 25 from rfl] at e
  rw [e, if_pos ((flush0_5 tLast).mpr rfl), arrAt5_low m c 24 le_rfl] at h
  obtain ⟨G₀, X, hG₀, hX, rfl⟩ := h
  obtain ⟨Y0, rfl⟩ := leaves5 m c 24 tLast.isLt X hX
  subst hG₀
  exact ⟨Y0, rfl⟩

end Cert.KernelIdeal.Hand

end
-- ==== Proof.Spec.lean ====
/-
  The layer's mathematics over the extended reals, stated once for both programs.

  With Y = adj · (x · H) (10000 × 128), the batch-normalised output is, column by column,
  tanh applied to an affine image of Y. The two programs write it differently:
  one normalises with the raw second moment (mean of squares minus squared mean) and folds the
  reciprocal square root, the scale and the shift into one multiply-add per entry; the other
  centres first, averages the squared deviations, and divides by the square root.
-/
import Idealize.ShloMosaic.PureOps.Ideal
import Idealize.ShloMosaic.Lib.ValueIdx

noncomputable section

open scoped BigOperators

namespace Ognn

open Idealize.ShloMosaic Idealize.ShloMosaic.ValueIdx

/-- A two-axis array of extended reals. -/
abbrev Arr (a b : Nat) := (⟨2, ![a, b]⟩ : Shape).Idx → EReal

/-- The feature transform x · H, at row k and column j. -/
def sup (x : Arr 10000 128) (H : Arr 128 128) (k : Fin 10000) (j : Fin 128) : EReal :=
  ∑ l : Fin 128, x (ix2 k l) * H (ix2 l j)

/-- The aggregation adj · S, at row r and column j. -/
def agg (adj : Arr 10000 10000) (S : Fin 10000 → Fin 128 → EReal) (r : Fin 10000) (j : Fin 128) : EReal :=
  ∑ k : Fin 10000, adj (ix2 r k) * S k j

/-- The row count as both programs spell it: the f32 word of 10000. -/
def cN : EReal := Ideal.ofBits .f32 0x461C4000#32
/-- The variance offset as both programs spell it: the f32 word nearest 1e-5. -/
def eps : EReal := Ideal.ofBits .f32 0x3727C5AC#32

variable (Y : Fin 10000 → Fin 128 → EReal) (g b : Fin 128 → EReal)

/-- Column sums and column sums of squares. -/
def colSum (j : Fin 128) : EReal := ∑ r : Fin 10000, Y r j
def colSumSq (j : Fin 128) : EReal := ∑ r : Fin 10000, Y r j * Y r j

/-- The column mean. -/
def mean (j : Fin 128) : EReal := Ideal.div (colSum Y j) cN

/-- The variance as mean of squares minus squared mean. -/
def varK (j : Fin 128) : EReal := Ideal.div (colSumSq Y j) cN - mean Y j * mean Y j

/-- The variance as mean of squared deviations. -/
def varR (j : Fin 128) : EReal :=
  Ideal.div (∑ r : Fin 10000, (Y r j - mean Y j) * (Y r j - mean Y j)) cN

/-- The folded form: y · scale + shift with scale = rsqrt(var + eps) · g and shift = b - mean · scale. -/
def outK (r : Fin 10000) (j : Fin 128) : EReal :=
  Ideal.tanh (Y r j * (Ideal.rsqrt (varK Y j + eps) * g j)
    + (b j - mean Y j * (Ideal.rsqrt (varK Y j + eps) * g j)))

/-- The centred form: ((y - mean) / sqrt(var + eps)) · g + b. -/
def outR (r : Fin 10000) (j : Fin 128) : EReal :=
  Ideal.tanh (Ideal.div (Y r j - mean Y j) (Ideal.sqrt (varR Y j + eps)) * g j + b j)

end Ognn

end
-- ==== Proof.Spec2.lean ====
/-
  The scale and the shift of the folded normalisation, as functions of a column's two running
  statistics (its sum s1 and its sum of squares s2), its gain g and its offset b:
  scale = rsqrt((s2 / n - (s1 / n)²) + eps) · g and shift = b - (s1 / n) · scale.
-/
import proofs.«167329_g16630113370191_cont_week2b_735_26_alg».proof.Proof.Spec

noncomputable section

namespace Ognn

open Idealize.ShloMosaic

/-- The column's scale from its statistics and gain. -/
def scaleOf (s1 s2 g : EReal) : EReal :=
  Ideal.rsqrt ((Ideal.div s2 cN - Ideal.div s1 cN * Ideal.div s1 cN) + eps) * g

/-- The column's shift from its statistics, gain and offset. -/
def shiftOf (s1 s2 g b : EReal) : EReal := b - Ideal.div s1 cN * scaleOf s1 s2 g

/-- The folded form of the output is y · scale + shift at the column's full statistics. -/
theorem outK_eq (Y : Fin 10000 → Fin 128 → EReal) (g b : Fin 128 → EReal) (r : Fin 10000) (j : Fin 128) :
    outK Y g b r j = Ideal.tanh (Y r j * scaleOf (colSum Y j) (colSumSq Y j) (g j)
      + shiftOf (colSum Y j) (colSumSq Y j) (g j) (b j)) := rfl

end Ognn

end
-- ==== Proof.Consts.lean ====
/-
  The three float words both programs spell, as the extended reals they denote:
  the zero word is 0, the word 0x461C4000 is ten thousand, and the word 0x3727C5AC
  is a positive real (the binary fraction nearest one hundred-thousandth).
-/
import proofs.«167329_g16630113370191_cont_week2b_735_26_alg».proof.Proof.Spec

noncomputable section

namespace Ognn

open Idealize.ShloMosaic

/-- The zero word denotes 0. -/
theorem ofBits_zero : Ideal.ofBits .f32 0x00000000#32 = 0 := by
  simp [Ideal.ofBits, Ideal.ieee]

/-- The row count's word denotes the real 10000. -/
theorem cN_eq : cN = ((10000 : ℝ) : EReal) := by
  unfold cN
  simp [Ideal.ofBits, Ideal.ieee, -EReal.coe_mul]; norm_num

/-- The variance offset's word denotes a positive real. -/
theorem eps_pos : ∃ e : ℝ, 0 < e ∧ eps = (e : EReal) := by
  unfold eps
  refine ⟨(2 ^ 23 + 2606508 : ℕ) * (2 : ℝ) ^ ((110 : Int) - 127 - 23), by positivity, ?_⟩
  simp [Ideal.ofBits, Ideal.ieee, -EReal.coe_mul]

end Ognn

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.KIPay.lean ====
/-
  The fused kernel's pure values read at an index over the extended reals: the aggregation block as a sum over
  the contracted coordinate, the two running column statistics as the carried row plus a sum over the block's rows,
  the zero fill, the scale and shift of the folded normalisation from the statistics, and each 400-row block of the
  final sweep as tanh of block · scale + shift with the one-row scale and shift repeated down the rows.
-/
import proofs.«167329_g16630113370191_cont_week2b_735_26_alg».proof.Proof.Gen.KernelIdeal.Skeleton
import proofs.«167329_g16630113370191_cont_week2b_735_26_alg».proof.Proof.Gen.KernelIdeal
import proofs.«167329_g16630113370191_cont_week2b_735_26_alg».proof.Proof.Spec2
import proofs.«167329_g16630113370191_cont_week2b_735_26_alg».proof.Proof.Consts
import proofs.«167329_g16630113370191_cont_week2b_735_26_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The aggregation block -/

/-- The program's dimension numbers are the plain ones: the left operand's last axis against the right operand's first. -/
theorem dot_eq_plain :
    dot_S400x10000_S10000x128_S400x128_1_0_0_1_n_n = DotDims.plain 400 10000 128 := rfl

/-- The block of the aggregation at row r and column j: the sum over the contracted coordinate. -/
theorem pay2_apply (v3 : Vec Ideal S400x10000 .f32) (v4 : Vec Ideal S10000x128 .f32) (r : Fin 400) (j : Fin 128) :
    k0_pay2 (F := Ideal) v3 v4 (ix2 r j) = ∑ k : Fin 10000, v3 (ix2 r k) * v4 (ix2 k j) := by
  unfold k0_pay2
  rw [dot_eq_plain]
  exact PlainDot.matmul_zero_apply 400 10000 128 v3 v4 (ix2 r j)

/-! ## The column sum over the rows -/

/-- A sum of an [a, b] array over its first axis, from the zero accumulator, reads at column c as the sum down the column. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => ?_
  refine congrArg src (funext fun ax => Fin.ext ?_)
  rw [Shape.Reduces.lift_val]
  match ax with
  | ⟨0, _⟩ => rfl
  | ⟨1, _⟩ => rfl

/-- The carried row plus the column sums of a block: the row cast of the sum over the rows, added to the row. -/
theorem rowPlusColSum (src : FVec Ideal S400x128 .f32) (v : Vec Ideal S1x128 .f32)
    (h : S400x128.Reduces [0] S128) (hφ : FKind.Formats .f32) (hacc : (0x00000000#32 : BitVec 32) = FKind.add.neutral .f32 hφ)
    (h1 : S128.ShapeCasts S1x128) (h2 : S1x128.ShapeCasts S1x128) (j : Fin 128) :
    shapeCast S1x128 (addf v (shapeCast S1x128 (multiReduction (F := Ideal) .add [0] S128 src 0x00000000#32 h hφ hacc) h1)) h2 (ix2 0 j)
      = v (ix2 0 j) + ∑ r : Fin 400, src (ix2 r j) := by
  rw [shapeCast_self]
  refine (addf_apply _ _ _).trans ?_
  refine congrArg (v (ix2 0 j) + ·) ?_
  refine (shapeCast_a_1a_apply _ h1 0 j).trans ?_
  exact colSum_apply src _ h hφ hacc j

theorem pay3_apply (v3 : Vec Ideal S400x10000 .f32) (v4 : Vec Ideal S10000x128 .f32) (v9 : Vec Ideal S1x128 .f32) (j : Fin 128) :
    k0_pay3 (F := Ideal) v3 v4 v9 (ix2 0 j) = v9 (ix2 0 j) + ∑ r : Fin 400, k0_pay2 (F := Ideal) v3 v4 (ix2 r j) :=
  rowPlusColSum (k0_pay2 (F := Ideal) v3 v4) v9 _ _ _ _ _ j

theorem pay4_apply (v3 : Vec Ideal S400x10000 .f32) (v4 : Vec Ideal S10000x128 .f32) (v16 : Vec Ideal S1x128 .f32) (j : Fin 128) :
    k0_pay4 (F := Ideal) v3 v4 v16 (ix2 0 j)
      = v16 (ix2 0 j) + ∑ r : Fin 400, k0_pay2 (F := Ideal) v3 v4 (ix2 r j) * k0_pay2 (F := Ideal) v3 v4 (ix2 r j) :=
  rowPlusColSum (mulf (k0_pay2 (F := Ideal) v3 v4) (k0_pay2 (F := Ideal) v3 v4)) v16 _ _ _ _ _ j

/-! ## The zero fill -/

theorem pay1_apply (i : S8x128.Idx) : k0_pay1 (F := Ideal) (k0_pay34 (F := Ideal)) i = 0 := by
  unfold k0_pay1 k0_pay34
  rw [shapeCast_self]
  exact Ognn.ofBits_zero

/-! ## The scale and the shift -/

theorem pay35_apply (v27 : Vec Ideal S1x128 .f32) (i : S1x128.Idx) :
    k0_pay35 (F := Ideal) v27 i = Ideal.div (v27 i) Ognn.cN := rfl

theorem pay36_apply (v27 v30 v38 : Vec Ideal S1x128 .f32) (j : Fin 128) :
    k0_pay36 (F := Ideal) v27 v30 v38 (ix2 0 j) = Ognn.scaleOf (v27 (ix2 0 j)) (v30 (ix2 0 j)) (v38 (ix2 0 j)) := by
  unfold k0_pay36
  rw [shapeCast_self]
  rfl

theorem pay37_apply (v27 v30 v38 v41 : Vec Ideal S1x128 .f32) (j : Fin 128) :
    k0_pay37 (F := Ideal) v27 v30 v38 v41 (ix2 0 j)
      = Ognn.shiftOf (v27 (ix2 0 j)) (v30 (ix2 0 j)) (v38 (ix2 0 j)) (v41 (ix2 0 j)) := by
  unfold k0_pay37
  rw [shapeCast_self]
  refine (subf_apply _ _ _).trans ?_
  refine congrArg (v41 (ix2 0 j) - ·) ?_
  refine (mulf_apply _ _ _).trans ?_
  rw [pay36_apply, pay35_apply]

/-! ## The final sweep's blocks -/

/-- tanh of block · scale + shift at row r and column j, the scale and the shift read in their one row. -/
def T (blk : Vec Ideal S400x128 .f32) (sc sh : Vec Ideal S1x128 .f32) (r : Fin 400) (j : Fin 128) : EReal :=
  Ideal.tanh (blk (ix2 r j) * sc (ix2 0 j) + sh (ix2 0 j))

/-- block · scale + shift with the one-row scale and shift repeated down the 400 rows, at an index. -/
theorem affine_apply (sc sh : FVec Ideal S1x128 .f32) (blk : Vec Ideal S400x128 .f32)
    (h1 : S400x128.ShapeCasts S400x128) (h2 : S1x128.Broadcasts S400x128) (r : Fin 400) (j : Fin 128) :
    addf (mulf (shapeCast S400x128 blk h1) (broadcastTo S400x128 sc h2)) (broadcastTo S400x128 sh h2) (ix2 r j)
      = blk (ix2 r j) * sc (ix2 0 j) + sh (ix2 0 j) := by
  rw [shapeCast_self]
  refine (addf_apply _ _ _).trans ?_
  rw [mulf_apply, broadcastTo_1b_ab_apply, broadcastTo_1b_ab_apply]

/-- Its tanh, at an index. -/
theorem sweep_apply (sc sh : FVec Ideal S1x128 .f32) (blk : Vec Ideal S400x128 .f32)
    (h1 : S400x128.ShapeCasts S400x128) (h2 : S1x128.Broadcasts S400x128) (r : Fin 400) (j : Fin 128) :
    tanh (addf (mulf (shapeCast S400x128 blk h1) (broadcastTo S400x128 sc h2)) (broadcastTo S400x128 sh h2)) (ix2 r j)
      = T blk sc sh r j :=
  congrArg Ideal.tanh (affine_apply sc sh blk h1 h2 r j)

/-! ### The blocks whose scale and shift arrive as values -/

theorem pay43_apply (v40 v44 : FVec Ideal S1x128 .f32) (blk : Vec Ideal S400x128 .f32) (r : Fin 400) (j : Fin 128) :
    k0_pay43 (F := Ideal) v40 v44 blk (ix2 r j) = T blk v40 v44 r j :=
  sweep_apply v40 v44 blk _ _ r j

theorem pay44_apply (v40 v44 : FVec Ideal S1x128 .f32) (blk : Vec Ideal S400x128 .f32) (r : Fin 400) (j : Fin 128) :
    k0_pay44 (F := Ideal) v40 v44 blk (ix2 r j) = T blk v40 v44 r j :=
  sweep_apply v40 v44 blk _ _ r j

theorem pay45_apply (v40 v44 : FVec Ideal S1x128 .f32) (blk : Vec Ideal S400x128 .f32) (r : Fin 400) (j : Fin 128) :
    k0_pay45 (F := Ideal) v40 v44 blk (ix2 r j) = T blk v40 v44 r j :=
  sweep_apply v40 v44 blk _ _ r j

theorem pay46_apply (v40 v44 : FVec Ideal S1x128 .f32) (blk : Vec Ideal S400x128 .f32) (r : Fin 400) (j : Fin 128) :
    k0_pay46 (F := Ideal) v40 v44 blk (ix2 r j) = T blk v40 v44 r j :=
  sweep_apply v40 v44 blk _ _ r j

theorem pay47_apply (v40 v44 : FVec Ideal S1x128 .f32) (blk : Vec Ideal S400x128 .f32) (r : Fin 400) (j : Fin 128) :
    k0_pay47 (F := Ideal) v40 v44 blk (ix2 r j) = T blk v40 v44 r j :=
  sweep_apply v40 v44 blk _ _ r j

theorem pay48_apply (v40 v44 : FVec Ideal S1x128 .f32) (blk : Vec Ideal S400x128 .f32) (r : Fin 400) (j : Fin 128) :
    k0_pay48 (F := Ideal) v40 v44 blk (ix2 r j) = T blk v40 v44 r j :=
  sweep_apply v40 v44 blk _ _ r j

theorem pay49_apply (v40 v44 : FVec Ideal S1x128 .f32) (blk : Vec Ideal S400x128 .f32) (r : Fin 400) (j : Fin 128) :
    k0_pay49 (F := Ideal) v40 v44 blk (ix2 r j) = T blk v40 v44 r j :=
  sweep_apply v40 v44 blk _ _ r j

theorem pay50_apply (v40 v44 : FVec Ideal S1x128 .f32) (blk : Vec Ideal S400x128 .f32) (r : Fin 400) (j : Fin 128) :
    k0_pay50 (F := Ideal) v40 v44 blk (ix2 r j) = T blk v40 v44 r j :=
  sweep_apply v40 v44 blk _ _ r j

theorem pay53_apply (v40 v44 : FVec Ideal S1x128 .f32) (blk : Vec Ideal S400x128 .f32) (r : Fin 400) (j : Fin 128) :
    k0_pay53 (F := Ideal) v40 v44 blk (ix2 r j) = T blk v40 v44 r j :=
  sweep_apply v40 v44 blk _ _ r j

theorem pay54_apply (v40 v44 : FVec Ideal S1x128 .f32) (blk : Vec Ideal S400x128 .f32) (r : Fin 400) (j : Fin 128) :
    k0_pay54 (F := Ideal) v40 v44 blk (ix2 r j) = T blk v40 v44 r j :=
  sweep_apply v40 v44 blk _ _ r j

theorem pay55_apply (v40 v44 : FVec Ideal S1x128 .f32) (blk : Vec Ideal S400x128 .f32) (r : Fin 400) (j : Fin 128) :
    k0_pay55 (F := Ideal) v40 v44 blk (ix2 r j) = T blk v40 v44 r j :=
  sweep_apply v40 v44 blk _ _ r j

theorem pay56_apply (v40 v44 : FVec Ideal S1x128 .f32) (blk : Vec Ideal S400x128 .f32) (r : Fin 400) (j : Fin 128) :
    k0_pay56 (F := Ideal) v40 v44 blk (ix2 r j) = T blk v40 v44 r j :=
  sweep_apply v40 v44 blk _ _ r j

theorem pay57_apply (v40 v44 : FVec Ideal S1x128 .f32) (blk : Vec Ideal S400x128 .f32) (r : Fin 400) (j : Fin 128) :
    k0_pay57 (F := Ideal) v40 v44 blk (ix2 r j) = T blk v40 v44 r j :=
  sweep_apply v40 v44 blk _ _ r j

theorem pay58_apply (v40 v44 : FVec Ideal S1x128 .f32) (blk : Vec Ideal S400x128 .f32) (r : Fin 400) (j : Fin 128) :
    k0_pay58 (F := Ideal) v40 v44 blk (ix2 r j) = T blk v40 v44 r j :=
  sweep_apply v40 v44 blk _ _ r j

theorem pay59_apply (v40 v44 : FVec Ideal S1x128 .f32) (blk : Vec Ideal S400x128 .f32) (r : Fin 400) (j : Fin 128) :
    k0_pay59 (F := Ideal) v40 v44 blk (ix2 r j) = T blk v40 v44 r j :=
  sweep_apply v40 v44 blk _ _ r j

theorem pay60_apply (v40 v44 : FVec Ideal S1x128 .f32) (blk : Vec Ideal S400x128 .f32) (r : Fin 400) (j : Fin 128) :
    k0_pay60 (F := Ideal) v40 v44 blk (ix2 r j) = T blk v40 v44 r j :=
  sweep_apply v40 v44 blk _ _ r j

theorem pay61_apply (v40 v44 : FVec Ideal S1x128 .f32) (blk : Vec Ideal S400x128 .f32) (r : Fin 400) (j : Fin 128) :
    k0_pay61 (F := Ideal) v40 v44 blk (ix2 r j) = T blk v40 v44 r j :=
  sweep_apply v40 v44 blk _ _ r j

theorem pay5_apply (v40 v44 : FVec Ideal S1x128 .f32) (blk : Vec Ideal S400x128 .f32) (r : Fin 400) (j : Fin 128) :
    k0_pay5 (F := Ideal) v40 v44 blk (ix2 r j) = T blk v40 v44 r j :=
  sweep_apply v40 v44 blk _ _ r j

theorem pay6_apply (v40 v44 : FVec Ideal S1x128 .f32) (blk : Vec Ideal S400x128 .f32) (r : Fin 400) (j : Fin 128) :
    k0_pay6 (F := Ideal) v40 v44 blk (ix2 r j) = T blk v40 v44 r j :=
  sweep_apply v40 v44 blk _ _ r j

theorem pay7_apply (v40 v44 : FVec Ideal S1x128 .f32) (blk : Vec Ideal S400x128 .f32) (r : Fin 400) (j : Fin 128) :
    k0_pay7 (F := Ideal) v40 v44 blk (ix2 r j) = T blk v40 v44 r j :=
  sweep_apply v40 v44 blk _ _ r j

theorem pay8_apply (v40 v44 : FVec Ideal S1x128 .f32) (blk : Vec Ideal S400x128 .f32) (r : Fin 400) (j : Fin 128) :
    k0_pay8 (F := Ideal) v40 v44 blk (ix2 r j) = T blk v40 v44 r j :=
  sweep_apply v40 v44 blk _ _ r j

/-- The block whose tanh is taken later: block · scale + shift. -/
theorem pay51_apply (v40 v44 : FVec Ideal S1x128 .f32) (blk : Vec Ideal S400x128 .f32) (r : Fin 400) (j : Fin 128) :
    k0_pay51 (F := Ideal) v40 v44 blk (ix2 r j) = blk (ix2 r j) * v40 (ix2 0 j) + v44 (ix2 0 j) :=
  affine_apply v40 v44 blk _ _ r j

/-- The later tanh, entry by entry. -/
theorem pay52_apply (v : FVec Ideal S400x128 .f32) (i : S400x128.Idx) :
    k0_pay52 (F := Ideal) v i = Ideal.tanh (v i) := rfl

/-- The two together are the block's tanh of block · scale + shift. -/
theorem pay52_51_apply (v40 v44 : FVec Ideal S1x128 .f32) (blk : Vec Ideal S400x128 .f32) (r : Fin 400) (j : Fin 128) :
    k0_pay52 (F := Ideal) (k0_pay51 (F := Ideal) v40 v44 blk) (ix2 r j) = T blk v40 v44 r j :=
  congrArg Ideal.tanh (pay51_apply v40 v44 blk r j)

/-! ### The blocks that compute the scale and shift themselves -/

theorem pay38_apply (v27 v30 v38 v41 : Vec Ideal S1x128 .f32) (blk : Vec Ideal S400x128 .f32) (r : Fin 400) (j : Fin 128) :
    k0_pay38 (F := Ideal) v27 v30 v38 v41 blk (ix2 r j)
      = T blk (k0_pay36 (F := Ideal) v27 v30 v38) (k0_pay37 (F := Ideal) v27 v30 v38 v41) r j :=
  sweep_apply (k0_pay36 (F := Ideal) v27 v30 v38) (k0_pay37 (F := Ideal) v27 v30 v38 v41) blk _ _ r j

theorem pay39_apply (v27 v30 v38 v41 : Vec Ideal S1x128 .f32) (blk : Vec Ideal S400x128 .f32) (r : Fin 400) (j : Fin 128) :
    k0_pay39 (F := Ideal) v27 v30 v38 v41 blk (ix2 r j)
      = T blk (k0_pay36 (F := Ideal) v27 v30 v38) (k0_pay37 (F := Ideal) v27 v30 v38 v41) r j :=
  sweep_apply (k0_pay36 (F := Ideal) v27 v30 v38) (k0_pay37 (F := Ideal) v27 v30 v38 v41) blk _ _ r j

/-- The block whose cast and whose repeated scale are formed beforehand: the same tanh of block · scale + shift. -/
theorem pay42_apply (v27 v30 v38 v41 : Vec Ideal S1x128 .f32) (blk : Vec Ideal S400x128 .f32) (r : Fin 400) (j : Fin 128) :
    k0_pay42 (F := Ideal) (k0_pay37 (F := Ideal) v27 v30 v38 v41) (k0_pay40 (F := Ideal) blk) (k0_pay41 (F := Ideal) v27 v30 v38) (ix2 r j)
      = T blk (k0_pay36 (F := Ideal) v27 v30 v38) (k0_pay37 (F := Ideal) v27 v30 v38 v41) r j :=
  sweep_apply (k0_pay36 (F := Ideal) v27 v30 v38) (k0_pay37 (F := Ideal) v27 v30 v38 v41) blk _ _ r j

end Cert.KernelIdeal.Pay

end
-- ==== Proof.KIPieces.lean ====
/-
  What the fused kernel's body leaves in its buffers, entry by entry, in terms of the body's pure
  payloads (the arithmetic of each store as one term of the values the body loaded).

  Statistics rows: row 0 and row 1 of the statistics after a point are the payloads of the two
  row stores, over the row the buffer held before. Output rows: a row inside the point's row block
  holds the block product's payload, every other row what the buffer held. At the last point every
  row then holds tanh(previous · scale + shift).
-/
import proofs.«167329_g16630113370191_cont_week2b_735_26_alg».proof.Proof.KIData
import proofs.«167329_g16630113370191_cont_week2b_735_26_alg».proof.Proof.KIPay
import Idealize.ShloMosaic.Lib.WritesUnit

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point -/

/-- The first scratch buffer after the first point: the features times the assembled matrix. -/
theorem scA0_eq (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) :
    scA0 c i arg1 harg1 arg2 harg2 arg3 harg3 arg4 harg4 arg5 harg5 arg6 harg6 arg7 harg7 arg8 harg8 hc0 hc1 x0 x1 x2 x3 x4
      = k0_pay33 (k0_pay9 x1) (k0_pay10 x1) (k0_pay11 x1) (k0_pay12 x1) (k0_pay13 x1) (k0_pay14 x1) (k0_pay15 x1) (k0_pay16 x1) (k0_pay17 x1) (k0_pay18 x1) (k0_pay19 x1) (k0_pay20 x1) (k0_pay21 x1) (k0_pay22 x1) (k0_pay23 x1) (k0_pay24 x1) (k0_pay25 x1) (k0_pay26 x1) (k0_pay27 x1) (k0_pay28 x1) (k0_pay29 x1) (k0_pay30 x1) (k0_pay31 x1) (k0_pay32 x1) (Scalar.ofBits .f32 0x00000000#32) x0 := by
  have hz : (![0, 0] : Fin 2 → ℕ) = fun _ => 0 := by funext a; fin_cases a <;> rfl
  -- over the empty buffer one store of the whole buffer leaves its payload; the payload's arguments are
  -- the blocks of the weights loaded whole and the features loaded whole
  unfold scA0 runA; dsimp only
  simp only [runA.sl.HS0_1]
  rw [View.read_writes_junk_eq_canon, View.canon_unit_zero hz]
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.cst_33, View.readAt_eq_ld, harg1.read_unread, harg2.read_unread,
    View.ld_unit_zero (S := S10000x128) hz, View.ld_unit_zero (S := S16x128) hz]

/-- Row 0 of the statistics after the first point: the block's column sums over the cleared row. -/
theorem scA1_row0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (j : Fin 128) :
    scA1 c i arg1 harg1 arg2 harg2 arg3 harg3 arg4 harg4 arg5 harg5 arg6 harg6 arg7 harg7 arg8 harg8 hc0 hc1 x0 x1 x2 x3 x4 (ix2 0 j)
      = k0_pay3 x4 (scA0 c i arg1 harg1 arg2 harg2 arg3 harg3 arg4 harg4 arg5 harg5 arg6 harg6 arg7 harg7 arg8 harg8 hc0 hc1 x0 x1 x2 x3 x4) (View.ld (k0_pay1 (F := F) k0_pay34) (Rect.unit (s := S8x128) ![0, 0] S1x128.size inb_S8x128_S1x128_0_0)) (ix2 0 j) := by
  have hz : (![0, 0] : Fin 2 → ℕ) = fun _ => 0 := by funext a; fin_cases a <;> rfl
  -- newest first: row 1's store misses row 0; row 0's store is read at its only row; its arguments are the
  -- first scratch buffer loaded back whole and the cleared row 0 loaded back
  unfold scA1 scA0 runA; dsimp only
  rw [View.read_writes_cons_rows_of_not_mem (off := ![1, 0]) (size := ![1, 128]) arg8.view arg8.view.junk _ _ _
      (ix2 0 j) rfl rfl (Or.inl Nat.zero_lt_one)]
  simp only [runA.sl.HS1_2]
  rw [View.read_writes_cons_rows_of_mem (off := ![0, 0]) (size := ![1, 128]) arg8.view arg8.view.junk _ _ _
      (ix2 0 j) (ix2 0 j) rfl rfl rfl]
  simp only [runA.sl.v4, runA.sl.v9, runA.sl.HS1_1, View.readCov, View.readAt_eq_ld, harg5.read_unread,
    View.read_writes_junk_eq_canon arg8.view, View.canon_unit_zero (S := S8x128) hz,
    View.ld_unit_zero (S := S400x10000) hz, View.ld_unit_zero (S := S10000x128) hz]

/-- Row 1 of the statistics after the first point: the block's column sums of squares over the cleared row. -/
theorem scA1_row1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (j : Fin 128) :
    scA1 c i arg1 harg1 arg2 harg2 arg3 harg3 arg4 harg4 arg5 harg5 arg6 harg6 arg7 harg7 arg8 harg8 hc0 hc1 x0 x1 x2 x3 x4 (ix2 1 j)
      = k0_pay4 x4 (scA0 c i arg1 harg1 arg2 harg2 arg3 harg3 arg4 harg4 arg5 harg5 arg6 harg6 arg7 harg7 arg8 harg8 hc0 hc1 x0 x1 x2 x3 x4) (View.ld (k0_pay1 (F := F) k0_pay34) (Rect.unit (s := S8x128) ![1, 0] S1x128.size inb_S8x128_S1x128_1_0)) (ix2 0 j) := by
  have hz : (![0, 0] : Fin 2 → ℕ) = fun _ => 0 := by funext a; fin_cases a <;> rfl
  -- row 1 loaded back before its store: the store of row 0 misses it, so it is the cleared buffer's row 1
  have h16 : runA.sl.v16 c arg1 harg1 arg2 harg2 arg5 harg5 arg7 arg8 x0 x1 x4
      = View.ld (k0_pay1 (F := F) k0_pay34) (Rect.unit (s := S8x128) ![1, 0] S1x128.size inb_S8x128_S1x128_1_0) := by
    funext x
    show arg8.view.read (Elt F) (arg8.view.writes (Elt F) arg8.view.junk
        (runA.sl.HS1_2 c arg1 harg1 arg2 harg2 arg5 harg5 arg7 arg8 x0 x1 x4))
          ((Rect.unit (s := S8x128) ![1, 0] ![1, 128] inb_S8x128_S1x128_1_0).idx x)
      = k0_pay1 (F := F) k0_pay34 ((Rect.unit (s := S8x128) ![1, 0] ![1, 128] inb_S8x128_S1x128_1_0).idx x)
    simp only [runA.sl.HS1_2, runA.sl.HS1_1]
    rw [View.read_writes_cons_rows_of_not_mem (off := ![0, 0]) (size := ![1, 128]) arg8.view arg8.view.junk _ _ _
        _ rfl rfl (Or.inr (Nat.le_add_right 1 _)),
      View.read_writes_junk_eq_canon, View.canon_unit_zero hz]
  -- row 1's store is the newest: row 1 reads its payload at its only row
  unfold scA1 scA0 runA; dsimp only
  rw [View.read_writes_cons_rows_of_mem (off := ![1, 0]) (size := ![1, 128]) arg8.view arg8.view.junk _ _ _
      (ix2 1 j) (ix2 0 j) rfl rfl rfl, h16]
  simp only [runA.sl.v4, View.readCov, View.readAt_eq_ld, harg5.read_unread,
    View.ld_unit_zero (S := S400x10000) hz, View.ld_unit_zero (S := S10000x128) hz]

/-- A row of the point's block holds the block product. -/
theorem oA_in (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (xo : Vec F S10000x128 .f32)
    (o : ℕ) (ho : k0_off1 i = ![o, 0]) (R : Fin 10000) (r : Fin 400) (j : Fin 128) (hR : R.val = o + r.val) :
    oA c i arg1 harg1 arg2 harg2 arg3 harg3 arg4 harg4 arg5 harg5 arg6 harg6 arg7 harg7 arg8 harg8 hc0 hc1 x0 x1 x2 x3 x4 xo (ix2 R j) = k0_pay2 x4 (scA0 c i arg1 harg1 arg2 harg2 arg3 harg3 arg4 harg4 arg5 harg5 arg6 harg6 arg7 harg7 arg8 harg8 hc0 hc1 x0 x1 x2 x3 x4) (ix2 r j) := by
  have hz : (![0, 0] : Fin 2 → ℕ) = fun _ => 0 := by funext a; fin_cases a <;> rfl
  -- row o + r of the one piece reads its payload at row r; the payload's arguments are the adjacency block
  -- loaded whole and the first scratch buffer loaded back whole
  unfold oA scA0 runA; dsimp only
  rw [View.read_writes_cons_rows_of_mem (off := k0_off1 i) (size := ![400, 128]) arg6.view (harg6.unread xo) _ _ []
    (ix2 R j) (ix2 r j) ho hR rfl]
  simp only [runA.sl.v4, View.readCov, View.readAt_eq_ld, harg5.read_unread,
    View.ld_unit_zero (S := S400x10000) hz, View.ld_unit_zero (S := S10000x128) hz]

/-- Any other row holds what the buffer held. -/
theorem oA_out (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : cond0_0 i) (hc1 : ¬cond0_1 i) (x0 : Vec F S10000x128 .f32) (x1 : Vec F S16x128 .f32) (x2 : Vec F S1x128 .f32) (x3 : Vec F S1x128 .f32) (x4 : Vec F S400x10000 .f32) (xo : Vec F S10000x128 .f32)
    (o : ℕ) (ho : k0_off1 i = ![o, 0]) (R : Fin 10000) (j : Fin 128) (hR : R.val < o ∨ o + 400 ≤ R.val) :
    oA c i arg1 harg1 arg2 harg2 arg3 harg3 arg4 harg4 arg5 harg5 arg6 harg6 arg7 harg7 arg8 harg8 hc0 hc1 x0 x1 x2 x3 x4 xo (ix2 R j) = xo (ix2 R j) := by
  -- one piece of whole rows [o, o + 400): a row outside it reads what the buffer held
  unfold oA runA; dsimp only
  rw [View.read_writes_cons_rows_of_not_mem arg6.view (harg6.unread xo) _ _ [] (ix2 R j) ho rfl hR,
    View.writes_nil, harg6.read_unread]

/-! ## A middle point -/

theorem scB1_row0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (j : Fin 128) :
    scB1 c i arg1 harg1 arg2 harg2 arg3 harg3 arg4 harg4 arg5 harg5 arg6 harg6 arg7 harg7 arg8 harg8 hc0 hc1 x0 x1 x2 x3 x4 xs0 xs1 (ix2 0 j) = k0_pay3 x4 xs0 (View.ld xs1 (Rect.unit (s := S8x128) ![0, 0] S1x128.size inb_S8x128_S1x128_0_0)) (ix2 0 j) := by
  have hz : (![0, 0] : Fin 2 → ℕ) = fun _ => 0 := by funext a; fin_cases a <;> rfl
  -- newest first: row 1's store misses row 0, row 0's store is read at its only row
  unfold scB1 runB; dsimp only
  rw [View.read_writes_cons_rows_of_not_mem (off := ![1, 0]) (size := ![1, 128]) arg8.view (harg8.unread xs1) _ _ _
      (ix2 0 j) rfl rfl (Or.inl Nat.zero_lt_one),
    View.read_writes_cons_rows_of_mem (off := ![0, 0]) (size := ![1, 128]) arg8.view (harg8.unread xs1) _ _ []
      (ix2 0 j) (ix2 0 j) rfl rfl rfl]
  simp only [View.readAt_eq_ld, harg5.read_unread, harg7.read_unread, harg8.read_unread,
    View.ld_unit_zero (S := S400x10000) hz, View.ld_unit_zero (S := S10000x128) hz]

theorem scB1_row1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (j : Fin 128) :
    scB1 c i arg1 harg1 arg2 harg2 arg3 harg3 arg4 harg4 arg5 harg5 arg6 harg6 arg7 harg7 arg8 harg8 hc0 hc1 x0 x1 x2 x3 x4 xs0 xs1 (ix2 1 j) = k0_pay4 x4 xs0 (View.ld xs1 (Rect.unit (s := S8x128) ![1, 0] S1x128.size inb_S8x128_S1x128_1_0)) (ix2 0 j) := by
  have hz : (![0, 0] : Fin 2 → ℕ) = fun _ => 0 := by funext a; fin_cases a <;> rfl
  -- row 1's store is the newest: row 1 reads its payload at its only row
  unfold scB1 runB; dsimp only
  rw [View.read_writes_cons_rows_of_mem (off := ![1, 0]) (size := ![1, 128]) arg8.view (harg8.unread xs1) _ _ _
    (ix2 1 j) (ix2 0 j) rfl rfl rfl]
  simp only [runB.sl.v16, View.readAt_eq_ld, harg5.read_unread, harg7.read_unread, harg8.read_unread,
    View.ld_unit_zero (S := S400x10000) hz, View.ld_unit_zero (S := S10000x128) hz]

theorem oB_in (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32)
    (o : ℕ) (ho : k0_off1 i = ![o, 0]) (R : Fin 10000) (r : Fin 400) (j : Fin 128) (hR : R.val = o + r.val) :
    oB c i arg1 harg1 arg2 harg2 arg3 harg3 arg4 harg4 arg5 harg5 arg6 harg6 arg7 harg7 arg8 harg8 hc0 hc1 x0 x1 x2 x3 x4 xs0 xs1 xo (ix2 R j) = k0_pay2 x4 xs0 (ix2 r j) := by
  have hz : (![0, 0] : Fin 2 → ℕ) = fun _ => 0 := by funext a; fin_cases a <;> rfl
  -- row o + r of the one piece reads its payload at row r; the payload's arguments are whole-buffer loads
  unfold oB runB; dsimp only
  rw [View.read_writes_cons_rows_of_mem (off := k0_off1 i) (size := ![400, 128]) arg6.view (harg6.unread xo) _ _ []
    (ix2 R j) (ix2 r j) ho hR rfl]
  simp only [View.readAt_eq_ld, harg5.read_unread, harg7.read_unread, View.ld_unit_zero (S := S400x10000) hz,
    View.ld_unit_zero (S := S10000x128) hz]

theorem oB_out (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : ¬cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32)
    (o : ℕ) (ho : k0_off1 i = ![o, 0]) (R : Fin 10000) (j : Fin 128) (hR : R.val < o ∨ o + 400 ≤ R.val) :
    oB c i arg1 harg1 arg2 harg2 arg3 harg3 arg4 harg4 arg5 harg5 arg6 harg6 arg7 harg7 arg8 harg8 hc0 hc1 x0 x1 x2 x3 x4 xs0 xs1 xo (ix2 R j) = xo (ix2 R j) := by
  -- one piece of whole rows [o, o + 400): a row outside it reads what the buffer held
  unfold oB runB; dsimp only
  rw [View.read_writes_cons_rows_of_not_mem arg6.view (harg6.unread xo) _ _ [] (ix2 R j) ho rfl hR,
    View.writes_nil, harg6.read_unread]

/-! ## The last point -/

theorem scC1_row0 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (j : Fin 128) :
    scC1 c i arg1 harg1 arg2 harg2 arg3 harg3 arg4 harg4 arg5 harg5 arg6 harg6 arg7 harg7 arg8 harg8 hc0 hc1 x0 x1 x2 x3 x4 xs0 xs1 (ix2 0 j) = k0_pay3 x4 xs0 (View.ld xs1 (Rect.unit (s := S8x128) ![0, 0] S1x128.size inb_S8x128_S1x128_0_0)) (ix2 0 j) := by
  have hz : (![0, 0] : Fin 2 → ℕ) = fun _ => 0 := by funext a; fin_cases a <;> rfl
  -- newest first: row 1's store misses row 0, row 0's store is read at its only row
  unfold scC1 runC; dsimp only
  simp only [runC.sl.HS1_2]
  rw [View.read_writes_cons_rows_of_not_mem (off := ![1, 0]) (size := ![1, 128]) arg8.view (harg8.unread xs1) _ _ _
      (ix2 0 j) rfl rfl (Or.inl Nat.zero_lt_one),
    View.read_writes_cons_rows_of_mem (off := ![0, 0]) (size := ![1, 128]) arg8.view (harg8.unread xs1) _ _ []
      (ix2 0 j) (ix2 0 j) rfl rfl rfl]
  simp only [View.readAt_eq_ld, harg5.read_unread, harg7.read_unread, harg8.read_unread,
    View.ld_unit_zero (S := S400x10000) hz, View.ld_unit_zero (S := S10000x128) hz]

theorem scC1_row1 (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (j : Fin 128) :
    scC1 c i arg1 harg1 arg2 harg2 arg3 harg3 arg4 harg4 arg5 harg5 arg6 harg6 arg7 harg7 arg8 harg8 hc0 hc1 x0 x1 x2 x3 x4 xs0 xs1 (ix2 1 j) = k0_pay4 x4 xs0 (View.ld xs1 (Rect.unit (s := S8x128) ![1, 0] S1x128.size inb_S8x128_S1x128_1_0)) (ix2 0 j) := by
  have hz : (![0, 0] : Fin 2 → ℕ) = fun _ => 0 := by funext a; fin_cases a <;> rfl
  -- row 1's store is the newest: row 1 reads its payload at its only row
  unfold scC1 runC; dsimp only
  simp only [runC.sl.HS1_2]
  rw [View.read_writes_cons_rows_of_mem (off := ![1, 0]) (size := ![1, 128]) arg8.view (harg8.unread xs1) _ _ _
    (ix2 1 j) (ix2 0 j) rfl rfl rfl]
  simp only [runC.sl.v16, View.readAt_eq_ld, harg5.read_unread, harg7.read_unread, harg8.read_unread,
    View.ld_unit_zero (S := S400x10000) hz, View.ld_unit_zero (S := S10000x128) hz]

end Cert.KernelIdeal.Hand

end
-- ==== Proof.KIPiecesC.lean ====
/-
  The last point of the fused kernel's grid, entry by entry: after the last row block of the
  product is stored, every row block of the output buffer is read back, mapped through
  y ↦ tanh(y · scale + shift) and stored in place; scale and shift come from the completed column
  statistics, gamma and beta. So every entry of the buffer ends at tanh of the affine image of what
  it held just before the sweep.
-/
import proofs.«167329_g16630113370191_cont_week2b_735_26_alg».proof.Proof.KIPieces

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output buffer after the last point's block store and before the sweep. -/
def prevC (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) : Vec F S10000x128 .f32 :=
  arg6.view.read (Elt F) (arg6.view.writes (Elt F) (harg6.unread xo)
    [⟨Rect.unit (s := S10000x128) (k0_off1 i) S400x128.size (k0_off1_inb i), k0_pay2 x4 xs0⟩])

theorem prevC_in (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32)
    (o : ℕ) (ho : k0_off1 i = ![o, 0]) (R : Fin 10000) (r : Fin 400) (j : Fin 128) (hR : R.val = o + r.val) :
    prevC c i arg1 harg1 arg2 harg2 arg3 harg3 arg4 harg4 arg5 harg5 arg6 harg6 arg7 harg7 arg8 harg8 hc0 hc1 x0 x1 x2 x3 x4 xs0 xs1 xo (ix2 R j) = k0_pay2 x4 xs0 (ix2 r j) := by
  unfold prevC
  exact View.read_writes_cons_rows_of_mem arg6.view (harg6.unread xo) (k0_off1_inb i) (k0_pay2 x4 xs0) [] (ix2 R j) (ix2 r j) ho hR rfl

theorem prevC_out (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32)
    (o : ℕ) (ho : k0_off1 i = ![o, 0]) (R : Fin 10000) (j : Fin 128) (hR : R.val < o ∨ o + 400 ≤ R.val) :
    prevC c i arg1 harg1 arg2 harg2 arg3 harg3 arg4 harg4 arg5 harg5 arg6 harg6 arg7 harg7 arg8 harg8 hc0 hc1 x0 x1 x2 x3 x4 xs0 xs1 xo (ix2 R j) = xo (ix2 R j) := by
  unfold prevC
  refine (View.read_writes_cons_rows_of_not_mem arg6.view (harg6.unread xo) (k0_off1_inb i) (k0_pay2 x4 xs0) [] (ix2 R j) ho rfl hR).trans ?_
  rw [View.writes_nil]
  exact congrFun (harg6.read_unread xo) (ix2 R j)

/-! ## The sweep, store by store

The 25 sweep stores go down the buffer block after block, each over the buffer the stores before it left; a block's
rows are written once, by its own store, so the block loaded back for store b is still what the block store left, and
after the last store a row of block b holds store b's value. -/

namespace LastPoint

section Sweep

variable (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole)
  (x2 x3 : Vec F S1x128 .f32) (x4 : Vec F S400x10000 .f32) (xs0 : Vec F S10000x128 .f32) (xs1 : Vec F S8x128 .f32) (xo : Vec F S10000x128 .f32)

/-- The output buffer read back after a list of stores (newest first) over what it held. -/
abbrev rd (L : List (View.Piece (Elt F) S10000x128 .f32)) : Vec F S10000x128 .f32 :=
  arg6.view.read (Elt F) (arg6.view.writes (Elt F) (harg6.unread xo) L)

/-- A row block loaded back through the rectangle of rows [o, o + 400): at (r, j) the buffer at (o + r, j). -/
theorem readAt_rows (L : List (View.Piece (Elt F) S10000x128 .f32)) {off : Fin 2 → ℕ} (o : ℕ)
    (inb : ∀ a, off a + S400x128.size a ≤ S10000x128.size a) (hoff : off = ![o, 0])
    (R : Fin 10000) (r : Fin 400) (j : Fin 128) (hR : R.val = o + r.val) :
    View.readAt (Elt F) arg6.view (Rect.unit (s := S10000x128) off S400x128.size inb).toLoadRect
        (arg6.view.writes (Elt F) (harg6.unread xo) L) (ix2 r j)
      = rd arg6 harg6 xo L (ix2 R j) := by
  subst hoff
  refine congrArg (arg6.view.read (Elt F) (arg6.view.writes (Elt F) (harg6.unread xo) L)) (funext fun a => Fin.ext ?_)
  match a with
  | ⟨0, _⟩ => show o + 1 * r.val = R.val; omega
  | ⟨1, _⟩ => show 0 + 1 * j.val = j.val; omega

/-- The stores of the last point on the output buffer, newest first: the 25 sweep stores over the block store. -/
abbrev fullC : List (View.Piece (Elt F) S10000x128 .f32) :=
  ⟨Rect.unit (s := S10000x128) ![9600, 0] ![400, 128] inb_S10000x128_S400x128_9600_0,
      k0_pay8 (runC.sl.r c arg3 harg3 arg5 harg5 arg7 harg7 arg8 harg8 x2 x4 xs0 xs1) (runC.sl.r_1 c arg3 harg3 arg4 harg4 arg5 harg5 arg7 harg7 arg8 harg8 x2 x3 x4 xs0 xs1) (runC.sl.v237 c i arg3 harg3 arg4 harg4 arg5 harg5 arg6 harg6 arg7 harg7 arg8 harg8 x2 x3 x4 xs0 xs1 xo)⟩ :: runC.sl.H5_25 c i arg3 harg3 arg4 harg4 arg5 harg5 arg6 harg6 arg7 harg7 arg8 harg8 x2 x3 x4 xs0 xs1 xo

/-! ### A row at or below a store's rows is untouched by the stores above it in the buffer

The sweep's stores go down the buffer, block after block; a row of block b or later still holds, after the
stores of blocks 0 … b − 1, what the block store left. -/

theorem low2 (R : Fin 10000) (j : Fin 128) (h : 400 ≤ R.val) :
    rd arg6 harg6 xo (runC.sl.H5_2 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_2
  refine (View.read_writes_cons_rows_of_not_mem (o := 0) (W := 400) arg6.view (harg6.unread xo) _ _ _ (ix2 R j) rfl rfl
    (Or.inr (by omega : 0 + 400 ≤ R.val))).trans ?_
  rfl

theorem low3 (R : Fin 10000) (j : Fin 128) (h : 800 ≤ R.val) :
    rd arg6 harg6 xo (runC.sl.H5_3 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_3
  refine (View.read_writes_cons_rows_of_not_mem (o := 400) (W := 400) arg6.view (harg6.unread xo) _ _ _ (ix2 R j) rfl rfl
    (Or.inr (by omega : 400 + 400 ≤ R.val))).trans ?_
  exact low2 c i arg3 harg3 arg4 harg4 arg5 harg5 arg6 harg6 arg7 harg7 arg8 harg8 x2 x3 x4 xs0 xs1 xo R j (by omega)

theorem low4 (R : Fin 10000) (j : Fin 128) (h : 1200 ≤ R.val) :
    rd arg6 harg6 xo (runC.sl.H5_4 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_4
  refine (View.read_writes_cons_rows_of_not_mem (o := 800) (W := 400) arg6.view (harg6.unread xo) _ _ _ (ix2 R j) rfl rfl
    (Or.inr (by omega : 800 + 400 ≤ R.val))).trans ?_
  exact low3 c i arg3 harg3 arg4 harg4 arg5 harg5 arg6 harg6 arg7 harg7 arg8 harg8 x2 x3 x4 xs0 xs1 xo R j (by omega)

theorem low5 (R : Fin 10000) (j : Fin 128) (h : 1600 ≤ R.val) :
    rd arg6 harg6 xo (runC.sl.H5_5 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_5
  refine (View.read_writes_cons_rows_of_not_mem (o := 1200) (W := 400) arg6.view (harg6.unread xo) _ _ _ (ix2 R j) rfl rfl
    (Or.inr (by omega : 1200 + 400 ≤ R.val))).trans ?_
  exact low4 c i arg3 harg3 arg4 harg4 arg5 harg5 arg6 harg6 arg7 harg7 arg8 harg8 x2 x3 x4 xs0 xs1 xo R j (by omega)

theorem low6 (R : Fin 10000) (j : Fin 128) (h : 2000 ≤ R.val) :
    rd arg6 harg6 xo (runC.sl.H5_6 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_6
  refine (View.read_writes_cons_rows_of_not_mem (o := 1600) (W := 400) arg6.view (harg6.unread xo) _ _ _ (ix2 R j) rfl rfl
    (Or.inr (by omega : 1600 + 400 ≤ R.val))).trans ?_
  exact low5 c i arg3 harg3 arg4 harg4 arg5 harg5 arg6 harg6 arg7 harg7 arg8 harg8 x2 x3 x4 xs0 xs1 xo R j (by omega)

theorem low7 (R : Fin 10000) (j : Fin 128) (h : 2400 ≤ R.val) :
    rd arg6 harg6 xo (runC.sl.H5_7 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_7
  refine (View.read_writes_cons_rows_of_not_mem (o := 2000) (W := 400) arg6.view (harg6.unread xo) _ _ _ (ix2 R j) rfl rfl
    (Or.inr (by omega : 2000 + 400 ≤ R.val))).trans ?_
  exact low6 c i arg3 harg3 arg4 harg4 arg5 harg5 arg6 harg6 arg7 harg7 arg8 harg8 x2 x3 x4 xs0 xs1 xo R j (by omega)

theorem low8 (R : Fin 10000) (j : Fin 128) (h : 2800 ≤ R.val) :
    rd arg6 harg6 xo (runC.sl.H5_8 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_8
  refine (View.read_writes_cons_rows_of_not_mem (o := 2400) (W := 400) arg6.view (harg6.unread xo) _ _ _ (ix2 R j) rfl rfl
    (Or.inr (by omega : 2400 + 400 ≤ R.val))).trans ?_
  exact low7 c i arg3 harg3 arg4 harg4 arg5 harg5 arg6 harg6 arg7 harg7 arg8 harg8 x2 x3 x4 xs0 xs1 xo R j (by omega)

theorem low9 (R : Fin 10000) (j : Fin 128) (h : 3200 ≤ R.val) :
    rd arg6 harg6 xo (runC.sl.H5_9 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_9
  refine (View.read_writes_cons_rows_of_not_mem (o := 2800) (W := 400) arg6.view (harg6.unread xo) _ _ _ (ix2 R j) rfl rfl
    (Or.inr (by omega : 2800 + 400 ≤ R.val))).trans ?_
  exact low8 c i arg3 harg3 arg4 harg4 arg5 harg5 arg6 harg6 arg7 harg7 arg8 harg8 x2 x3 x4 xs0 xs1 xo R j (by omega)

theorem low10 (R : Fin 10000) (j : Fin 128) (h : 3600 ≤ R.val) :
    rd arg6 harg6 xo (runC.sl.H5_10 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_10
  refine (View.read_writes_cons_rows_of_not_mem (o := 3200) (W := 400) arg6.view (harg6.unread xo) _ _ _ (ix2 R j) rfl rfl
    (Or.inr (by omega : 3200 + 400 ≤ R.val))).trans ?_
  exact low9 c i arg3 harg3 arg4 harg4 arg5 harg5 arg6 harg6 arg7 harg7 arg8 harg8 x2 x3 x4 xs0 xs1 xo R j (by omega)

theorem low11 (R : Fin 10000) (j : Fin 128) (h : 4000 ≤ R.val) :
    rd arg6 harg6 xo (runC.sl.H5_11 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_11
  refine (View.read_writes_cons_rows_of_not_mem (o := 3600) (W := 400) arg6.view (harg6.unread xo) _ _ _ (ix2 R j) rfl rfl
    (Or.inr (by omega : 3600 + 400 ≤ R.val))).trans ?_
  exact low10 c i arg3 harg3 arg4 harg4 arg5 harg5 arg6 harg6 arg7 harg7 arg8 harg8 x2 x3 x4 xs0 xs1 xo R j (by omega)

theorem low12 (R : Fin 10000) (j : Fin 128) (h : 4400 ≤ R.val) :
    rd arg6 harg6 xo (runC.sl.H5_12 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_12
  refine (View.read_writes_cons_rows_of_not_mem (o := 4000) (W := 400) arg6.view (harg6.unread xo) _ _ _ (ix2 R j) rfl rfl
    (Or.inr (by omega : 4000 + 400 ≤ R.val))).trans ?_
  exact low11 c i arg3 harg3 arg4 harg4 arg5 harg5 arg6 harg6 arg7 harg7 arg8 harg8 x2 x3 x4 xs0 xs1 xo R j (by omega)

theorem low13 (R : Fin 10000) (j : Fin 128) (h : 4800 ≤ R.val) :
    rd arg6 harg6 xo (runC.sl.H5_13 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_13
  refine (View.read_writes_cons_rows_of_not_mem (o := 4400) (W := 400) arg6.view (harg6.unread xo) _ _ _ (ix2 R j) rfl rfl
    (Or.inr (by omega : 4400 + 400 ≤ R.val))).trans ?_
  exact low12 c i arg3 harg3 arg4 harg4 arg5 harg5 arg6 harg6 arg7 harg7 arg8 harg8 x2 x3 x4 xs0 xs1 xo R j (by omega)

theorem low14 (R : Fin 10000) (j : Fin 128) (h : 5200 ≤ R.val) :
    rd arg6 harg6 xo (runC.sl.H5_14 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_14
  refine (View.read_writes_cons_rows_of_not_mem (o := 4800) (W := 400) arg6.view (harg6.unread xo) _ _ _ (ix2 R j) rfl rfl
    (Or.inr (by omega : 4800 + 400 ≤ R.val))).trans ?_
  exact low13 c i arg3 harg3 arg4 harg4 arg5 harg5 arg6 harg6 arg7 harg7 arg8 harg8 x2 x3 x4 xs0 xs1 xo R j (by omega)

theorem low15 (R : Fin 10000) (j : Fin 128) (h : 5600 ≤ R.val) :
    rd arg6 harg6 xo (runC.sl.H5_15 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_15
  refine (View.read_writes_cons_rows_of_not_mem (o := 5200) (W := 400) arg6.view (harg6.unread xo) _ _ _ (ix2 R j) rfl rfl
    (Or.inr (by omega : 5200 + 400 ≤ R.val))).trans ?_
  exact low14 c i arg3 harg3 arg4 harg4 arg5 harg5 arg6 harg6 arg7 harg7 arg8 harg8 x2 x3 x4 xs0 xs1 xo R j (by omega)

theorem low16 (R : Fin 10000) (j : Fin 128) (h : 6000 ≤ R.val) :
    rd arg6 harg6 xo (runC.sl.H5_16 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_16
  refine (View.read_writes_cons_rows_of_not_mem (o := 5600) (W := 400) arg6.view (harg6.unread xo) _ _ _ (ix2 R j) rfl rfl
    (Or.inr (by omega : 5600 + 400 ≤ R.val))).trans ?_
  exact low15 c i arg3 harg3 arg4 harg4 arg5 harg5 arg6 harg6 arg7 harg7 arg8 harg8 x2 x3 x4 xs0 xs1 xo R j (by omega)

theorem low17 (R : Fin 10000) (j : Fin 128) (h : 6400 ≤ R.val) :
    rd arg6 harg6 xo (runC.sl.H5_17 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_17
  refine (View.read_writes_cons_rows_of_not_mem (o := 6000) (W := 400) arg6.view (harg6.unread xo) _ _ _ (ix2 R j) rfl rfl
    (Or.inr (by omega : 6000 + 400 ≤ R.val))).trans ?_
  exact low16 c i arg3 harg3 arg4 harg4 arg5 harg5 arg6 harg6 arg7 harg7 arg8 harg8 x2 x3 x4 xs0 xs1 xo R j (by omega)

theorem low18 (R : Fin 10000) (j : Fin 128) (h : 6800 ≤ R.val) :
    rd arg6 harg6 xo (runC.sl.H5_18 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_18
  refine (View.read_writes_cons_rows_of_not_mem (o := 6400) (W := 400) arg6.view (harg6.unread xo) _ _ _ (ix2 R j) rfl rfl
    (Or.inr (by omega : 6400 + 400 ≤ R.val))).trans ?_
  exact low17 c i arg3 harg3 arg4 harg4 arg5 harg5 arg6 harg6 arg7 harg7 arg8 harg8 x2 x3 x4 xs0 xs1 xo R j (by omega)

theorem low19 (R : Fin 10000) (j : Fin 128) (h : 7200 ≤ R.val) :
    rd arg6 harg6 xo (runC.sl.H5_19 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_19
  refine (View.read_writes_cons_rows_of_not_mem (o := 6800) (W := 400) arg6.view (harg6.unread xo) _ _ _ (ix2 R j) rfl rfl
    (Or.inr (by omega : 6800 + 400 ≤ R.val))).trans ?_
  exact low18 c i arg3 harg3 arg4 harg4 arg5 harg5 arg6 harg6 arg7 harg7 arg8 harg8 x2 x3 x4 xs0 xs1 xo R j (by omega)

theorem low20 (R : Fin 10000) (j : Fin 128) (h : 7600 ≤ R.val) :
    rd arg6 harg6 xo (runC.sl.H5_20 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_20
  refine (View.read_writes_cons_rows_of_not_mem (o := 7200) (W := 400) arg6.view (harg6.unread xo) _ _ _ (ix2 R j) rfl rfl
    (Or.inr (by omega : 7200 + 400 ≤ R.val))).trans ?_
  exact low19 c i arg3 harg3 arg4 harg4 arg5 harg5 arg6 harg6 arg7 harg7 arg8 harg8 x2 x3 x4 xs0 xs1 xo R j (by omega)

theorem low21 (R : Fin 10000) (j : Fin 128) (h : 8000 ≤ R.val) :
    rd arg6 harg6 xo (runC.sl.H5_21 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_21
  refine (View.read_writes_cons_rows_of_not_mem (o := 7600) (W := 400) arg6.view (harg6.unread xo) _ _ _ (ix2 R j) rfl rfl
    (Or.inr (by omega : 7600 + 400 ≤ R.val))).trans ?_
  exact low20 c i arg3 harg3 arg4 harg4 arg5 harg5 arg6 harg6 arg7 harg7 arg8 harg8 x2 x3 x4 xs0 xs1 xo R j (by omega)

theorem low22 (R : Fin 10000) (j : Fin 128) (h : 8400 ≤ R.val) :
    rd arg6 harg6 xo (runC.sl.H5_22 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_22
  refine (View.read_writes_cons_rows_of_not_mem (o := 8000) (W := 400) arg6.view (harg6.unread xo) _ _ _ (ix2 R j) rfl rfl
    (Or.inr (by omega : 8000 + 400 ≤ R.val))).trans ?_
  exact low21 c i arg3 harg3 arg4 harg4 arg5 harg5 arg6 harg6 arg7 harg7 arg8 harg8 x2 x3 x4 xs0 xs1 xo R j (by omega)

theorem low23 (R : Fin 10000) (j : Fin 128) (h : 8800 ≤ R.val) :
    rd arg6 harg6 xo (runC.sl.H5_23 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_23
  refine (View.read_writes_cons_rows_of_not_mem (o := 8400) (W := 400) arg6.view (harg6.unread xo) _ _ _ (ix2 R j) rfl rfl
    (Or.inr (by omega : 8400 + 400 ≤ R.val))).trans ?_
  exact low22 c i arg3 harg3 arg4 harg4 arg5 harg5 arg6 harg6 arg7 harg7 arg8 harg8 x2 x3 x4 xs0 xs1 xo R j (by omega)

theorem low24 (R : Fin 10000) (j : Fin 128) (h : 9200 ≤ R.val) :
    rd arg6 harg6 xo (runC.sl.H5_24 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_24
  refine (View.read_writes_cons_rows_of_not_mem (o := 8800) (W := 400) arg6.view (harg6.unread xo) _ _ _ (ix2 R j) rfl rfl
    (Or.inr (by omega : 8800 + 400 ≤ R.val))).trans ?_
  exact low23 c i arg3 harg3 arg4 harg4 arg5 harg5 arg6 harg6 arg7 harg7 arg8 harg8 x2 x3 x4 xs0 xs1 xo R j (by omega)

theorem low25 (R : Fin 10000) (j : Fin 128) (h : 9600 ≤ R.val) :
    rd arg6 harg6 xo (runC.sl.H5_25 c i arg3 harg3 arg4 harg4 arg5 harg5 arg6 harg6 arg7 harg7 arg8 harg8 x2 x3 x4 xs0 xs1 xo) (ix2 R j) = rd arg6 harg6 xo (runC.sl.H5_1 c i arg5 harg5 arg7 harg7 x4 xs0) (ix2 R j) := by
  unfold runC.sl.H5_25
  refine (View.read_writes_cons_rows_of_not_mem (o := 9200) (W := 400) arg6.view (harg6.unread xo) _ _ _ (ix2 R j) rfl rfl
    (Or.inr (by omega : 9200 + 400 ≤ R.val))).trans ?_
  exact low24 c i arg3 harg3 arg4 harg4 arg5 harg5 arg6 harg6 arg7 harg7 arg8 harg8 x2 x3 x4 xs0 xs1 xo R j (by omega)

/-! ### A row above a store's rows is untouched by it and by the stores after it -/

theorem top25 (R : Fin 10000) (j : Fin 128) (h : R.val < 9600) :
    rd arg6 harg6 xo (fullC c i arg3 harg3 arg4 harg4 arg5 harg5 arg6 harg6 arg7 harg7 arg8 harg8 x2 x3 x4 xs0 xs1 xo) (ix2 R j) = rd arg6 harg6 xo (runC.sl.H5_25 c i arg3 harg3 arg4 harg4 arg5 harg5 arg6 harg6 arg7 harg7 arg8 harg8 x2 x3 x4 xs0 xs1 xo) (ix2 R j) :=
  View.read_writes_cons_rows_of_not_mem (o := 9600) (W := 400) arg6.view (harg6.unread xo) _ _ _ (ix2 R j) rfl rfl
    (Or.inl (by omega : R.val < 9600))

theorem top24 (R : Fin 10000) (j : Fin 128) (h : R.val < 9200) :
    rd arg6 harg6 xo (fullC c i arg3 harg3 arg4 harg4 arg5 harg5 arg6 harg6 arg7 harg7 arg8 harg8 x2 x3 x4 xs0 xs1 xo) (ix2 R j) = rd arg6 harg6 xo (runC.sl.H5_24 c i arg3 harg3 arg4 harg4 arg5 harg5 arg6 harg6 arg7 harg7 arg8 harg8 x2 x3 x4 xs0 xs1 xo) (ix2 R j) := by
  refine (top25 c i arg3 harg3 arg4 harg4 arg5 harg5 arg6 harg6 arg7 harg7 arg8 harg8 x2 x3 x4 xs0 xs1 xo R j (by omega)).trans ?_
  unfold runC.sl.H5_25
  exact View.read_writes_cons_rows_of_not_mem (o := 9200) (W := 400) arg6.view (harg6.unread xo) _ _ _ (ix2 R j) rfl rfl
    (Or.inl (by omega : R.val < 9200))

theorem top23 (R : Fin 10000) (j : Fin 128) (h : R.val < 8800) :
    rd arg6 harg6 xo (fullC c i arg3 harg3 arg4 harg4 arg5 harg5 arg6 harg6 arg7 harg7 arg8 harg8 x2 x3 x4 xs0 xs1 xo) (ix2 R j) = rd arg6 harg6 xo (runC.sl.H5_23 c i arg3 harg3 arg4 harg4 arg5 harg5 arg6 harg6 arg7 harg7 arg8 harg8 x2 x3 x4 xs0 xs1 xo) (ix2 R j) := by
  refine (top24 c i arg3 harg3 arg4 harg4 arg5 harg5 arg6 harg6 arg7 harg7 arg8 harg8 x2 x3 x4 xs0 xs1 xo R j (by omega)).trans ?_
  unfold runC.sl.H5_24
  exact View.read_writes_cons_rows_of_not_mem (o := 8800) (W := 400) arg6.view (harg6.unread xo) _ _ _ (ix2 R j) rfl rfl
    (Or.inl (by omega : R.val < 8800))

theorem top22 (R : Fin 10000) (j : Fin 128) (h : R.val < 8400) :
    rd arg6 harg6 xo (fullC c i arg3 harg3 arg4 harg4 arg5 harg5 arg6 harg6 arg7 harg7 arg8 harg8 x2 x3 x4 xs0 xs1 xo) (ix2 R j) = rd arg6 harg6 xo (runC.sl.H5_22 c i arg3 harg3 arg4 harg4 arg5 harg5 arg6 harg6 arg7 harg7 arg8 harg8 x2 x3 x4 xs0 xs1 xo) (ix2 R j) := by
  refine (top23 c i arg3 harg3 arg4 harg4 arg5 harg5 arg6 harg6 arg7 harg7 arg8 harg8 x2 x3 x4 xs0 xs1 xo R j (by omega)).trans ?_
  unfold runC.sl.H5_23
  exact View.read_writes_cons_rows_of_not_mem (o := 8400) (W := 400) arg6.view (harg6.unread xo) _ _ _ (ix2 R j) rfl rfl
    (Or.inl (by omega : R.val < 8400))

theorem top21 (R : Fin 10000) (j : Fin 128) (h : R.val < 8000) :
    rd arg6 harg6 xo (fullC c i arg3 harg3 arg4 harg4 arg5 harg5 arg6 harg6 arg7 harg7 arg8 harg8 x2 x3 x4 xs0 xs1 xo) (ix2 R j) = rd arg6 harg6 xo (runC.sl.H5_21 c i arg3 harg3 arg4 harg4 arg5 harg5 arg6 harg6 arg7 harg7 arg8 harg8 x2 x3 x4 xs0 xs1 xo) (ix2 R j) := by
  refine (top22 c i arg3 harg3 arg4 harg4 arg5 harg5 arg6 harg6 arg7 harg7 arg8 harg8 x2 x3 x4 xs0 xs1 xo R j (by omega)).trans ?_
  unfold runC.sl.H5_22
  exact View.read_writes_cons_rows_of_not_mem (o := 8000) (W := 400) arg6.view (harg6.unread xo) _ _ _ (ix2 R j) rfl rfl
    (Or.inl (by omega : R.val < 8000))

theorem top20 (R : Fin 10000) (j : Fin 128) (h : R.val < 7600) :
    rd arg6 harg6 xo (fullC c i arg3 harg3 arg4 harg4 arg5 harg5 arg6 harg6 arg7 harg7 arg8 harg8 x2 x3 x4 xs0 xs1 xo) (ix2 R j) = rd arg6 harg6 xo (runC.sl.H5_20 c i arg3 harg3 arg4 harg4 arg5 harg5 arg6 harg6 arg7 harg7 arg8 harg8 x2 x3 x4 xs0 xs1 xo) (ix2 R j) := by
  refine (top21 c i arg3 harg3 arg4 harg4 arg5 harg5 arg6 harg6 arg7 harg7 arg8 harg8 x2 x3 x4 xs0 xs1 xo R j (by omega)).trans ?_
  unfold runC.sl.H5_21
  exact View.read_writes_cons_rows_of_not_mem (o := 7600) (W := 400) arg6.view (harg6.unread xo) _ _ _ (ix2 R j) rfl rfl
    (Or.inl (by omega : R.val < 7600))

theorem top19 (R : Fin 10000) (j : Fin 128) (h : R.val < 7200) :
    rd arg6 harg6 xo (fullC c i arg3 harg3 arg4 harg4 arg5 harg5 arg6 harg6 arg7 harg7 arg8 harg8 x2 x3 x4 xs0 xs1 xo) (ix2 R j) = rd arg6 harg6 xo (runC.sl.H5_19 c i arg3 harg3 arg4 harg4 arg5 harg5 arg6 harg6 arg7 harg7 arg8 harg8 x2 x3 x4 xs0 xs1 xo) (ix2 R j) := by
  refine (top20 c i arg3 harg3 arg4 harg4 arg5 harg5 arg6 harg6 arg7 harg7 arg8 harg8 x2 x3 x4 xs0 xs1 xo R j (by omega)).trans ?_
  unfold runC.sl.H5_20
  exact View.read_writes_cons_rows_of_not_mem (o := 7200) (W := 400) arg6.view (harg6.unread xo) _ _ _ (ix2 R j) rfl rfl
    (Or.inl (by omega : R.val < 7200))

theorem top18 (R : Fin 10000) (j : Fin 128) (h : R.val < 6800) :
    rd arg6 harg6 xo (fullC c i arg3 harg3 arg4 harg4 arg5 harg5 arg6 harg6 arg7 harg7 arg8 harg8 x2 x3 x4 xs0 xs1 xo) (ix2 R j) = rd arg6 harg6 xo (runC.sl.H5_18 c i arg3 harg3 arg4 harg4 arg5 harg5 arg6 harg6 arg7 harg7 arg8 harg8 x2 x3 x4 xs0 xs1 xo) (ix2 R j) := by
  refine (top19 c i arg3 harg3 arg4 harg4 arg5 harg5 arg6 harg6 arg7 harg7 arg8 harg8 x2 x3 x4 xs0 xs1 xo R j (by omega)).trans ?_
  unfold runC.sl.H5_19
  exact View.read_writes_cons_rows_of_not_mem (o := 6800) (W := 400) arg6.view (harg6.unread xo) _ _ _ (ix2 R j) rfl rfl
    (Or.inl (by omega : R.val < 6800))

theorem top17 (R : Fin 10000) (j : Fin 128) (h : R.val < 6400) :
    rd arg6 harg6 xo (fullC c i arg3 harg3 arg4 harg4 arg5 harg5 arg6 harg6 arg7 harg7 arg8 harg8 x2 x3 x4 xs0 xs1 xo) (ix2 R j) = rd arg6 harg6 xo (runC.sl.H5_17 c i arg3 harg3 arg4 harg4 arg5 harg5 arg6 harg6 arg7 harg7 arg8 harg8 x2 x3 x4 xs0 xs1 xo) (ix2 R j) := by
  refine (top18 c i arg3 harg3 arg4 harg4 arg5 harg5 arg6 harg6 arg7 harg7 arg8 harg8 x2 x3 x4 xs0 xs1 xo R j (by omega)).trans ?_
  unfold runC.sl.H5_18
  exact View.read_writes_cons_rows_of_not_mem (o := 6400) (W := 400) arg6.view (harg6.unread xo) _ _ _ (ix2 R j) rfl rfl
    (Or.inl (by omega : R.val < 6400))

theorem top16 (R : Fin 10000) (j : Fin 128) (h : R.val < 6000) :
    rd arg6 harg6 xo (fullC c i arg3 harg3 arg4 harg4 arg5 harg5 arg6 harg6 arg7 harg7 arg8 harg8 x2 x3 x4 xs0 xs1 xo) (ix2 R j) = rd arg6 harg6 xo (runC.sl.H5_16 c i arg3 harg3 arg4 harg4 arg5 harg5 arg6 harg6 arg7 harg7 arg8 harg8 x2 x3 x4 xs0 xs1 xo) (ix2 R j) := by
  refine (top17 c i arg3 harg3 arg4 harg4 arg5 harg5 arg6 harg6 arg7 harg7 arg8 harg8 x2 x3 x4 xs0 xs1 xo R j (by omega)).trans ?_
  unfold runC.sl.H5_17
  exact View.read_writes_cons_rows_of_not_mem (o := 6000) (W := 400) arg6.view (harg6.unread xo) _ _ _ (ix2 R j) rfl rfl
    (Or.inl (by omega : R.val < 6000))

theorem top15 (R : Fin 10000) (j : Fin 128) (h : R.val < 5600) :
    rd arg6 harg6 xo (fullC c i arg3 harg3 arg4 harg4 arg5 harg5 arg6 harg6 arg7 harg7 arg8 harg8 x2 x3 x4 xs0 xs1 xo) (ix2 R j) = rd arg6 harg6 xo (runC.sl.H5_15 c i arg3 harg3 arg4 harg4 arg5 harg5 arg6 harg6 arg7 harg7 arg8 harg8 x2 x3 x4 xs0 xs1 xo) (ix2 R j) := by
  refine (top16 c i arg3 harg3 arg4 harg4 arg5 harg5 arg6 harg6 arg7 harg7 arg8 harg8 x2 x3 x4 xs0 xs1 xo R j (by omega)).trans ?_
  unfold runC.sl.H5_16
  exact View.read_writes_cons_rows_of_not_mem (o := 5600) (W := 400) arg6.view (harg6.unread xo) _ _ _ (ix2 R j) rfl rfl
    (Or.inl (by omega : R.val < 5600))

theorem top14 (R : Fin 10000) (j : Fin 128) (h : R.val < 5200) :
    rd arg6 harg6 xo (fullC c i arg3 harg3 arg4 harg4 arg5 harg5 arg6 harg6 arg7 harg7 arg8 harg8 x2 x3 x4 xs0 xs1 xo) (ix2 R j) = rd arg6 harg6 xo (runC.sl.H5_14 c i arg3 harg3 arg4 harg4 arg5 harg5 arg6 harg6 arg7 harg7 arg8 harg8 x2 x3 x4 xs0 xs1 xo) (ix2 R j) := by
  refine (top15 c i arg3 harg3 arg4 harg4 arg5 harg5 arg6 harg6 arg7 harg7 arg8 harg8 x2 x3 x4 xs0 xs1 xo R j (by omega)).trans ?_
  unfold runC.sl.H5_15
  exact View.read_writes_cons_rows_of_not_mem (o := 5200) (W := 400) arg6.view (harg6.unread xo) _ _ _ (ix2 R j) rfl rfl
    (Or.inl (by omega : R.val < 5200))

theorem top13 (R : Fin 10000) (j : Fin 128) (h : R.val < 4800) :
    rd arg6 harg6 xo (fullC c i arg3 harg3 arg4 harg4 arg5 harg5 arg6 harg6 arg7 harg7 arg8 harg8 x2 x3 x4 xs0 xs1 xo) (ix2 R j) = rd arg6 harg6 xo (runC.sl.H5_13 c i arg3 harg3 arg4 harg4 arg5 harg5 arg6 harg6 arg7 harg7 arg8 harg8 x2 x3 x4 xs0 xs1 xo) (ix2 R j) := by
  refine (top14 c i arg3 harg3 arg4 harg4 arg5 harg5 arg6 harg6 arg7 harg7 arg8 harg8 x2 x3 x4 xs0 xs1 xo R j (by omega)).trans ?_
  unfold runC.sl.H5_14
  exact View.read_writes_cons_rows_of_not_mem (o := 4800) (W := 400) arg6.view (harg6.unread xo) _ _ _ (ix2 R j) rfl rfl
    (Or.inl (by omega : R.val < 4800))

theorem top12 (R : Fin 10000) (j : Fin 128) (h : R.val < 4400) :
    rd arg6 harg6 xo (fullC c i arg3 harg3 arg4 harg4 arg5 harg5 arg6 harg6 arg7 harg7 arg8 harg8 x2 x3 x4 xs0 xs1 xo) (ix2 R j) = rd arg6 harg6 xo (runC.sl.H5_12 c i arg3 harg3 arg4 harg4 arg5 harg5 arg6 harg6 arg7 harg7 arg8 harg8 x2 x3 x4 xs0 xs1 xo) (ix2 R j) := by
  refine (top13 c i arg3 harg3 arg4 harg4 arg5 harg5 arg6 harg6 arg7 harg7 arg8 harg8 x2 x3 x4 xs0 xs1 xo R j (by omega)).trans ?_
  unfold runC.sl.H5_13
  exact View.read_writes_cons_rows_of_not_mem (o := 4400) (W := 400) arg6.view (harg6.unread xo) _ _ _ (ix2 R j) rfl rfl
    (Or.inl (by omega : R.val < 4400))

theorem top11 (R : Fin 10000) (j : Fin 128) (h : R.val < 4000) :
    rd arg6 harg6 xo (fullC c i arg3 harg3 arg4 harg4 arg5 harg5 arg6 harg6 arg7 harg7 arg8 harg8 x2 x3 x4 xs0 xs1 xo) (ix2 R j) = rd arg6 harg6 xo (runC.sl.H5_11 c i arg3 harg3 arg4 harg4 arg5 harg5 arg6 harg6 arg7 harg7 arg8 harg8 x2 x3 x4 xs0 xs1 xo) (ix2 R j) := by
  refine (top12 c i arg3 harg3 arg4 harg4 arg5 harg5 arg6 harg6 arg7 harg7 arg8 harg8 x2 x3 x4 xs0 xs1 xo R j (by omega)).trans ?_
  unfold runC.sl.H5_12
  exact View.read_writes_cons_rows_of_not_mem (o := 4000) (W := 400) arg6.view (harg6.unread xo) _ _ _ (ix2 R j) rfl rfl
    (Or.inl (by omega : R.val < 4000))

theorem top10 (R : Fin 10000) (j : Fin 128) (h : R.val < 3600) :
    rd arg6 harg6 xo (fullC c i arg3 harg3 arg4 harg4 arg5 harg5 arg6 harg6 arg7 harg7 arg8 harg8 x2 x3 x4 xs0 xs1 xo) (ix2 R j) = rd arg6 harg6 xo (runC.sl.H5_10 c i arg3 harg3 arg4 harg4 arg5 harg5 arg6 harg6 arg7 harg7 arg8 harg8 x2 x3 x4 xs0 xs1 xo) (ix2 R j) := by
  refine (top11 c i arg3 harg3 arg4 harg4 arg5 harg5 arg6 harg6 arg7 harg7 arg8 harg8 x2 x3 x4 xs0 xs1 xo R j (by omega)).trans ?_
  unfold runC.sl.H5_11
  exact View.read_writes_cons_rows_of_not_mem (o := 3600) (W := 400) arg6.view (harg6.unread xo) _ _ _ (ix2 R j) rfl rfl
    (Or.inl (by omega : R.val < 3600))

theorem top9 (R : Fin 10000) (j : Fin 128) (h : R.val < 3200) :
    rd arg6 harg6 xo (fullC c i arg3 harg3 arg4 harg4 arg5 harg5 arg6 harg6 arg7 harg7 arg8 harg8 x2 x3 x4 xs0 xs1 xo) (ix2 R j) = rd arg6 harg6 xo (runC.sl.H5_9 c i arg3 harg3 arg4 harg4 arg5 harg5 arg6 harg6 arg7 harg7 arg8 harg8 x2 x3 x4 xs0 xs1 xo) (ix2 R j) := by
  refine (top10 c i arg3 harg3 arg4 harg4 arg5 harg5 arg6 harg6 arg7 harg7 arg8 harg8 x2 x3 x4 xs0 xs1 xo R j (by omega)).trans ?_
  unfold runC.sl.H5_10
  exact View.read_writes_cons_rows_of_not_mem (o := 3200) (W := 400) arg6.view (harg6.unread xo) _ _ _ (ix2 R j) rfl rfl
    (Or.inl (by omega : R.val < 3200))

theorem top8 (R : Fin 10000) (j : Fin 128) (h : R.val < 2800) :
    rd arg6 harg6 xo (fullC c i arg3 harg3 arg4 harg4 arg5 harg5 arg6 harg6 arg7 harg7 arg8 harg8 x2 x3 x4 xs0 xs1 xo) (ix2 R j) = rd arg6 harg6 xo (runC.sl.H5_8 c i arg3 harg3 arg4 harg4 arg5 harg5 arg6 harg6 arg7 harg7 arg8 harg8 x2 x3 x4 xs0 xs1 xo) (ix2 R j) := by
  refine (top9 c i arg3 harg3 arg4 harg4 arg5 harg5 arg6 harg6 arg7 harg7 arg8 harg8 x2 x3 x4 xs0 xs1 xo R j (by omega)).trans ?_
  unfold runC.sl.H5_9
  exact View.read_writes_cons_rows_of_not_mem (o := 2800) (W := 400) arg6.view (harg6.unread xo) _ _ _ (ix2 R j) rfl rfl
    (Or.inl (by omega : R.val < 2800))

theorem top7 (R : Fin 10000) (j : Fin 128) (h : R.val < 2400) :
    rd arg6 harg6 xo (fullC c i arg3 harg3 arg4 harg4 arg5 harg5 arg6 harg6 arg7 harg7 arg8 harg8 x2 x3 x4 xs0 xs1 xo) (ix2 R j) = rd arg6 harg6 xo (runC.sl.H5_7 c i arg3 harg3 arg4 harg4 arg5 harg5 arg6 harg6 arg7 harg7 arg8 harg8 x2 x3 x4 xs0 xs1 xo) (ix2 R j) := by
  refine (top8 c i arg3 harg3 arg4 harg4 arg5 harg5 arg6 harg6 arg7 harg7 arg8 harg8 x2 x3 x4 xs0 xs1 xo R j (by omega)).trans ?_
  unfold runC.sl.H5_8
  exact View.read_writes_cons_rows_of_not_mem (o := 2400) (W := 400) arg6.view (harg6.unread xo) _ _ _ (ix2 R j) rfl rfl
    (Or.inl (by omega : R.val < 2400))

theorem top6 (R : Fin 10000) (j : Fin 128) (h : R.val < 2000) :
    rd arg6 harg6 xo (fullC c i arg3 harg3 arg4 harg4 arg5 harg5 arg6 harg6 arg7 harg7 arg8 harg8 x2 x3 x4 xs0 xs1 xo) (ix2 R j) = rd arg6 harg6 xo (runC.sl.H5_6 c i arg3 harg3 arg4 harg4 arg5 harg5 arg6 harg6 arg7 harg7 arg8 harg8 x2 x3 x4 xs0 xs1 xo) (ix2 R j) := by
  refine (top7 c i arg3 harg3 arg4 harg4 arg5 harg5 arg6 harg6 arg7 harg7 arg8 harg8 x2 x3 x4 xs0 xs1 xo R j (by omega)).trans ?_
  unfold runC.sl.H5_7
  exact View.read_writes_cons_rows_of_not_mem (o := 2000) (W := 400) arg6.view (harg6.unread xo) _ _ _ (ix2 R j) rfl rfl
    (Or.inl (by omega : R.val < 2000))

theorem top5 (R : Fin 10000) (j : Fin 128) (h : R.val < 1600) :
    rd arg6 harg6 xo (fullC c i arg3 harg3 arg4 harg4 arg5 harg5 arg6 harg6 arg7 harg7 arg8 harg8 x2 x3 x4 xs0 xs1 xo) (ix2 R j) = rd arg6 harg6 xo (runC.sl.H5_5 c i arg3 harg3 arg4 harg4 arg5 harg5 arg6 harg6 arg7 harg7 arg8 harg8 x2 x3 x4 xs0 xs1 xo) (ix2 R j) := by
  refine (top6 c i arg3 harg3 arg4 harg4 arg5 harg5 arg6 harg6 arg7 harg7 arg8 harg8 x2 x3 x4 xs0 xs1 xo R j (by omega)).trans ?_
  unfold runC.sl.H5_6
  exact View.read_writes_cons_rows_of_not_mem (o := 1600) (W := 400) arg6.view (harg6.unread xo) _ _ _ (ix2 R j) rfl rfl
    (Or.inl (by omega : R.val < 1600))

theorem top4 (R : Fin 10000) (j : Fin 128) (h : R.val < 1200) :
    rd arg6 harg6 xo (fullC c i arg3 harg3 arg4 harg4 arg5 harg5 arg6 harg6 arg7 harg7 arg8 harg8 x2 x3 x4 xs0 xs1 xo) (ix2 R j) = rd arg6 harg6 xo (runC.sl.H5_4 c i arg3 harg3 arg4 harg4 arg5 harg5 arg6 harg6 arg7 harg7 arg8 harg8 x2 x3 x4 xs0 xs1 xo) (ix2 R j) := by
  refine (top5 c i arg3 harg3 arg4 harg4 arg5 harg5 arg6 harg6 arg7 harg7 arg8 harg8 x2 x3 x4 xs0 xs1 xo R j (by omega)).trans ?_
  unfold runC.sl.H5_5
  exact View.read_writes_cons_rows_of_not_mem (o := 1200) (W := 400) arg6.view (harg6.unread xo) _ _ _ (ix2 R j) rfl rfl
    (Or.inl (by omega : R.val < 1200))

theorem top3 (R : Fin 10000) (j : Fin 128) (h : R.val < 800) :
    rd arg6 harg6 xo (fullC c i arg3 harg3 arg4 harg4 arg5 harg5 arg6 harg6 arg7 harg7 arg8 harg8 x2 x3 x4 xs0 xs1 xo) (ix2 R j) = rd arg6 harg6 xo (runC.sl.H5_3 c i arg3 harg3 arg4 harg4 arg5 harg5 arg6 harg6 arg7 harg7 arg8 harg8 x2 x3 x4 xs0 xs1 xo) (ix2 R j) := by
  refine (top4 c i arg3 harg3 arg4 harg4 arg5 harg5 arg6 harg6 arg7 harg7 arg8 harg8 x2 x3 x4 xs0 xs1 xo R j (by omega)).trans ?_
  unfold runC.sl.H5_4
  exact View.read_writes_cons_rows_of_not_mem (o := 800) (W := 400) arg6.view (harg6.unread xo) _ _ _ (ix2 R j) rfl rfl
    (Or.inl (by omega : R.val < 800))

theorem top2 (R : Fin 10000) (j : Fin 128) (h : R.val < 400) :
    rd arg6 harg6 xo (fullC c i arg3 harg3 arg4 harg4 arg5 harg5 arg6 harg6 arg7 harg7 arg8 harg8 x2 x3 x4 xs0 xs1 xo) (ix2 R j) = rd arg6 harg6 xo (runC.sl.H5_2 c i arg3 harg3 arg4 harg4 arg5 harg5 arg6 harg6 arg7 harg7 arg8 harg8 x2 x3 x4 xs0 xs1 xo) (ix2 R j) := by
  refine (top3 c i arg3 harg3 arg4 harg4 arg5 harg5 arg6 harg6 arg7 harg7 arg8 harg8 x2 x3 x4 xs0 xs1 xo R j (by omega)).trans ?_
  unfold runC.sl.H5_3
  exact View.read_writes_cons_rows_of_not_mem (o := 400) (W := 400) arg6.view (harg6.unread xo) _ _ _ (ix2 R j) rfl rfl
    (Or.inl (by omega : R.val < 400))

/-! ### Each row block loaded back by the sweep is that block of what the block store left -/

theorem load1 (R : Fin 10000) (r : Fin 400) (j : Fin 128) (hR : R.val = 400 + r.val) :
    runC.sl.v53 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v53
  refine (readAt_rows arg6 harg6 xo _ 400 _ rfl R r j hR).trans ?_
  exact low2 c i arg3 harg3 arg4 harg4 arg5 harg5 arg6 harg6 arg7 harg7 arg8 harg8 x2 x3 x4 xs0 xs1 xo R j (by omega)

theorem load2 (R : Fin 10000) (r : Fin 400) (j : Fin 128) (hR : R.val = 800 + r.val) :
    runC.sl.v61 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v61
  refine (readAt_rows arg6 harg6 xo _ 800 _ rfl R r j hR).trans ?_
  exact low3 c i arg3 harg3 arg4 harg4 arg5 harg5 arg6 harg6 arg7 harg7 arg8 harg8 x2 x3 x4 xs0 xs1 xo R j (by omega)

theorem load3 (R : Fin 10000) (r : Fin 400) (j : Fin 128) (hR : R.val = 1200 + r.val) :
    runC.sl.v69 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v69
  refine (readAt_rows arg6 harg6 xo _ 1200 _ rfl R r j hR).trans ?_
  exact low4 c i arg3 harg3 arg4 harg4 arg5 harg5 arg6 harg6 arg7 harg7 arg8 harg8 x2 x3 x4 xs0 xs1 xo R j (by omega)

theorem load4 (R : Fin 10000) (r : Fin 400) (j : Fin 128) (hR : R.val = 1600 + r.val) :
    runC.sl.v77 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v77
  refine (readAt_rows arg6 harg6 xo _ 1600 _ rfl R r j hR).trans ?_
  exact low5 c i arg3 harg3 arg4 harg4 arg5 harg5 arg6 harg6 arg7 harg7 arg8 harg8 x2 x3 x4 xs0 xs1 xo R j (by omega)

theorem load5 (R : Fin 10000) (r : Fin 400) (j : Fin 128) (hR : R.val = 2000 + r.val) :
    runC.sl.v85 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v85
  refine (readAt_rows arg6 harg6 xo _ 2000 _ rfl R r j hR).trans ?_
  exact low6 c i arg3 harg3 arg4 harg4 arg5 harg5 arg6 harg6 arg7 harg7 arg8 harg8 x2 x3 x4 xs0 xs1 xo R j (by omega)

theorem load6 (R : Fin 10000) (r : Fin 400) (j : Fin 128) (hR : R.val = 2400 + r.val) :
    runC.sl.v93 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v93
  refine (readAt_rows arg6 harg6 xo _ 2400 _ rfl R r j hR).trans ?_
  exact low7 c i arg3 harg3 arg4 harg4 arg5 harg5 arg6 harg6 arg7 harg7 arg8 harg8 x2 x3 x4 xs0 xs1 xo R j (by omega)

theorem load7 (R : Fin 10000) (r : Fin 400) (j : Fin 128) (hR : R.val = 2800 + r.val) :
    runC.sl.v101 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v101
  refine (readAt_rows arg6 harg6 xo _ 2800 _ rfl R r j hR).trans ?_
  exact low8 c i arg3 harg3 arg4 harg4 arg5 harg5 arg6 harg6 arg7 harg7 arg8 harg8 x2 x3 x4 xs0 xs1 xo R j (by omega)

theorem load8 (R : Fin 10000) (r : Fin 400) (j : Fin 128) (hR : R.val = 3200 + r.val) :
    runC.sl.v109 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v109
  refine (readAt_rows arg6 harg6 xo _ 3200 _ rfl R r j hR).trans ?_
  exact low9 c i arg3 harg3 arg4 harg4 arg5 harg5 arg6 harg6 arg7 harg7 arg8 harg8 x2 x3 x4 xs0 xs1 xo R j (by omega)

theorem load9 (R : Fin 10000) (r : Fin 400) (j : Fin 128) (hR : R.val = 3600 + r.val) :
    runC.sl.v117 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v117
  refine (readAt_rows arg6 harg6 xo _ 3600 _ rfl R r j hR).trans ?_
  exact low10 c i arg3 harg3 arg4 harg4 arg5 harg5 arg6 harg6 arg7 harg7 arg8 harg8 x2 x3 x4 xs0 xs1 xo R j (by omega)

theorem load10 (R : Fin 10000) (r : Fin 400) (j : Fin 128) (hR : R.val = 4000 + r.val) :
    runC.sl.v125 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v125
  refine (readAt_rows arg6 harg6 xo _ 4000 _ rfl R r j hR).trans ?_
  exact low11 c i arg3 harg3 arg4 harg4 arg5 harg5 arg6 harg6 arg7 harg7 arg8 harg8 x2 x3 x4 xs0 xs1 xo R j (by omega)

theorem load11 (R : Fin 10000) (r : Fin 400) (j : Fin 128) (hR : R.val = 4400 + r.val) :
    runC.sl.v133 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v133
  refine (readAt_rows arg6 harg6 xo _ 4400 _ rfl R r j hR).trans ?_
  exact low12 c i arg3 harg3 arg4 harg4 arg5 harg5 arg6 harg6 arg7 harg7 arg8 harg8 x2 x3 x4 xs0 xs1 xo R j (by omega)

theorem load12 (R : Fin 10000) (r : Fin 400) (j : Fin 128) (hR : R.val = 4800 + r.val) :
    runC.sl.v141 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v141
  refine (readAt_rows arg6 harg6 xo _ 4800 _ rfl R r j hR).trans ?_
  exact low13 c i arg3 harg3 arg4 harg4 arg5 harg5 arg6 harg6 arg7 harg7 arg8 harg8 x2 x3 x4 xs0 xs1 xo R j (by omega)

theorem load13 (R : Fin 10000) (r : Fin 400) (j : Fin 128) (hR : R.val = 5200 + r.val) :
    runC.sl.v149 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v149
  refine (readAt_rows arg6 harg6 xo _ 5200 _ rfl R r j hR).trans ?_
  exact low14 c i arg3 harg3 arg4 harg4 arg5 harg5 arg6 harg6 arg7 harg7 arg8 harg8 x2 x3 x4 xs0 xs1 xo R j (by omega)

theorem load14 (R : Fin 10000) (r : Fin 400) (j : Fin 128) (hR : R.val = 5600 + r.val) :
    runC.sl.v157 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v157
  refine (readAt_rows arg6 harg6 xo _ 5600 _ rfl R r j hR).trans ?_
  exact low15 c i arg3 harg3 arg4 harg4 arg5 harg5 arg6 harg6 arg7 harg7 arg8 harg8 x2 x3 x4 xs0 xs1 xo R j (by omega)

theorem load15 (R : Fin 10000) (r : Fin 400) (j : Fin 128) (hR : R.val = 6000 + r.val) :
    runC.sl.v165 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v165
  refine (readAt_rows arg6 harg6 xo _ 6000 _ rfl R r j hR).trans ?_
  exact low16 c i arg3 harg3 arg4 harg4 arg5 harg5 arg6 harg6 arg7 harg7 arg8 harg8 x2 x3 x4 xs0 xs1 xo R j (by omega)

theorem load16 (R : Fin 10000) (r : Fin 400) (j : Fin 128) (hR : R.val = 6400 + r.val) :
    runC.sl.v c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v
  refine (readAt_rows arg6 harg6 xo _ 6400 _ rfl R r j hR).trans ?_
  exact low17 c i arg3 harg3 arg4 harg4 arg5 harg5 arg6 harg6 arg7 harg7 arg8 harg8 x2 x3 x4 xs0 xs1 xo R j (by omega)

theorem load17 (R : Fin 10000) (r : Fin 400) (j : Fin 128) (hR : R.val = 6800 + r.val) :
    runC.sl.v181 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v181
  refine (readAt_rows arg6 harg6 xo _ 6800 _ rfl R r j hR).trans ?_
  exact low18 c i arg3 harg3 arg4 harg4 arg5 harg5 arg6 harg6 arg7 harg7 arg8 harg8 x2 x3 x4 xs0 xs1 xo R j (by omega)

theorem load18 (R : Fin 10000) (r : Fin 400) (j : Fin 128) (hR : R.val = 7200 + r.val) :
    runC.sl.v189 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v189
  refine (readAt_rows arg6 harg6 xo _ 7200 _ rfl R r j hR).trans ?_
  exact low19 c i arg3 harg3 arg4 harg4 arg5 harg5 arg6 harg6 arg7 harg7 arg8 harg8 x2 x3 x4 xs0 xs1 xo R j (by omega)

theorem load19 (R : Fin 10000) (r : Fin 400) (j : Fin 128) (hR : R.val = 7600 + r.val) :
    runC.sl.v197 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v197
  refine (readAt_rows arg6 harg6 xo _ 7600 _ rfl R r j hR).trans ?_
  exact low20 c i arg3 harg3 arg4 harg4 arg5 harg5 arg6 harg6 arg7 harg7 arg8 harg8 x2 x3 x4 xs0 xs1 xo R j (by omega)

theorem load20 (R : Fin 10000) (r : Fin 400) (j : Fin 128) (hR : R.val = 8000 + r.val) :
    runC.sl.v205 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v205
  refine (readAt_rows arg6 harg6 xo _ 8000 _ rfl R r j hR).trans ?_
  exact low21 c i arg3 harg3 arg4 harg4 arg5 harg5 arg6 harg6 arg7 harg7 arg8 harg8 x2 x3 x4 xs0 xs1 xo R j (by omega)

theorem load21 (R : Fin 10000) (r : Fin 400) (j : Fin 128) (hR : R.val = 8400 + r.val) :
    runC.sl.v213 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v213
  refine (readAt_rows arg6 harg6 xo _ 8400 _ rfl R r j hR).trans ?_
  exact low22 c i arg3 harg3 arg4 harg4 arg5 harg5 arg6 harg6 arg7 harg7 arg8 harg8 x2 x3 x4 xs0 xs1 xo R j (by omega)

theorem load22 (R : Fin 10000) (r : Fin 400) (j : Fin 128) (hR : R.val = 8800 + r.val) :
    runC.sl.v221 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v221
  refine (readAt_rows arg6 harg6 xo _ 8800 _ rfl R r j hR).trans ?_
  exact low23 c i arg3 harg3 arg4 harg4 arg5 harg5 arg6 harg6 arg7 harg7 arg8 harg8 x2 x3 x4 xs0 xs1 xo R j (by omega)

theorem load23 (R : Fin 10000) (r : Fin 400) (j : Fin 128) (hR : R.val = 9200 + r.val) :
    runC.sl.v229 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v229
  refine (readAt_rows arg6 harg6 xo _ 9200 _ rfl R r j hR).trans ?_
  exact low24 c i arg3 harg3 arg4 harg4 arg5 harg5 arg6 harg6 arg7 harg7 arg8 harg8 x2 x3 x4 xs0 xs1 xo R j (by omega)

theorem load24 (R : Fin 10000) (r : Fin 400) (j : Fin 128) (hR : R.val = 9600 + r.val) :
    runC.sl.v237 c i arg3 harg3 arg4 harg4 arg5 harg5 arg6 harg6 arg7 harg7 arg8 harg8 x2 x3 x4 xs0 xs1 xo (ix2 r j) = rd arg6 harg6 xo (runC.sl.H5_1 c i arg5 harg5 arg7 harg7 x4 xs0) (ix2 R j) := by
  unfold runC.sl.v237
  refine (readAt_rows arg6 harg6 xo _ 9600 _ rfl R r j hR).trans ?_
  exact low25 c i arg3 harg3 arg4 harg4 arg5 harg5 arg6 harg6 arg7 harg7 arg8 harg8 x2 x3 x4 xs0 xs1 xo R j (by omega)

/-! ### The completed statistics, gamma and beta as the sweep reads them -/

/-- A whole buffer loaded back through its whole rectangle reads what it holds. -/
theorem readback {S : Shape} (m : Memref sig .tc .vmem S .f32) (hm : m.IsWhole) (x : Vec F S .f32) {off : Fin S.rank → ℕ}
    (hz : off = fun _ => 0) (inb : ∀ a, off a + S.size a ≤ S.size a) :
    View.readAt (Elt F) m.view (Rect.unit off S.size inb).toLoadRect (hm.unread x) = x := by
  rw [View.readAt_eq_ld, hm.read_unread, View.ld_unit_zero hz]

/-- The two zero offsets, as a function. -/
theorem hz2 : (![0, 0] : Fin 2 → ℕ) = fun _ => 0 := by funext a; fin_cases a <;> rfl

/-- Row o of the statistics loaded back after a list of row stores that covers it is row o of the buffer after them,
whatever the buffer held before. -/
theorem statRow (f : arg8.view.ty.Contents (Elt F)) (L : List (View.Piece (Elt F) S8x128 .f32)) (o : ℕ) {off : Fin 2 → ℕ}
    (inb : ∀ a, off a + S1x128.size a ≤ S8x128.size a) (hoff : off = ![o, 0]) (ρ : Fin 8) (j : Fin 128) (hρ : ρ.val = o)
    (hcov : ∃ p ∈ L, ix2 ρ j ∈ p.1.set) :
    arg8.view.readCov L (Rect.unit (s := S8x128) off S1x128.size inb).toLoadRect (ix2 0 j)
      = arg8.view.read (Elt F) (arg8.view.writes (Elt F) f L) (ix2 ρ j) := by
  subst hoff
  have hi : (Rect.unit (s := S8x128) ![o, 0] S1x128.size inb).toLoadRect.idx (ix2 (0 : Fin 1) j) = ix2 ρ j :=
    funext fun a => Fin.ext (by
      match a with
      | ⟨0, _⟩ => show o + 1 * 0 = ρ.val; omega
      | ⟨1, _⟩ => show 0 + 1 * j.val = j.val; omega)
  unfold View.readCov
  rw [View.readAt_apply, hi]
  exact View.read_writes_apply_eq arg8.view arg8.view.junk arg8.view f (ix2 ρ j) L hcov

end Sweep

/-- The block store alone leaves the buffer at what prevC names. -/
theorem rd1_eq (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) :
    rd arg6 harg6 xo (runC.sl.H5_1 c i arg5 harg5 arg7 harg7 x4 xs0) = prevC c i arg1 harg1 arg2 harg2 arg3 harg3 arg4 harg4 arg5 harg5 arg6 harg6 arg7 harg7 arg8 harg8 hc0 hc1 x0 x1 x2 x3 x4 xs0 xs1 xo := by
  unfold runC.sl.H5_1 prevC
  rw [readback arg5 harg5 x4 hz2, readback arg7 harg7 xs0 hz2]

/-- The column sums the sweep reads are row 0 of the statistics after the point. -/
theorem v27_apply (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (j : Fin 128) :
    runC.sl.v27 c arg5 harg5 arg7 harg7 arg8 harg8 x4 xs0 xs1 (ix2 0 j) = scC1 c i arg1 harg1 arg2 harg2 arg3 harg3 arg4 harg4 arg5 harg5 arg6 harg6 arg7 harg7 arg8 harg8 hc0 hc1 x0 x1 x2 x3 x4 xs0 xs1 (ix2 0 j) := by
  unfold scC1 runC
  dsimp only
  unfold runC.sl.v27
  refine statRow arg8 (harg8.unread xs1) _ 0 _ rfl 0 j rfl ?_
  unfold runC.sl.HS1_2
  refine ⟨_, List.mem_cons_of_mem _ (List.mem_singleton.mpr rfl), ?_⟩
  show ix2 (0 : Fin 8) j ∈ (Rect.unit (s := S8x128) ![0, 0] ![1, 128] inb_S8x128_S1x128_0_0).set
  refine Rect.mem_set_unit.mpr fun a => ?_
  match a with
  | ⟨0, _⟩ => exact ⟨Nat.le_refl 0, (by omega : 0 < 0 + 1)⟩
  | ⟨1, _⟩ => exact ⟨Nat.zero_le _, (by omega : j.val < 0 + 128)⟩

/-- The column sums of squares the sweep reads are row 1 of the statistics after the point. -/
theorem v30_apply (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (j : Fin 128) :
    runC.sl.v30 c arg5 harg5 arg7 harg7 arg8 harg8 x4 xs0 xs1 (ix2 0 j) = scC1 c i arg1 harg1 arg2 harg2 arg3 harg3 arg4 harg4 arg5 harg5 arg6 harg6 arg7 harg7 arg8 harg8 hc0 hc1 x0 x1 x2 x3 x4 xs0 xs1 (ix2 1 j) := by
  unfold scC1 runC
  dsimp only
  unfold runC.sl.v30
  refine statRow arg8 (harg8.unread xs1) _ 1 _ rfl 1 j rfl ?_
  unfold runC.sl.HS1_2
  refine ⟨_, List.mem_cons.mpr (Or.inl rfl), ?_⟩
  show ix2 (1 : Fin 8) j ∈ (Rect.unit (s := S8x128) ![1, 0] ![1, 128] inb_S8x128_S1x128_1_0).set
  refine Rect.mem_set_unit.mpr fun a => ?_
  match a with
  | ⟨0, _⟩ => exact ⟨Nat.le_refl 1, (by omega : 1 < 1 + 1)⟩
  | ⟨1, _⟩ => exact ⟨Nat.zero_le _, (by omega : j.val < 0 + 128)⟩

/-- After the last point the output buffer is read back after the 25 sweep stores over the block store. -/
theorem oC_eq (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec F S10000x128 .f32) (x1 : Vec F S16x128 .f32) (x2 : Vec F S1x128 .f32) (x3 : Vec F S1x128 .f32) (x4 : Vec F S400x10000 .f32) (xs0 : Vec F S10000x128 .f32) (xs1 : Vec F S8x128 .f32) (xo : Vec F S10000x128 .f32) :
    oC c i arg1 harg1 arg2 harg2 arg3 harg3 arg4 harg4 arg5 harg5 arg6 harg6 arg7 harg7 arg8 harg8 hc0 hc1 x0 x1 x2 x3 x4 xs0 xs1 xo = rd arg6 harg6 xo (fullC c i arg3 harg3 arg4 harg4 arg5 harg5 arg6 harg6 arg7 harg7 arg8 harg8 x2 x3 x4 xs0 xs1 xo) := by
  unfold oC runC
  rfl

/-- tanh of the held entry times the scale plus the shift, the scale and shift read off the statistics, gamma and beta. -/
theorem tail_eq (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i) (x0 : Vec Ideal S10000x128 .f32) (x1 : Vec Ideal S16x128 .f32) (x2 : Vec Ideal S1x128 .f32) (x3 : Vec Ideal S1x128 .f32) (x4 : Vec Ideal S400x10000 .f32) (xs0 : Vec Ideal S10000x128 .f32) (xs1 : Vec Ideal S8x128 .f32) (xo : Vec Ideal S10000x128 .f32) (R : Fin 10000) (j : Fin 128) :
    Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))
      = Ideal.tanh (prevC (F := Ideal) c i arg1 harg1 arg2 harg2 arg3 harg3 arg4 harg4 arg5 harg5 arg6 harg6 arg7 harg7 arg8 harg8 hc0 hc1 x0 x1 x2 x3 x4 xs0 xs1 xo (ix2 R j)
          * Ognn.scaleOf (scC1 (F := Ideal) c i arg1 harg1 arg2 harg2 arg3 harg3 arg4 harg4 arg5 harg5 arg6 harg6 arg7 harg7 arg8 harg8 hc0 hc1 x0 x1 x2 x3 x4 xs0 xs1 (ix2 0 j)) (scC1 (F := Ideal) c i arg1 harg1 arg2 harg2 arg3 harg3 arg4 harg4 arg5 harg5 arg6 harg6 arg7 harg7 arg8 harg8 hc0 hc1 x0 x1 x2 x3 x4 xs0 xs1 (ix2 1 j)) (x2 (ix2 0 j))
          + Ognn.shiftOf (scC1 (F := Ideal) c i arg1 harg1 arg2 harg2 arg3 harg3 arg4 harg4 arg5 harg5 arg6 harg6 arg7 harg7 arg8 harg8 hc0 hc1 x0 x1 x2 x3 x4 xs0 xs1 (ix2 0 j)) (scC1 (F := Ideal) c i arg1 harg1 arg2 harg2 arg3 harg3 arg4 harg4 arg5 harg5 arg6 harg6 arg7 harg7 arg8 harg8 hc0 hc1 x0 x1 x2 x3 x4 xs0 xs1 (ix2 1 j)) (x2 (ix2 0 j)) (x3 (ix2 0 j))) := by
  unfold runC.sl.r runC.sl.r_1
  rw [rd1_eq c i arg1 harg1 arg2 harg2 arg3 harg3 arg4 harg4 arg5 harg5 arg6 harg6 arg7 harg7 arg8 harg8 hc0 hc1 x0 x1 x2 x3 x4 xs0 xs1 xo, Pay.pay36_apply, Pay.pay37_apply, v27_apply c i arg1 harg1 arg2 harg2 arg3 harg3 arg4 harg4 arg5 harg5 arg6 harg6 arg7 harg7 arg8 harg8 hc0 hc1 x0 x1 x2 x3 x4 xs0 xs1 j, v30_apply c i arg1 harg1 arg2 harg2 arg3 harg3 arg4 harg4 arg5 harg5 arg6 harg6 arg7 harg7 arg8 harg8 hc0 hc1 x0 x1 x2 x3 x4 xs0 xs1 j,
    readback arg3 harg3 x2 hz2, readback arg4 harg4 x3 hz2]

section SweepIdeal

variable (c : Dev nD) (i : grid0.Coords) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole)
  (x2 x3 : Vec Ideal S1x128 .f32) (x4 : Vec Ideal S400x10000 .f32) (xs0 : Vec Ideal S10000x128 .f32) (xs1 : Vec Ideal S8x128 .f32) (xo : Vec Ideal S10000x128 .f32)

/-! ### Each block of rows after the sweep: tanh of the held block times the scale plus the shift -/

theorem blk0 (R : Fin 10000) (j : Fin 128) (h1 : 0 ≤ R.val) (h2 : R.val < 400) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 0 + (⟨R.val - 0, by omega⟩ : Fin 400).val := by show R.val = 0 + (R.val - 0); omega
  refine (top2 c i arg3 harg3 arg4 harg4 arg5 harg5 arg6 harg6 arg7 harg7 arg8 harg8 x2 x3 x4 xs0 xs1 xo R j h2).trans ?_
  unfold runC.sl.H5_2
  refine (View.read_writes_cons_rows_of_mem (o := 0) arg6.view (harg6.unread xo) _ _ _ (ix2 R j) (ix2 (⟨R.val - 0, by omega⟩ : Fin 400) j) rfl hR rfl).trans ?_
  refine (Pay.pay38_apply _ _ _ _ _ (⟨R.val - 0, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (readAt_rows arg6 harg6 xo _ 0 _ rfl R (⟨R.val - 0, by omega⟩ : Fin 400) j hR)

theorem blk1 (R : Fin 10000) (j : Fin 128) (h1 : 400 ≤ R.val) (h2 : R.val < 800) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 400 + (⟨R.val - 400, by omega⟩ : Fin 400).val := by show R.val = 400 + (R.val - 400); omega
  refine (top3 c i arg3 harg3 arg4 harg4 arg5 harg5 arg6 harg6 arg7 harg7 arg8 harg8 x2 x3 x4 xs0 xs1 xo R j h2).trans ?_
  unfold runC.sl.H5_3
  refine (View.read_writes_cons_rows_of_mem (o := 400) arg6.view (harg6.unread xo) _ _ _ (ix2 R j) (ix2 (⟨R.val - 400, by omega⟩ : Fin 400) j) rfl hR rfl).trans ?_
  refine (Pay.pay39_apply _ _ _ _ _ (⟨R.val - 400, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load1 c i arg3 harg3 arg4 harg4 arg5 harg5 arg6 harg6 arg7 harg7 arg8 harg8 x2 x3 x4 xs0 xs1 xo R (⟨R.val - 400, by omega⟩ : Fin 400) j hR)

theorem blk2 (R : Fin 10000) (j : Fin 128) (h1 : 800 ≤ R.val) (h2 : R.val < 1200) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 800 + (⟨R.val - 800, by omega⟩ : Fin 400).val := by show R.val = 800 + (R.val - 800); omega
  refine (top4 c i arg3 harg3 arg4 harg4 arg5 harg5 arg6 harg6 arg7 harg7 arg8 harg8 x2 x3 x4 xs0 xs1 xo R j h2).trans ?_
  unfold runC.sl.H5_4
  refine (View.read_writes_cons_rows_of_mem (o := 800) arg6.view (harg6.unread xo) _ _ _ (ix2 R j) (ix2 (⟨R.val - 800, by omega⟩ : Fin 400) j) rfl hR rfl).trans ?_
  refine (Pay.pay42_apply _ _ _ _ _ (⟨R.val - 800, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load2 c i arg3 harg3 arg4 harg4 arg5 harg5 arg6 harg6 arg7 harg7 arg8 harg8 x2 x3 x4 xs0 xs1 xo R (⟨R.val - 800, by omega⟩ : Fin 400) j hR)

theorem blk3 (R : Fin 10000) (j : Fin 128) (h1 : 1200 ≤ R.val) (h2 : R.val < 1600) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 1200 + (⟨R.val - 1200, by omega⟩ : Fin 400).val := by show R.val = 1200 + (R.val - 1200); omega
  refine (top5 c i arg3 harg3 arg4 harg4 arg5 harg5 arg6 harg6 arg7 harg7 arg8 harg8 x2 x3 x4 xs0 xs1 xo R j h2).trans ?_
  unfold runC.sl.H5_5
  refine (View.read_writes_cons_rows_of_mem (o := 1200) arg6.view (harg6.unread xo) _ _ _ (ix2 R j) (ix2 (⟨R.val - 1200, by omega⟩ : Fin 400) j) rfl hR rfl).trans ?_
  refine (Pay.pay43_apply _ _ _ (⟨R.val - 1200, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load3 c i arg3 harg3 arg4 harg4 arg5 harg5 arg6 harg6 arg7 harg7 arg8 harg8 x2 x3 x4 xs0 xs1 xo R (⟨R.val - 1200, by omega⟩ : Fin 400) j hR)

theorem blk4 (R : Fin 10000) (j : Fin 128) (h1 : 1600 ≤ R.val) (h2 : R.val < 2000) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 1600 + (⟨R.val - 1600, by omega⟩ : Fin 400).val := by show R.val = 1600 + (R.val - 1600); omega
  refine (top6 c i arg3 harg3 arg4 harg4 arg5 harg5 arg6 harg6 arg7 harg7 arg8 harg8 x2 x3 x4 xs0 xs1 xo R j h2).trans ?_
  unfold runC.sl.H5_6
  refine (View.read_writes_cons_rows_of_mem (o := 1600) arg6.view (harg6.unread xo) _ _ _ (ix2 R j) (ix2 (⟨R.val - 1600, by omega⟩ : Fin 400) j) rfl hR rfl).trans ?_
  refine (Pay.pay44_apply _ _ _ (⟨R.val - 1600, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load4 c i arg3 harg3 arg4 harg4 arg5 harg5 arg6 harg6 arg7 harg7 arg8 harg8 x2 x3 x4 xs0 xs1 xo R (⟨R.val - 1600, by omega⟩ : Fin 400) j hR)

theorem blk5 (R : Fin 10000) (j : Fin 128) (h1 : 2000 ≤ R.val) (h2 : R.val < 2400) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 2000 + (⟨R.val - 2000, by omega⟩ : Fin 400).val := by show R.val = 2000 + (R.val - 2000); omega
  refine (top7 c i arg3 harg3 arg4 harg4 arg5 harg5 arg6 harg6 arg7 harg7 arg8 harg8 x2 x3 x4 xs0 xs1 xo R j h2).trans ?_
  unfold runC.sl.H5_7
  refine (View.read_writes_cons_rows_of_mem (o := 2000) arg6.view (harg6.unread xo) _ _ _ (ix2 R j) (ix2 (⟨R.val - 2000, by omega⟩ : Fin 400) j) rfl hR rfl).trans ?_
  refine (Pay.pay45_apply _ _ _ (⟨R.val - 2000, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load5 c i arg3 harg3 arg4 harg4 arg5 harg5 arg6 harg6 arg7 harg7 arg8 harg8 x2 x3 x4 xs0 xs1 xo R (⟨R.val - 2000, by omega⟩ : Fin 400) j hR)

theorem blk6 (R : Fin 10000) (j : Fin 128) (h1 : 2400 ≤ R.val) (h2 : R.val < 2800) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 2400 + (⟨R.val - 2400, by omega⟩ : Fin 400).val := by show R.val = 2400 + (R.val - 2400); omega
  refine (top8 c i arg3 harg3 arg4 harg4 arg5 harg5 arg6 harg6 arg7 harg7 arg8 harg8 x2 x3 x4 xs0 xs1 xo R j h2).trans ?_
  unfold runC.sl.H5_8
  refine (View.read_writes_cons_rows_of_mem (o := 2400) arg6.view (harg6.unread xo) _ _ _ (ix2 R j) (ix2 (⟨R.val - 2400, by omega⟩ : Fin 400) j) rfl hR rfl).trans ?_
  refine (Pay.pay46_apply _ _ _ (⟨R.val - 2400, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load6 c i arg3 harg3 arg4 harg4 arg5 harg5 arg6 harg6 arg7 harg7 arg8 harg8 x2 x3 x4 xs0 xs1 xo R (⟨R.val - 2400, by omega⟩ : Fin 400) j hR)

theorem blk7 (R : Fin 10000) (j : Fin 128) (h1 : 2800 ≤ R.val) (h2 : R.val < 3200) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 2800 + (⟨R.val - 2800, by omega⟩ : Fin 400).val := by show R.val = 2800 + (R.val - 2800); omega
  refine (top9 c i arg3 harg3 arg4 harg4 arg5 harg5 arg6 harg6 arg7 harg7 arg8 harg8 x2 x3 x4 xs0 xs1 xo R j h2).trans ?_
  unfold runC.sl.H5_9
  refine (View.read_writes_cons_rows_of_mem (o := 2800) arg6.view (harg6.unread xo) _ _ _ (ix2 R j) (ix2 (⟨R.val - 2800, by omega⟩ : Fin 400) j) rfl hR rfl).trans ?_
  refine (Pay.pay47_apply _ _ _ (⟨R.val - 2800, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load7 c i arg3 harg3 arg4 harg4 arg5 harg5 arg6 harg6 arg7 harg7 arg8 harg8 x2 x3 x4 xs0 xs1 xo R (⟨R.val - 2800, by omega⟩ : Fin 400) j hR)

theorem blk8 (R : Fin 10000) (j : Fin 128) (h1 : 3200 ≤ R.val) (h2 : R.val < 3600) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 3200 + (⟨R.val - 3200, by omega⟩ : Fin 400).val := by show R.val = 3200 + (R.val - 3200); omega
  refine (top10 c i arg3 harg3 arg4 harg4 arg5 harg5 arg6 harg6 arg7 harg7 arg8 harg8 x2 x3 x4 xs0 xs1 xo R j h2).trans ?_
  unfold runC.sl.H5_10
  refine (View.read_writes_cons_rows_of_mem (o := 3200) arg6.view (harg6.unread xo) _ _ _ (ix2 R j) (ix2 (⟨R.val - 3200, by omega⟩ : Fin 400) j) rfl hR rfl).trans ?_
  refine (Pay.pay48_apply _ _ _ (⟨R.val - 3200, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load8 c i arg3 harg3 arg4 harg4 arg5 harg5 arg6 harg6 arg7 harg7 arg8 harg8 x2 x3 x4 xs0 xs1 xo R (⟨R.val - 3200, by omega⟩ : Fin 400) j hR)

theorem blk9 (R : Fin 10000) (j : Fin 128) (h1 : 3600 ≤ R.val) (h2 : R.val < 4000) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 3600 + (⟨R.val - 3600, by omega⟩ : Fin 400).val := by show R.val = 3600 + (R.val - 3600); omega
  refine (top11 c i arg3 harg3 arg4 harg4 arg5 harg5 arg6 harg6 arg7 harg7 arg8 harg8 x2 x3 x4 xs0 xs1 xo R j h2).trans ?_
  unfold runC.sl.H5_11
  refine (View.read_writes_cons_rows_of_mem (o := 3600) arg6.view (harg6.unread xo) _ _ _ (ix2 R j) (ix2 (⟨R.val - 3600, by omega⟩ : Fin 400) j) rfl hR rfl).trans ?_
  refine (Pay.pay49_apply _ _ _ (⟨R.val - 3600, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load9 c i arg3 harg3 arg4 harg4 arg5 harg5 arg6 harg6 arg7 harg7 arg8 harg8 x2 x3 x4 xs0 xs1 xo R (⟨R.val - 3600, by omega⟩ : Fin 400) j hR)

theorem blk10 (R : Fin 10000) (j : Fin 128) (h1 : 4000 ≤ R.val) (h2 : R.val < 4400) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 4000 + (⟨R.val - 4000, by omega⟩ : Fin 400).val := by show R.val = 4000 + (R.val - 4000); omega
  refine (top12 c i arg3 harg3 arg4 harg4 arg5 harg5 arg6 harg6 arg7 harg7 arg8 harg8 x2 x3 x4 xs0 xs1 xo R j h2).trans ?_
  unfold runC.sl.H5_12
  refine (View.read_writes_cons_rows_of_mem (o := 4000) arg6.view (harg6.unread xo) _ _ _ (ix2 R j) (ix2 (⟨R.val - 4000, by omega⟩ : Fin 400) j) rfl hR rfl).trans ?_
  refine (Pay.pay50_apply _ _ _ (⟨R.val - 4000, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load10 c i arg3 harg3 arg4 harg4 arg5 harg5 arg6 harg6 arg7 harg7 arg8 harg8 x2 x3 x4 xs0 xs1 xo R (⟨R.val - 4000, by omega⟩ : Fin 400) j hR)

theorem blk11 (R : Fin 10000) (j : Fin 128) (h1 : 4400 ≤ R.val) (h2 : R.val < 4800) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 4400 + (⟨R.val - 4400, by omega⟩ : Fin 400).val := by show R.val = 4400 + (R.val - 4400); omega
  refine (top13 c i arg3 harg3 arg4 harg4 arg5 harg5 arg6 harg6 arg7 harg7 arg8 harg8 x2 x3 x4 xs0 xs1 xo R j h2).trans ?_
  unfold runC.sl.H5_13
  refine (View.read_writes_cons_rows_of_mem (o := 4400) arg6.view (harg6.unread xo) _ _ _ (ix2 R j) (ix2 (⟨R.val - 4400, by omega⟩ : Fin 400) j) rfl hR rfl).trans ?_
  refine (Pay.pay52_51_apply _ _ _ (⟨R.val - 4400, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load11 c i arg3 harg3 arg4 harg4 arg5 harg5 arg6 harg6 arg7 harg7 arg8 harg8 x2 x3 x4 xs0 xs1 xo R (⟨R.val - 4400, by omega⟩ : Fin 400) j hR)

theorem blk12 (R : Fin 10000) (j : Fin 128) (h1 : 4800 ≤ R.val) (h2 : R.val < 5200) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 4800 + (⟨R.val - 4800, by omega⟩ : Fin 400).val := by show R.val = 4800 + (R.val - 4800); omega
  refine (top14 c i arg3 harg3 arg4 harg4 arg5 harg5 arg6 harg6 arg7 harg7 arg8 harg8 x2 x3 x4 xs0 xs1 xo R j h2).trans ?_
  unfold runC.sl.H5_14
  refine (View.read_writes_cons_rows_of_mem (o := 4800) arg6.view (harg6.unread xo) _ _ _ (ix2 R j) (ix2 (⟨R.val - 4800, by omega⟩ : Fin 400) j) rfl hR rfl).trans ?_
  refine (Pay.pay53_apply _ _ _ (⟨R.val - 4800, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load12 c i arg3 harg3 arg4 harg4 arg5 harg5 arg6 harg6 arg7 harg7 arg8 harg8 x2 x3 x4 xs0 xs1 xo R (⟨R.val - 4800, by omega⟩ : Fin 400) j hR)

theorem blk13 (R : Fin 10000) (j : Fin 128) (h1 : 5200 ≤ R.val) (h2 : R.val < 5600) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 5200 + (⟨R.val - 5200, by omega⟩ : Fin 400).val := by show R.val = 5200 + (R.val - 5200); omega
  refine (top15 c i arg3 harg3 arg4 harg4 arg5 harg5 arg6 harg6 arg7 harg7 arg8 harg8 x2 x3 x4 xs0 xs1 xo R j h2).trans ?_
  unfold runC.sl.H5_15
  refine (View.read_writes_cons_rows_of_mem (o := 5200) arg6.view (harg6.unread xo) _ _ _ (ix2 R j) (ix2 (⟨R.val - 5200, by omega⟩ : Fin 400) j) rfl hR rfl).trans ?_
  refine (Pay.pay54_apply _ _ _ (⟨R.val - 5200, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load13 c i arg3 harg3 arg4 harg4 arg5 harg5 arg6 harg6 arg7 harg7 arg8 harg8 x2 x3 x4 xs0 xs1 xo R (⟨R.val - 5200, by omega⟩ : Fin 400) j hR)

theorem blk14 (R : Fin 10000) (j : Fin 128) (h1 : 5600 ≤ R.val) (h2 : R.val < 6000) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 5600 + (⟨R.val - 5600, by omega⟩ : Fin 400).val := by show R.val = 5600 + (R.val - 5600); omega
  refine (top16 c i arg3 harg3 arg4 harg4 arg5 harg5 arg6 harg6 arg7 harg7 arg8 harg8 x2 x3 x4 xs0 xs1 xo R j h2).trans ?_
  unfold runC.sl.H5_16
  refine (View.read_writes_cons_rows_of_mem (o := 5600) arg6.view (harg6.unread xo) _ _ _ (ix2 R j) (ix2 (⟨R.val - 5600, by omega⟩ : Fin 400) j) rfl hR rfl).trans ?_
  refine (Pay.pay55_apply _ _ _ (⟨R.val - 5600, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load14 c i arg3 harg3 arg4 harg4 arg5 harg5 arg6 harg6 arg7 harg7 arg8 harg8 x2 x3 x4 xs0 xs1 xo R (⟨R.val - 5600, by omega⟩ : Fin 400) j hR)

theorem blk15 (R : Fin 10000) (j : Fin 128) (h1 : 6000 ≤ R.val) (h2 : R.val < 6400) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 6000 + (⟨R.val - 6000, by omega⟩ : Fin 400).val := by show R.val = 6000 + (R.val - 6000); omega
  refine (top17 c i arg3 harg3 arg4 harg4 arg5 harg5 arg6 harg6 arg7 harg7 arg8 harg8 x2 x3 x4 xs0 xs1 xo R j h2).trans ?_
  unfold runC.sl.H5_17
  refine (View.read_writes_cons_rows_of_mem (o := 6000) arg6.view (harg6.unread xo) _ _ _ (ix2 R j) (ix2 (⟨R.val - 6000, by omega⟩ : Fin 400) j) rfl hR rfl).trans ?_
  refine (Pay.pay56_apply _ _ _ (⟨R.val - 6000, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load15 c i arg3 harg3 arg4 harg4 arg5 harg5 arg6 harg6 arg7 harg7 arg8 harg8 x2 x3 x4 xs0 xs1 xo R (⟨R.val - 6000, by omega⟩ : Fin 400) j hR)

theorem blk16 (R : Fin 10000) (j : Fin 128) (h1 : 6400 ≤ R.val) (h2 : R.val < 6800) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 6400 + (⟨R.val - 6400, by omega⟩ : Fin 400).val := by show R.val = 6400 + (R.val - 6400); omega
  refine (top18 c i arg3 harg3 arg4 harg4 arg5 harg5 arg6 harg6 arg7 harg7 arg8 harg8 x2 x3 x4 xs0 xs1 xo R j h2).trans ?_
  unfold runC.sl.H5_18
  refine (View.read_writes_cons_rows_of_mem (o := 6400) arg6.view (harg6.unread xo) _ _ _ (ix2 R j) (ix2 (⟨R.val - 6400, by omega⟩ : Fin 400) j) rfl hR rfl).trans ?_
  refine (Pay.pay57_apply _ _ _ (⟨R.val - 6400, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load16 c i arg3 harg3 arg4 harg4 arg5 harg5 arg6 harg6 arg7 harg7 arg8 harg8 x2 x3 x4 xs0 xs1 xo R (⟨R.val - 6400, by omega⟩ : Fin 400) j hR)

theorem blk17 (R : Fin 10000) (j : Fin 128) (h1 : 6800 ≤ R.val) (h2 : R.val < 7200) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 6800 + (⟨R.val - 6800, by omega⟩ : Fin 400).val := by show R.val = 6800 + (R.val - 6800); omega
  refine (top19 c i arg3 harg3 arg4 harg4 arg5 harg5 arg6 harg6 arg7 harg7 arg8 harg8 x2 x3 x4 xs0 xs1 xo R j h2).trans ?_
  unfold runC.sl.H5_19
  refine (View.read_writes_cons_rows_of_mem (o := 6800) arg6.view (harg6.unread xo) _ _ _ (ix2 R j) (ix2 (⟨R.val - 6800, by omega⟩ : Fin 400) j) rfl hR rfl).trans ?_
  refine (Pay.pay58_apply _ _ _ (⟨R.val - 6800, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load17 c i arg3 harg3 arg4 harg4 arg5 harg5 arg6 harg6 arg7 harg7 arg8 harg8 x2 x3 x4 xs0 xs1 xo R (⟨R.val - 6800, by omega⟩ : Fin 400) j hR)

theorem blk18 (R : Fin 10000) (j : Fin 128) (h1 : 7200 ≤ R.val) (h2 : R.val < 7600) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 7200 + (⟨R.val - 7200, by omega⟩ : Fin 400).val := by show R.val = 7200 + (R.val - 7200); omega
  refine (top20 c i arg3 harg3 arg4 harg4 arg5 harg5 arg6 harg6 arg7 harg7 arg8 harg8 x2 x3 x4 xs0 xs1 xo R j h2).trans ?_
  unfold runC.sl.H5_20
  refine (View.read_writes_cons_rows_of_mem (o := 7200) arg6.view (harg6.unread xo) _ _ _ (ix2 R j) (ix2 (⟨R.val - 7200, by omega⟩ : Fin 400) j) rfl hR rfl).trans ?_
  refine (Pay.pay59_apply _ _ _ (⟨R.val - 7200, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load18 c i arg3 harg3 arg4 harg4 arg5 harg5 arg6 harg6 arg7 harg7 arg8 harg8 x2 x3 x4 xs0 xs1 xo R (⟨R.val - 7200, by omega⟩ : Fin 400) j hR)

theorem blk19 (R : Fin 10000) (j : Fin 128) (h1 : 7600 ≤ R.val) (h2 : R.val < 8000) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 7600 + (⟨R.val - 7600, by omega⟩ : Fin 400).val := by show R.val = 7600 + (R.val - 7600); omega
  refine (top21 c i arg3 harg3 arg4 harg4 arg5 harg5 arg6 harg6 arg7 harg7 arg8 harg8 x2 x3 x4 xs0 xs1 xo R j h2).trans ?_
  unfold runC.sl.H5_21
  refine (View.read_writes_cons_rows_of_mem (o := 7600) arg6.view (harg6.unread xo) _ _ _ (ix2 R j) (ix2 (⟨R.val - 7600, by omega⟩ : Fin 400) j) rfl hR rfl).trans ?_
  refine (Pay.pay60_apply _ _ _ (⟨R.val - 7600, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load19 c i arg3 harg3 arg4 harg4 arg5 harg5 arg6 harg6 arg7 harg7 arg8 harg8 x2 x3 x4 xs0 xs1 xo R (⟨R.val - 7600, by omega⟩ : Fin 400) j hR)

theorem blk20 (R : Fin 10000) (j : Fin 128) (h1 : 8000 ≤ R.val) (h2 : R.val < 8400) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 8000 + (⟨R.val - 8000, by omega⟩ : Fin 400).val := by show R.val = 8000 + (R.val - 8000); omega
  refine (top22 c i arg3 harg3 arg4 harg4 arg5 harg5 arg6 harg6 arg7 harg7 arg8 harg8 x2 x3 x4 xs0 xs1 xo R j h2).trans ?_
  unfold runC.sl.H5_22
  refine (View.read_writes_cons_rows_of_mem (o := 8000) arg6.view (harg6.unread xo) _ _ _ (ix2 R j) (ix2 (⟨R.val - 8000, by omega⟩ : Fin 400) j) rfl hR rfl).trans ?_
  refine (Pay.pay61_apply _ _ _ (⟨R.val - 8000, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load20 c i arg3 harg3 arg4 harg4 arg5 harg5 arg6 harg6 arg7 harg7 arg8 harg8 x2 x3 x4 xs0 xs1 xo R (⟨R.val - 8000, by omega⟩ : Fin 400) j hR)

theorem blk21 (R : Fin 10000) (j : Fin 128) (h1 : 8400 ≤ R.val) (h2 : R.val < 8800) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 8400 + (⟨R.val - 8400, by omega⟩ : Fin 400).val := by show R.val = 8400 + (R.val - 8400); omega
  refine (top23 c i arg3 harg3 arg4 harg4 arg5 harg5 arg6 harg6 arg7 harg7 arg8 harg8 x2 x3 x4 xs0 xs1 xo R j h2).trans ?_
  unfold runC.sl.H5_23
  refine (View.read_writes_cons_rows_of_mem (o := 8400) arg6.view (harg6.unread xo) _ _ _ (ix2 R j) (ix2 (⟨R.val - 8400, by omega⟩ : Fin 400) j) rfl hR rfl).trans ?_
  refine (Pay.pay5_apply _ _ _ (⟨R.val - 8400, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load21 c i arg3 harg3 arg4 harg4 arg5 harg5 arg6 harg6 arg7 harg7 arg8 harg8 x2 x3 x4 xs0 xs1 xo R (⟨R.val - 8400, by omega⟩ : Fin 400) j hR)

theorem blk22 (R : Fin 10000) (j : Fin 128) (h1 : 8800 ≤ R.val) (h2 : R.val < 9200) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 8800 + (⟨R.val - 8800, by omega⟩ : Fin 400).val := by show R.val = 8800 + (R.val - 8800); omega
  refine (top24 c i arg3 harg3 arg4 harg4 arg5 harg5 arg6 harg6 arg7 harg7 arg8 harg8 x2 x3 x4 xs0 xs1 xo R j h2).trans ?_
  unfold runC.sl.H5_24
  refine (View.read_writes_cons_rows_of_mem (o := 8800) arg6.view (harg6.unread xo) _ _ _ (ix2 R j) (ix2 (⟨R.val - 8800, by omega⟩ : Fin 400) j) rfl hR rfl).trans ?_
  refine (Pay.pay6_apply _ _ _ (⟨R.val - 8800, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load22 c i arg3 harg3 arg4 harg4 arg5 harg5 arg6 harg6 arg7 harg7 arg8 harg8 x2 x3 x4 xs0 xs1 xo R (⟨R.val - 8800, by omega⟩ : Fin 400) j hR)

theorem blk23 (R : Fin 10000) (j : Fin 128) (h1 : 9200 ≤ R.val) (h2 : R.val < 9600) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 9200 + (⟨R.val - 9200, by omega⟩ : Fin 400).val := by show R.val = 9200 + (R.val - 9200); omega
  refine (top25 c i arg3 harg3 arg4 harg4 arg5 harg5 arg6 harg6 arg7 harg7 arg8 harg8 x2 x3 x4 xs0 xs1 xo R j h2).trans ?_
  unfold runC.sl.H5_25
  refine (View.read_writes_cons_rows_of_mem (o := 9200) arg6.view (harg6.unread xo) _ _ _ (ix2 R j) (ix2 (⟨R.val - 9200, by omega⟩ : Fin 400) j) rfl hR rfl).trans ?_
  refine (Pay.pay7_apply _ _ _ (⟨R.val - 9200, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load23 c i arg3 harg3 arg4 harg4 arg5 harg5 arg6 harg6 arg7 harg7 arg8 harg8 x2 x3 x4 xs0 xs1 xo R (⟨R.val - 9200, by omega⟩ : Fin 400) j hR)

theorem blk24 (R : Fin 10000) (j : Fin 128) (h1 : 9600 ≤ R.val) (h2 : R.val < 10000) :
    rd arg6 harg6 xo (fullC c i arg3 harg3 arg4 harg4 arg5 harg5 arg6 harg6 arg7 harg7 arg8 harg8 x2 x3 x4 xs0 xs1 xo) (ix2 R j)
      = Ideal.tanh (rd arg6 harg6 xo (runC.sl.H5_1 c i arg5 harg5 arg7 harg7 x4 xs0) (ix2 R j) * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j)) := by
  have hR : R.val = 9600 + (⟨R.val - 9600, by omega⟩ : Fin 400).val := by show R.val = 9600 + (R.val - 9600); omega
  refine (View.read_writes_cons_rows_of_mem (o := 9600) arg6.view (harg6.unread xo) _ _ _ (ix2 R j) (ix2 (⟨R.val - 9600, by omega⟩ : Fin 400) j) rfl hR rfl).trans ?_
  refine (Pay.pay8_apply _ _ _ (⟨R.val - 9600, by omega⟩ : Fin 400) j).trans ?_
  exact congrArg (fun y : EReal => Ideal.tanh (y * runC.sl.r c arg3 harg3 arg5 harg5 arg7 harg7 arg8 harg8 x2 x4 xs0 xs1 (ix2 0 j) + runC.sl.r_1 c arg3 harg3 arg4 harg4 arg5 harg5 arg7 harg7 arg8 harg8 x2 x3 x4 xs0 xs1 (ix2 0 j))) (load24 c i arg3 harg3 arg4 harg4 arg5 harg5 arg6 harg6 arg7 harg7 arg8 harg8 x2 x3 x4 xs0 xs1 xo R (⟨R.val - 9600, by omega⟩ : Fin 400) j hR)

end SweepIdeal

end LastPoint

/-- Every entry after the last point: tanh of the affine image of what it held before the sweep. -/
theorem oC_apply (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (arg8 : Memref sig .tc .vmem S8x128 .f32) (harg8 : arg8.IsWhole) (hc0 : ¬cond0_0 i) (hc1 : cond0_1 i)
    (x0 : Vec Ideal S10000x128 .f32) (x1 : Vec Ideal S16x128 .f32) (x2 : Vec Ideal S1x128 .f32) (x3 : Vec Ideal S1x128 .f32) (x4 : Vec Ideal S400x10000 .f32)
    (xs0 : Vec Ideal S10000x128 .f32) (xs1 : Vec Ideal S8x128 .f32) (xo : Vec Ideal S10000x128 .f32)
    (o : ℕ) (ho : k0_off1 i = ![o, 0]) (ho' : o = 9600) (R : Fin 10000) (j : Fin 128) :
    oC (F := Ideal) c i arg1 harg1 arg2 harg2 arg3 harg3 arg4 harg4 arg5 harg5 arg6 harg6 arg7 harg7 arg8 harg8 hc0 hc1 x0 x1 x2 x3 x4 xs0 xs1 xo (ix2 R j)
      = Ideal.tanh (prevC (F := Ideal) c i arg1 harg1 arg2 harg2 arg3 harg3 arg4 harg4 arg5 harg5 arg6 harg6 arg7 harg7 arg8 harg8 hc0 hc1 x0 x1 x2 x3 x4 xs0 xs1 xo (ix2 R j)
          * Ognn.scaleOf (scC1 (F := Ideal) c i arg1 harg1 arg2 harg2 arg3 harg3 arg4 harg4 arg5 harg5 arg6 harg6 arg7 harg7 arg8 harg8 hc0 hc1 x0 x1 x2 x3 x4 xs0 xs1 (ix2 0 j)) (scC1 (F := Ideal) c i arg1 harg1 arg2 harg2 arg3 harg3 arg4 harg4 arg5 harg5 arg6 harg6 arg7 harg7 arg8 harg8 hc0 hc1 x0 x1 x2 x3 x4 xs0 xs1 (ix2 1 j)) (x2 (ix2 0 j))
          + Ognn.shiftOf (scC1 (F := Ideal) c i arg1 harg1 arg2 harg2 arg3 harg3 arg4 harg4 arg5 harg5 arg6 harg6 arg7 harg7 arg8 harg8 hc0 hc1 x0 x1 x2 x3 x4 xs0 xs1 (ix2 0 j)) (scC1 (F := Ideal) c i arg1 harg1 arg2 harg2 arg3 harg3 arg4 harg4 arg5 harg5 arg6 harg6 arg7 harg7 arg8 harg8 hc0 hc1 x0 x1 x2 x3 x4 xs0 xs1 (ix2 1 j)) (x2 (ix2 0 j)) (x3 (ix2 0 j))) := by
  have htail := LastPoint.tail_eq c i arg1 harg1 arg2 harg2 arg3 harg3 arg4 harg4 arg5 harg5 arg6 harg6 arg7 harg7 arg8 harg8 hc0 hc1 x0 x1 x2 x3 x4 xs0 xs1 xo R j
  have hlt := R.isLt
  rw [LastPoint.oC_eq c i arg1 harg1 arg2 harg2 arg3 harg3 arg4 harg4 arg5 harg5 arg6 harg6 arg7 harg7 arg8 harg8 hc0 hc1 x0 x1 x2 x3 x4 xs0 xs1 xo]
  by_cases h0 : R.val < 400
  · exact (LastPoint.blk0 c i arg3 harg3 arg4 harg4 arg5 harg5 arg6 harg6 arg7 harg7 arg8 harg8 x2 x3 x4 xs0 xs1 xo R j (by omega) h0).trans htail
  by_cases h1 : R.val < 800
  · exact (LastPoint.blk1 c i arg3 harg3 arg4 harg4 arg5 harg5 arg6 harg6 arg7 harg7 arg8 harg8 x2 x3 x4 xs0 xs1 xo R j (by omega) h1).trans htail
  by_cases h2 : R.val < 1200
  · exact (LastPoint.blk2 c i arg3 harg3 arg4 harg4 arg5 harg5 arg6 harg6 arg7 harg7 arg8 harg8 x2 x3 x4 xs0 xs1 xo R j (by omega) h2).trans htail
  by_cases h3 : R.val < 1600
  · exact (LastPoint.blk3 c i arg3 harg3 arg4 harg4 arg5 harg5 arg6 harg6 arg7 harg7 arg8 harg8 x2 x3 x4 xs0 xs1 xo R j (by omega) h3).trans htail
  by_cases h4 : R.val < 2000
  · exact (LastPoint.blk4 c i arg3 harg3 arg4 harg4 arg5 harg5 arg6 harg6 arg7 harg7 arg8 harg8 x2 x3 x4 xs0 xs1 xo R j (by omega) h4).trans htail
  by_cases h5 : R.val < 2400
  · exact (LastPoint.blk5 c i arg3 harg3 arg4 harg4 arg5 harg5 arg6 harg6 arg7 harg7 arg8 harg8 x2 x3 x4 xs0 xs1 xo R j (by omega) h5).trans htail
  by_cases h6 : R.val < 2800
  · exact (LastPoint.blk6 c i arg3 harg3 arg4 harg4 arg5 harg5 arg6 harg6 arg7 harg7 arg8 harg8 x2 x3 x4 xs0 xs1 xo R j (by omega) h6).trans htail
  by_cases h7 : R.val < 3200
  · exact (LastPoint.blk7 c i arg3 harg3 arg4 harg4 arg5 harg5 arg6 harg6 arg7 harg7 arg8 harg8 x2 x3 x4 xs0 xs1 xo R j (by omega) h7).trans htail
  by_cases h8 : R.val < 3600
  · exact (LastPoint.blk8 c i arg3 harg3 arg4 harg4 arg5 harg5 arg6 harg6 arg7 harg7 arg8 harg8 x2 x3 x4 xs0 xs1 xo R j (by omega) h8).trans htail
  by_cases h9 : R.val < 4000
  · exact (LastPoint.blk9 c i arg3 harg3 arg4 harg4 arg5 harg5 arg6 harg6 arg7 harg7 arg8 harg8 x2 x3 x4 xs0 xs1 xo R j (by omega) h9).trans htail
  by_cases h10 : R.val < 4400
  · exact (LastPoint.blk10 c i arg3 harg3 arg4 harg4 arg5 harg5 arg6 harg6 arg7 harg7 arg8 harg8 x2 x3 x4 xs0 xs1 xo R j (by omega) h10).trans htail
  by_cases h11 : R.val < 4800
  · exact (LastPoint.blk11 c i arg3 harg3 arg4 harg4 arg5 harg5 arg6 harg6 arg7 harg7 arg8 harg8 x2 x3 x4 xs0 xs1 xo R j (by omega) h11).trans htail
  by_cases h12 : R.val < 5200
  · exact (LastPoint.blk12 c i arg3 harg3 arg4 harg4 arg5 harg5 arg6 harg6 arg7 harg7 arg8 harg8 x2 x3 x4 xs0 xs1 xo R j (by omega) h12).trans htail
  by_cases h13 : R.val < 5600
  · exact (LastPoint.blk13 c i arg3 harg3 arg4 harg4 arg5 harg5 arg6 harg6 arg7 harg7 arg8 harg8 x2 x3 x4 xs0 xs1 xo R j (by omega) h13).trans htail
  by_cases h14 : R.val < 6000
  · exact (LastPoint.blk14 c i arg3 harg3 arg4 harg4 arg5 harg5 arg6 harg6 arg7 harg7 arg8 harg8 x2 x3 x4 xs0 xs1 xo R j (by omega) h14).trans htail
  by_cases h15 : R.val < 6400
  · exact (LastPoint.blk15 c i arg3 harg3 arg4 harg4 arg5 harg5 arg6 harg6 arg7 harg7 arg8 harg8 x2 x3 x4 xs0 xs1 xo R j (by omega) h15).trans htail
  by_cases h16 : R.val < 6800
  · exact (LastPoint.blk16 c i arg3 harg3 arg4 harg4 arg5 harg5 arg6 harg6 arg7 harg7 arg8 harg8 x2 x3 x4 xs0 xs1 xo R j (by omega) h16).trans htail
  by_cases h17 : R.val < 7200
  · exact (LastPoint.blk17 c i arg3 harg3 arg4 harg4 arg5 harg5 arg6 harg6 arg7 harg7 arg8 harg8 x2 x3 x4 xs0 xs1 xo R j (by omega) h17).trans htail
  by_cases h18 : R.val < 7600
  · exact (LastPoint.blk18 c i arg3 harg3 arg4 harg4 arg5 harg5 arg6 harg6 arg7 harg7 arg8 harg8 x2 x3 x4 xs0 xs1 xo R j (by omega) h18).trans htail
  by_cases h19 : R.val < 8000
  · exact (LastPoint.blk19 c i arg3 harg3 arg4 harg4 arg5 harg5 arg6 harg6 arg7 harg7 arg8 harg8 x2 x3 x4 xs0 xs1 xo R j (by omega) h19).trans htail
  by_cases h20 : R.val < 8400
  · exact (LastPoint.blk20 c i arg3 harg3 arg4 harg4 arg5 harg5 arg6 harg6 arg7 harg7 arg8 harg8 x2 x3 x4 xs0 xs1 xo R j (by omega) h20).trans htail
  by_cases h21 : R.val < 8800
  · exact (LastPoint.blk21 c i arg3 harg3 arg4 harg4 arg5 harg5 arg6 harg6 arg7 harg7 arg8 harg8 x2 x3 x4 xs0 xs1 xo R j (by omega) h21).trans htail
  by_cases h22 : R.val < 9200
  · exact (LastPoint.blk22 c i arg3 harg3 arg4 harg4 arg5 harg5 arg6 harg6 arg7 harg7 arg8 harg8 x2 x3 x4 xs0 xs1 xo R j (by omega) h22).trans htail
  by_cases h23 : R.val < 9600
  · exact (LastPoint.blk23 c i arg3 harg3 arg4 harg4 arg5 harg5 arg6 harg6 arg7 harg7 arg8 harg8 x2 x3 x4 xs0 xs1 xo R j (by omega) h23).trans htail
  exact (LastPoint.blk24 c i arg3 harg3 arg4 harg4 arg5 harg5 arg6 harg6 arg7 harg7 arg8 harg8 x2 x3 x4 xs0 xs1 xo R j (by omega) (by omega)).trans htail

end Cert.KernelIdeal.Hand

end
-- ==== Proof.KIBlocks.lean ====
/-
  The blocks the fused kernel's pipeline stages, read at an index of the program's arrays:
  the feature, weight, gamma and beta windows are their whole arrays at every point (gamma and
  beta through the host's reshape of a 128-vector to one row), and the adjacency window at point t
  is rows 400·t … 400·t + 399 of the adjacency matrix. The row offset the body computes for its
  block store at point t is 400·t.
-/
import proofs.«167329_g16630113370191_cont_week2b_735_26_alg».proof.Proof.KIData
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The one grid coordinate of point t is t. -/
theorem coords_val : ∀ t : Fin cfg0.N, ((grid0.coords t) 0).val = t.val :=
  (by decide +kernel : ∀ t : Fin grid0.N, ((grid0.coords t) 0).val = t.val)

/-- The block index of each input window at point t: the four whole-array windows sit at block (0, 0),
    the adjacency window at block (t, 0). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The body's row offset at point t. -/
theorem off_eq (t : Fin cfg0.N) : k0_off1 (grid0.coords t) = ![400 * t.val, 0] := by
  rw [k0_off1_eq, coords_val]

/-- A 128-vector recast to one row, read at (0, j), is the vector at j. -/
theorem row_cast_apply {α : Type} (v : S128.Idx → α) (j : Fin 128) :
    shapeCast S1x128 v shapeCasts_S128_S1x128 (ix2 0 j) = v (ix1 j) := by
  unfold shapeCast
  refine congrArg v (Shape.reshapeEquiv_eq_of_rowMajor _ ?_)
  rw [Shape.rowMajor_val_one, Shape.rowMajor_val_two]
  show j.val = 0 * 128 + j.val
  omega

theorem iblk0_apply (c : Dev nD) (t : Fin cfg0.N) (k : Fin 10000) (l : Fin 128) :
    iblk m c 0 t (ix2 k l) = m ((c.tc : Thread nD τ).loc main_arg0) (ix2 k l) := by
  rw [← V_main_arg0 m c]
  show V m c main_arg0 (((cfg0.win 0).blk t).view.emb (ix2 k l)) = V m c main_arg0 (ix2 k l)
  obtain ⟨e0, e1, -⟩ := idx_facts t
  refine congrArg _ ?_
  funext a; apply Fin.ext
  match a with
  | ⟨0, _⟩ => show win0_0.index t (0 : Fin 2) * 10000 + 1 * k.val = k.val; omega
  | ⟨1, _⟩ => show win0_0.index t (1 : Fin 2) * 128 + 1 * l.val = l.val; omega

theorem iblk1_apply (c : Dev nD) (t : Fin cfg0.N) (a : Fin 16) (l : Fin 128) :
    iblk m c 1 t (ix2 a l) = m ((c.tc : Thread nD τ).loc main_arg2) (ix2 a l) := by
  rw [← V_main_arg2 m c]
  show V m c main_arg2 (((cfg0.win 1).blk t).view.emb (ix2 a l)) = V m c main_arg2 (ix2 a l)
  obtain ⟨-, -, e0, e1, -⟩ := idx_facts t
  refine congrArg _ ?_
  funext b; apply Fin.ext
  match b with
  | ⟨0, _⟩ => show win0_1.index t (0 : Fin 2) * 16 + 1 * a.val = a.val; omega
  | ⟨1, _⟩ => show win0_1.index t (1 : Fin 2) * 128 + 1 * l.val = l.val; omega

theorem iblk2_apply (c : Dev nD) (t : Fin cfg0.N) (j : Fin 128) :
    iblk m c 2 t (ix2 0 j) = m ((c.tc : Thread nD τ).loc main_arg3) (ix1 j) := by
  have e : (V m c main_v0 : S1x128.Idx → Elt F .f32)
      = shapeCast S1x128 (m ((c.tc : Thread nD τ).loc main_arg3)) shapeCasts_S128_S1x128 := by
    dsimp only [Gen.V, Gen.hostOps0]; after_results; rfl
  obtain ⟨-, -, -, -, e0, e1, -⟩ := idx_facts t
  have hemb : ((cfg0.win 2).blk t).view.emb (ix2 0 j) = (ix2 0 j : S1x128.Idx) := by
    funext b; apply Fin.ext
    match b with
    | ⟨0, _⟩ => show win0_2.index t (0 : Fin 2) * 1 + 1 * 0 = 0; omega
    | ⟨1, _⟩ => show win0_2.index t (1 : Fin 2) * 128 + 1 * j.val = j.val; omega
  show V m c main_v0 (((cfg0.win 2).blk t).view.emb (ix2 0 j)) = _
  rw [hemb, e]
  exact row_cast_apply _ j

theorem iblk3_apply (c : Dev nD) (t : Fin cfg0.N) (j : Fin 128) :
    iblk m c 3 t (ix2 0 j) = m ((c.tc : Thread nD τ).loc main_arg4) (ix1 j) := by
  have e : (V m c main_v1 : S1x128.Idx → Elt F .f32)
      = shapeCast S1x128 (m ((c.tc : Thread nD τ).loc main_arg4)) shapeCasts_S128_S1x128 := by
    dsimp only [Gen.V, Gen.hostOps0]; after_results; rfl
  obtain ⟨-, -, -, -, -, -, e0, e1, -⟩ := idx_facts t
  have hemb : ((cfg0.win 3).blk t).view.emb (ix2 0 j) = (ix2 0 j : S1x128.Idx) := by
    funext b; apply Fin.ext
    match b with
    | ⟨0, _⟩ => show win0_3.index t (0 : Fin 2) * 1 + 1 * 0 = 0; omega
    | ⟨1, _⟩ => show win0_3.index t (1 : Fin 2) * 128 + 1 * j.val = j.val; omega
  show V m c main_v1 (((cfg0.win 3).blk t).view.emb (ix2 0 j)) = _
  rw [hemb, e]
  exact row_cast_apply _ j

theorem iblk4_apply (c : Dev nD) (t : Fin cfg0.N) (r : Fin 400) (k : Fin 10000) :
    iblk m c 4 t (ix2 r k) = m ((c.tc : Thread nD τ).loc main_arg1) (ix2 (⟨400 * t.val + r.val, by have := t.isLt; have := r.isLt; have e : cfg0.N = 25 := N25; omega⟩ : Fin 10000) k) := by
  rw [← V_main_arg1 m c]
  obtain ⟨-, -, -, -, -, -, -, -, e0, e1⟩ := idx_facts t
  show V m c main_arg1 (((cfg0.win 4).blk t).view.emb (ix2 r k)) = V m c main_arg1 _
  refine congrArg _ ?_
  funext b; apply Fin.ext
  match b with
  | ⟨0, _⟩ => show win0_4.index t (0 : Fin 2) * 400 + 1 * r.val = 400 * t.val + r.val; omega
  | ⟨1, _⟩ => show win0_4.index t (1 : Fin 2) * 10000 + 1 * k.val = k.val; omega

end Cert.KernelIdeal.Hand

end
-- ==== Proof.KIHam.lean ====
/-
  The Hamilton matrix as the kernel assembles it, and the feature transform.

  The 16 × 128 weight block is cut into eight 16 × 16 slices A₀ … A₇ (columns 16 i to 16 i + 15).
  The 128 × 128 matrix is made of 8 × 8 blocks, each one of the slices or the negation 0 − Aᵢ of
  one: eight columns of blocks, each the stack of eight blocks along the rows, are laid side by
  side along the columns. The transformed features are the product of the 10000 × 128 feature
  array with this matrix into a zero accumulator: at (k, j) the sum over l of x(k, l) · H(l, j).
  A stack read at an index is one of its pieces read at an index, so a matrix built of real-valued
  blocks is real-valued; a slice of a real-valued array is real-valued, and 0 − r is the real −r.
-/
import proofs.«167329_g16630113370191_cont_week2b_735_26_alg».proof.Proof.Gen.KernelIdeal.Skeleton
import proofs.«167329_g16630113370191_cont_week2b_735_26_alg».proof.Proof.Gen.KernelIdeal
import proofs.«167329_g16630113370191_cont_week2b_735_26_alg».proof.Proof.LibPlainDot
import Idealize.ShloMosaic.Lib.Pipeline.Value
import Idealize.ShloMosaic.PureOps.Ideal.Laws

noncomputable section

open scoped BigOperators

namespace Cert.KernelIdeal.Ham

open Cert.KernelIdeal Cert.KernelIdeal.Gen Idealize.ShloMosaic Idealize.ShloMosaic.ValueIdx

/-- An array of extended reals all of whose entries are reals. -/
def IsReal {s : Shape} (v : s.Idx → EReal) : Prop := ∀ i, ∃ r : ℝ, v i = (r : EReal)

/-- The 128 × 128 matrix: eight columns of eight 16 × 16 blocks. -/
def hamK (w : Vec Ideal S16x128 .f32) : FVec Ideal S128x128 .f32 :=
  concatenate S128x128 1 [
    ⟨S128x16, concatenate S128x16 0 [⟨S16x16, k0_pay9 w⟩, ⟨S16x16, k0_pay10 w⟩, ⟨S16x16, k0_pay11 w⟩, ⟨S16x16, k0_pay12 w⟩, ⟨S16x16, k0_pay13 w⟩, ⟨S16x16, k0_pay14 w⟩, ⟨S16x16, k0_pay15 w⟩, ⟨S16x16, k0_pay16 w⟩]
      concatenates_S16x16_S16x16_S16x16_S16x16_S16x16_S16x16_S16x16_S16x16_S128x16_d0⟩,
    ⟨S128x16, concatenate S128x16 0 [⟨S16x16, k0_pay10 w⟩, ⟨S16x16, k0_pay17 w⟩, ⟨S16x16, k0_pay12 w⟩, ⟨S16x16, k0_pay18 w⟩, ⟨S16x16, k0_pay14 w⟩, ⟨S16x16, k0_pay19 w⟩, ⟨S16x16, k0_pay20 w⟩, ⟨S16x16, k0_pay15 w⟩]
      concatenates_S16x16_S16x16_S16x16_S16x16_S16x16_S16x16_S16x16_S16x16_S128x16_d0⟩,
    ⟨S128x16, concatenate S128x16 0 [⟨S16x16, k0_pay11 w⟩, ⟨S16x16, k0_pay21 w⟩, ⟨S16x16, k0_pay22 w⟩, ⟨S16x16, k0_pay10 w⟩, ⟨S16x16, k0_pay15 w⟩, ⟨S16x16, k0_pay16 w⟩, ⟨S16x16, k0_pay23 w⟩, ⟨S16x16, k0_pay24 w⟩]
      concatenates_S16x16_S16x16_S16x16_S16x16_S16x16_S16x16_S16x16_S16x16_S128x16_d0⟩,
    ⟨S128x16, concatenate S128x16 0 [⟨S16x16, k0_pay12 w⟩, ⟨S16x16, k0_pay11 w⟩, ⟨S16x16, k0_pay25 w⟩, ⟨S16x16, k0_pay26 w⟩, ⟨S16x16, k0_pay16 w⟩, ⟨S16x16, k0_pay27 w⟩, ⟨S16x16, k0_pay14 w⟩, ⟨S16x16, k0_pay28 w⟩]
      concatenates_S16x16_S16x16_S16x16_S16x16_S16x16_S16x16_S16x16_S16x16_S128x16_d0⟩,
    ⟨S128x16, concatenate S128x16 0 [⟨S16x16, k0_pay13 w⟩, ⟨S16x16, k0_pay29 w⟩, ⟨S16x16, k0_pay30 w⟩, ⟨S16x16, k0_pay31 w⟩, ⟨S16x16, k0_pay32 w⟩, ⟨S16x16, k0_pay10 w⟩, ⟨S16x16, k0_pay11 w⟩, ⟨S16x16, k0_pay12 w⟩]
      concatenates_S16x16_S16x16_S16x16_S16x16_S16x16_S16x16_S16x16_S16x16_S128x16_d0⟩,
    ⟨S128x16, concatenate S128x16 0 [⟨S16x16, k0_pay14 w⟩, ⟨S16x16, k0_pay13 w⟩, ⟨S16x16, subf (F := Ideal) (broadcast S16x16 (Scalar.ofBits (F := Ideal) .f32 0x00000000#32)) (k0_pay16 w)⟩, ⟨S16x16, k0_pay15 w⟩, ⟨S16x16, subf (F := Ideal) (broadcast S16x16 (Scalar.ofBits (F := Ideal) .f32 0x00000000#32)) (k0_pay10 w)⟩, ⟨S16x16, subf (F := Ideal) (broadcast S16x16 (Scalar.ofBits (F := Ideal) .f32 0x00000000#32)) (k0_pay9 w)⟩, ⟨S16x16, subf (F := Ideal) (broadcast S16x16 (Scalar.ofBits (F := Ideal) .f32 0x00000000#32)) (k0_pay12 w)⟩, ⟨S16x16, k0_pay11 w⟩]
      concatenates_S16x16_S16x16_S16x16_S16x16_S16x16_S16x16_S16x16_S16x16_S128x16_d0⟩,
    ⟨S128x16, concatenate S128x16 0 [⟨S16x16, k0_pay15 w⟩, ⟨S16x16, k0_pay16 w⟩, ⟨S16x16, k0_pay13 w⟩, ⟨S16x16, subf (F := Ideal) (broadcast S16x16 (Scalar.ofBits (F := Ideal) .f32 0x00000000#32)) (k0_pay14 w)⟩, ⟨S16x16, subf (F := Ideal) (broadcast S16x16 (Scalar.ofBits (F := Ideal) .f32 0x00000000#32)) (k0_pay11 w)⟩, ⟨S16x16, k0_pay12 w⟩, ⟨S16x16, subf (F := Ideal) (broadcast S16x16 (Scalar.ofBits (F := Ideal) .f32 0x00000000#32)) (k0_pay9 w)⟩, ⟨S16x16, subf (F := Ideal) (broadcast S16x16 (Scalar.ofBits (F := Ideal) .f32 0x00000000#32)) (k0_pay10 w)⟩]
      concatenates_S16x16_S16x16_S16x16_S16x16_S16x16_S16x16_S16x16_S16x16_S128x16_d0⟩,
    ⟨S128x16, concatenate S128x16 0 [⟨S16x16, k0_pay16 w⟩, ⟨S16x16, subf (F := Ideal) (broadcast S16x16 (Scalar.ofBits (F := Ideal) .f32 0x00000000#32)) (k0_pay15 w)⟩, ⟨S16x16, k0_pay14 w⟩, ⟨S16x16, k0_pay13 w⟩, ⟨S16x16, subf (F := Ideal) (broadcast S16x16 (Scalar.ofBits (F := Ideal) .f32 0x00000000#32)) (k0_pay12 w)⟩, ⟨S16x16, subf (F := Ideal) (broadcast S16x16 (Scalar.ofBits (F := Ideal) .f32 0x00000000#32)) (k0_pay11 w)⟩, ⟨S16x16, k0_pay10 w⟩, ⟨S16x16, subf (F := Ideal) (broadcast S16x16 (Scalar.ofBits (F := Ideal) .f32 0x00000000#32)) (k0_pay9 w)⟩]
      concatenates_S16x16_S16x16_S16x16_S16x16_S16x16_S16x16_S16x16_S16x16_S128x16_d0⟩]
    concatenates_S128x16_S128x16_S128x16_S128x16_S128x16_S128x16_S128x16_S128x16_S128x128_d1

/-! ### The product -/

/-- The transformed features at (k, j): the sum over l of x(k, l) · H(l, j). -/
theorem pay33_apply (w : Vec Ideal S16x128 .f32) (x : Vec Ideal S10000x128 .f32) (k : Fin 10000) (j : Fin 128) :
    k0_pay33 (F := Ideal) (k0_pay9 w) (k0_pay10 w) (k0_pay11 w) (k0_pay12 w) (k0_pay13 w) (k0_pay14 w) (k0_pay15 w) (k0_pay16 w) (k0_pay17 w) (k0_pay18 w) (k0_pay19 w) (k0_pay20 w) (k0_pay21 w) (k0_pay22 w) (k0_pay23 w) (k0_pay24 w) (k0_pay25 w) (k0_pay26 w) (k0_pay27 w) (k0_pay28 w) (k0_pay29 w) (k0_pay30 w) (k0_pay31 w) (k0_pay32 w)
      (Scalar.ofBits .f32 0x00000000#32) x (ix2 k j) = ∑ l : Fin 128, x (ix2 k l) * hamK w (ix2 l j) := by
  have hd : dot_S10000x128_S128x128_S10000x128_1_0_0_1_n_n = DotDims.plain 10000 128 128 := rfl
  have e : k0_pay33 (F := Ideal) (k0_pay9 w) (k0_pay10 w) (k0_pay11 w) (k0_pay12 w) (k0_pay13 w) (k0_pay14 w) (k0_pay15 w) (k0_pay16 w) (k0_pay17 w) (k0_pay18 w) (k0_pay19 w) (k0_pay20 w) (k0_pay21 w) (k0_pay22 w) (k0_pay23 w) (k0_pay24 w) (k0_pay25 w) (k0_pay26 w) (k0_pay27 w) (k0_pay28 w) (k0_pay29 w) (k0_pay30 w) (k0_pay31 w) (k0_pay32 w)
      (Scalar.ofBits .f32 0x00000000#32) x
      = shapeCast S10000x128 (FloatOps.matmul dot_S10000x128_S128x128_S10000x128_1_0_0_1_n_n none x (hamK w)
          (constant S10000x128 .f32 0x00000000#32)) shapeCasts_S10000x128_S10000x128 := rfl
  rw [e, shapeCast_self, hd, PlainDot.matmul_zero_apply]

/-! ### Real-valuedness -/

/-- A stack of real-valued pieces is real-valued: read at an index it is one of its pieces at an index. -/
theorem concat_real {t : Shape} (a : Fin t.rank) (xs : List ((s : Shape) × (s.Idx → EReal)))
    (h : Shape.Concatenates (xs.map (·.1)) t a) (hx : ∀ p ∈ xs, IsReal p.2) :
    IsReal (concatenate t a xs h) := by
  intro j
  unfold concatenate
  exact hx _ (List.getElem_mem _) _

/-- 0 − a is real-valued when a is: 0 − r = −r. -/
theorem neg_real {a : FVec Ideal S16x16 .f32} (ha : IsReal a) :
    IsReal (subf (F := Ideal) (broadcast S16x16 (Scalar.ofBits (F := Ideal) .f32 0x00000000#32)) a) := by
  intro i
  obtain ⟨r, hr⟩ := ha i
  refine ⟨-r, ?_⟩
  show Ideal.ofBits .f32 0x00000000#32 - a i = _
  rw [Ideal.ofBits_zero_f32, hr, zero_sub, EReal.coe_neg]

/-- Eight real-valued 16 × 16 blocks stacked along the rows. -/
theorem col_real {p1 p2 p3 p4 p5 p6 p7 p8 : FVec Ideal S16x16 .f32}
    (h1 : IsReal p1) (h2 : IsReal p2) (h3 : IsReal p3) (h4 : IsReal p4) (h5 : IsReal p5) (h6 : IsReal p6) (h7 : IsReal p7) (h8 : IsReal p8) :
    IsReal (concatenate S128x16 0 [⟨S16x16, p1⟩, ⟨S16x16, p2⟩, ⟨S16x16, p3⟩, ⟨S16x16, p4⟩, ⟨S16x16, p5⟩, ⟨S16x16, p6⟩, ⟨S16x16, p7⟩, ⟨S16x16, p8⟩]
      concatenates_S16x16_S16x16_S16x16_S16x16_S16x16_S16x16_S16x16_S16x16_S128x16_d0) := by
  apply concat_real
  intro p hp
  simp only [List.mem_cons, List.not_mem_nil, or_false] at hp
  rcases hp with rfl | rfl | rfl | rfl | rfl | rfl | rfl | rfl <;> assumption

/-- Eight real-valued 128 × 16 columns laid side by side. -/
theorem mat_real {p1 p2 p3 p4 p5 p6 p7 p8 : FVec Ideal S128x16 .f32}
    (h1 : IsReal p1) (h2 : IsReal p2) (h3 : IsReal p3) (h4 : IsReal p4) (h5 : IsReal p5) (h6 : IsReal p6) (h7 : IsReal p7) (h8 : IsReal p8) :
    IsReal (concatenate S128x128 1 [⟨S128x16, p1⟩, ⟨S128x16, p2⟩, ⟨S128x16, p3⟩, ⟨S128x16, p4⟩, ⟨S128x16, p5⟩, ⟨S128x16, p6⟩, ⟨S128x16, p7⟩, ⟨S128x16, p8⟩]
      concatenates_S128x16_S128x16_S128x16_S128x16_S128x16_S128x16_S128x16_S128x16_S128x128_d1) := by
  apply concat_real
  intro p hp
  simp only [List.mem_cons, List.not_mem_nil, or_false] at hp
  rcases hp with rfl | rfl | rfl | rfl | rfl | rfl | rfl | rfl <;> assumption

section Blocks

variable (w : Vec Ideal S16x128 .f32) (hw : ∀ i, ∃ v : ℝ, w i = (v : EReal))

include hw

/-! The eight slices of a real-valued weight block, and the sixteen negated slices. -/
theorem pay9_real : IsReal (k0_pay9 (F := Ideal) w) := fun _ => hw _
theorem pay10_real : IsReal (k0_pay10 (F := Ideal) w) := fun _ => hw _
theorem pay11_real : IsReal (k0_pay11 (F := Ideal) w) := fun _ => hw _
theorem pay12_real : IsReal (k0_pay12 (F := Ideal) w) := fun _ => hw _
theorem pay13_real : IsReal (k0_pay13 (F := Ideal) w) := fun _ => hw _
theorem pay14_real : IsReal (k0_pay14 (F := Ideal) w) := fun _ => hw _
theorem pay15_real : IsReal (k0_pay15 (F := Ideal) w) := fun _ => hw _
theorem pay16_real : IsReal (k0_pay16 (F := Ideal) w) := fun _ => hw _
theorem pay17_real : IsReal (k0_pay17 (F := Ideal) w) := neg_real (pay9_real w hw)
theorem pay18_real : IsReal (k0_pay18 (F := Ideal) w) := neg_real (pay11_real w hw)
theorem pay19_real : IsReal (k0_pay19 (F := Ideal) w) := neg_real (pay13_real w hw)
theorem pay20_real : IsReal (k0_pay20 (F := Ideal) w) := neg_real (pay16_real w hw)
theorem pay21_real : IsReal (k0_pay21 (F := Ideal) w) := neg_real (pay12_real w hw)
theorem pay22_real : IsReal (k0_pay22 (F := Ideal) w) := neg_real (pay9_real w hw)
theorem pay23_real : IsReal (k0_pay23 (F := Ideal) w) := neg_real (pay13_real w hw)
theorem pay24_real : IsReal (k0_pay24 (F := Ideal) w) := neg_real (pay14_real w hw)
theorem pay25_real : IsReal (k0_pay25 (F := Ideal) w) := neg_real (pay10_real w hw)
theorem pay26_real : IsReal (k0_pay26 (F := Ideal) w) := neg_real (pay9_real w hw)
theorem pay27_real : IsReal (k0_pay27 (F := Ideal) w) := neg_real (pay15_real w hw)
theorem pay28_real : IsReal (k0_pay28 (F := Ideal) w) := neg_real (pay13_real w hw)
theorem pay29_real : IsReal (k0_pay29 (F := Ideal) w) := neg_real (pay14_real w hw)
theorem pay30_real : IsReal (k0_pay30 (F := Ideal) w) := neg_real (pay15_real w hw)
theorem pay31_real : IsReal (k0_pay31 (F := Ideal) w) := neg_real (pay16_real w hw)
theorem pay32_real : IsReal (k0_pay32 (F := Ideal) w) := neg_real (pay9_real w hw)

end Blocks

/-- The matrix of a real-valued weight block is real-valued. -/
theorem hamK_real (w : Vec Ideal S16x128 .f32) (hw : ∀ i, ∃ v : ℝ, w i = (v : EReal)) :
    ∀ i, ∃ v : ℝ, hamK w i = (v : EReal) :=
  mat_real
    (col_real (pay9_real w hw) (pay10_real w hw) (pay11_real w hw) (pay12_real w hw) (pay13_real w hw) (pay14_real w hw) (pay15_real w hw) (pay16_real w hw))
    (col_real (pay10_real w hw) (pay17_real w hw) (pay12_real w hw) (pay18_real w hw) (pay14_real w hw) (pay19_real w hw) (pay20_real w hw) (pay15_real w hw))
    (col_real (pay11_real w hw) (pay21_real w hw) (pay22_real w hw) (pay10_real w hw) (pay15_real w hw) (pay16_real w hw) (pay23_real w hw) (pay24_real w hw))
    (col_real (pay12_real w hw) (pay11_real w hw) (pay25_real w hw) (pay26_real w hw) (pay16_real w hw) (pay27_real w hw) (pay14_real w hw) (pay28_real w hw))
    (col_real (pay13_real w hw) (pay29_real w hw) (pay30_real w hw) (pay31_real w hw) (pay32_real w hw) (pay10_real w hw) (pay11_real w hw) (pay12_real w hw))
    (col_real (pay14_real w hw) (pay13_real w hw) (neg_real (pay16_real w hw)) (pay15_real w hw) (neg_real (pay10_real w hw)) (neg_real (pay9_real w hw)) (neg_real (pay12_real w hw)) (pay11_real w hw))
    (col_real (pay15_real w hw) (pay16_real w hw) (pay13_real w hw) (neg_real (pay14_real w hw)) (neg_real (pay11_real w hw)) (pay12_real w hw) (neg_real (pay9_real w hw)) (neg_real (pay10_real w hw)))
    (col_real (pay16_real w hw) (neg_real (pay15_real w hw)) (pay14_real w hw) (pay13_real w hw) (neg_real (pay12_real w hw)) (neg_real (pay11_real w hw)) (pay10_real w hw) (neg_real (pay9_real w hw)))

end Cert.KernelIdeal.Ham

end
-- ==== Proof.PrefixSums.lean ====
/-
  Regrouping a sum over 10000 rows into 25 consecutive blocks of 400.

  The sum of f over the first n rows is a sum over the naturals below n; adding the block of
  rows 400 t, …, 400 t + 399 to the sum over the first 400 t rows gives the sum over the first
  400 (t + 1) rows, and the sum over the first 10000 rows is the whole sum. Only the commutative
  monoid structure of the extended reals is used. Every row number splits uniquely as
  400 t + r with t < 25 and r < 400 (quotient and remainder by 400).
-/
import Mathlib.Algebra.BigOperators.Fin
import Mathlib.Data.EReal.Basic

noncomputable section

open scoped BigOperators

namespace Ognn

/-- the sum of f over the first n rows -/
def pre (f : Fin 10000 → EReal) (n : ℕ) : EReal :=
  ∑ R ∈ Finset.range n, (if h : R < 10000 then f ⟨R, h⟩ else 0)

/-- The sum over no rows is 0. -/
theorem pre_zero (f : Fin 10000 → EReal) : pre f 0 = 0 := by
  unfold pre
  rw [Finset.range_zero, Finset.sum_empty]

/-- The sum over the first 400 t rows plus the sum over block t is the sum over the first 400 (t + 1) rows. -/
theorem pre_step (f : Fin 10000 → EReal) (t : ℕ) (ht : t < 25) :
    pre f (400 * t) + ∑ r : Fin 400, f ⟨400 * t + r.val, by have := r.isLt; omega⟩
      = pre f (400 * (t + 1)) := by
  have hb : ∑ r : Fin 400, f ⟨400 * t + r.val, by have := r.isLt; omega⟩
      = ∑ x ∈ Finset.range 400, (if h : 400 * t + x < 10000 then f ⟨400 * t + x, h⟩ else 0) := by
    rw [Finset.sum_range]
    exact Finset.sum_congr rfl (fun r _ => by rw [dif_pos (by have := r.isLt; omega)])
  unfold pre
  rw [hb, Nat.mul_succ, Finset.sum_range_add]

/-- The sum over the first 10000 rows is the sum over all rows. -/
theorem pre_full (f : Fin 10000 → EReal) : pre f 10000 = ∑ R : Fin 10000, f R := by
  unfold pre
  rw [Finset.sum_range]
  exact Finset.sum_congr rfl (fun R _ => by rw [dif_pos R.isLt])

/-- Every row number is 400 t + r with t < 25 and r < 400. -/
theorem row_split (R : Fin 10000) : ∃ (t : Fin 25) (r : Fin 400), R.val = 400 * t.val + r.val :=
  ⟨⟨R.val / 400, by have := R.isLt; omega⟩, ⟨R.val % 400, Nat.mod_lt _ (by norm_num)⟩,
    (Nat.div_add_mod R.val 400).symm⟩

end Ognn

end
-- ==== Proof.KIValue1.lean ====
/-
  The value of the fused kernel's result, at the extended reals.

  With SUP = x · H (the feature transform, H the Hamilton matrix assembled from the weights) and
  Y = adj · SUP, the statistics after point t hold the column sums and the column sums of squares
  of the first 400·(t+1) rows of Y, the first 400·(t+1) rows of the output's staging buffer hold
  Y, and after the last point every entry holds tanh(Y · scale + shift) with scale and shift formed
  from the complete column sums: the folded form of the batch normalisation.
-/
import proofs.«167329_g16630113370191_cont_week2b_735_26_alg».proof.Proof.KIOut
import proofs.«167329_g16630113370191_cont_week2b_735_26_alg».proof.Proof.KIPiecesC
import proofs.«167329_g16630113370191_cont_week2b_735_26_alg».proof.Proof.KIBlocks
import proofs.«167329_g16630113370191_cont_week2b_735_26_alg».proof.Proof.KIHam
import proofs.«167329_g16630113370191_cont_week2b_735_26_alg».proof.Proof.PrefixSums
import proofs.«167329_g16630113370191_cont_week2b_735_26_alg».proof.Proof.Spec2

set_option maxRecDepth 16384

noncomputable section

namespace Cert.KernelIdeal.Hand

open Cert.KernelIdeal Cert.KernelIdeal.Gen Idealize.ShloMosaic.ValueIdx Cert.KernelIdeal.Pay Cert.KernelIdeal.Ham
open Idealize.ShloMosaic Idealize.ShloMosaic.TcCoe
open Idealize.SL.Sem
open scoped BigOperators

/-! ## Steps over any buffers -/

/-- Row 0 of the statistics read through its row rectangle. -/
theorem ld_row0 (xs1 : Vec Ideal S8x128 .f32) (j : Fin 128) :
    View.ld xs1 (Rect.unit (s := S8x128) ![0, 0] S1x128.size inb_S8x128_S1x128_0_0) (ix2 0 j) = xs1 (ix2 0 j) :=
  congrArg xs1 (funext fun a => Fin.ext (by
    match a with
    | ⟨0, _⟩ => rfl
    | ⟨1, _⟩ => show 0 + 1 * j.val = j.val; omega))

/-- Row 1 of the statistics read through its row rectangle. -/
theorem ld_row1 (xs1 : Vec Ideal S8x128 .f32) (j : Fin 128) :
    View.ld xs1 (Rect.unit (s := S8x128) ![1, 0] S1x128.size inb_S8x128_S1x128_1_0) (ix2 0 j) = xs1 (ix2 1 j) :=
  congrArg xs1 (funext fun a => Fin.ext (by
    match a with
    | ⟨0, _⟩ => rfl
    | ⟨1, _⟩ => show 0 + 1 * j.val = j.val; omega))

/-- The stored feature transform is x · H when the staged blocks are the arrays. -/
theorem sup_val (x0 : Vec Ideal S10000x128 .f32) (x1 : Vec Ideal S16x128 .f32) (X : Ognn.Arr 10000 128) (W : Vec Ideal S16x128 .f32)
    (hx : ∀ k l, x0 (ix2 k l) = X (ix2 k l)) (hw : x1 = W) (k : Fin 10000) (j : Fin 128) :
    k0_pay33 (F := Ideal) (k0_pay9 x1) (k0_pay10 x1) (k0_pay11 x1) (k0_pay12 x1) (k0_pay13 x1) (k0_pay14 x1) (k0_pay15 x1) (k0_pay16 x1) (k0_pay17 x1) (k0_pay18 x1) (k0_pay19 x1) (k0_pay20 x1) (k0_pay21 x1) (k0_pay22 x1) (k0_pay23 x1) (k0_pay24 x1) (k0_pay25 x1) (k0_pay26 x1) (k0_pay27 x1) (k0_pay28 x1) (k0_pay29 x1) (k0_pay30 x1) (k0_pay31 x1) (k0_pay32 x1) (Scalar.ofBits .f32 0x00000000#32) x0 (ix2 k j)
      = Ognn.sup X (hamK W) k j := by
  subst hw
  rw [pay33_apply]
  unfold Ognn.sup
  exact Finset.sum_congr rfl fun l _ => by rw [hx]

/-- A row block of the product is the rows o … o + 399 of adj · S. -/
theorem blockY_val (x4 : Vec Ideal S400x10000 .f32) (xs0 : Vec Ideal S10000x128 .f32) (adj : Ognn.Arr 10000 10000)
    (S : Fin 10000 → Fin 128 → EReal) (o : ℕ) (ho : o + 400 ≤ 10000)
    (hx : ∀ (r : Fin 400) (k : Fin 10000), x4 (ix2 r k) = adj (ix2 (⟨o + r.val, by have := r.isLt; omega⟩ : Fin 10000) k))
    (hs : ∀ k j, xs0 (ix2 k j) = S k j) (r : Fin 400) (j : Fin 128) :
    k0_pay2 (F := Ideal) x4 xs0 (ix2 r j) = Ognn.agg adj S ⟨o + r.val, by have := r.isLt; omega⟩ j := by
  rw [pay2_apply]
  unfold Ognn.agg
  exact Finset.sum_congr rfl fun k _ => by rw [hx, hs]

/-- The running column sum after one more row block. -/
theorem stat_step (x4 : Vec Ideal S400x10000 .f32) (xs0 : Vec Ideal S10000x128 .f32) (xs1 : Vec Ideal S8x128 .f32)
    (adj : Ognn.Arr 10000 10000) (S : Fin 10000 → Fin 128 → EReal) (t : ℕ) (ht : t < 25)
    (hx : ∀ (r : Fin 400) (k : Fin 10000), x4 (ix2 r k) = adj (ix2 (⟨400 * t + r.val, by have := r.isLt; omega⟩ : Fin 10000) k))
    (hs : ∀ k j, xs0 (ix2 k j) = S k j) (j : Fin 128)
    (h0 : xs1 (ix2 0 j) = Ognn.pre (fun R => Ognn.agg adj S R j) (400 * t)) :
    k0_pay3 (F := Ideal) x4 xs0 (View.ld xs1 (Rect.unit (s := S8x128) ![0, 0] S1x128.size inb_S8x128_S1x128_0_0)) (ix2 0 j)
      = Ognn.pre (fun R => Ognn.agg adj S R j) (400 * (t + 1)) := by
  rw [pay3_apply, ld_row0, h0, ← Ognn.pre_step (fun R => Ognn.agg adj S R j) t ht]
  congr 1
  exact Finset.sum_congr rfl fun r _ => blockY_val x4 xs0 adj S (400 * t) (by omega) hx hs r j

/-- The running column sum of squares after one more row block. -/
theorem stat_step_sq (x4 : Vec Ideal S400x10000 .f32) (xs0 : Vec Ideal S10000x128 .f32) (xs1 : Vec Ideal S8x128 .f32)
    (adj : Ognn.Arr 10000 10000) (S : Fin 10000 → Fin 128 → EReal) (t : ℕ) (ht : t < 25)
    (hx : ∀ (r : Fin 400) (k : Fin 10000), x4 (ix2 r k) = adj (ix2 (⟨400 * t + r.val, by have := r.isLt; omega⟩ : Fin 10000) k))
    (hs : ∀ k j, xs0 (ix2 k j) = S k j) (j : Fin 128)
    (h0 : xs1 (ix2 1 j) = Ognn.pre (fun R => Ognn.agg adj S R j * Ognn.agg adj S R j) (400 * t)) :
    k0_pay4 (F := Ideal) x4 xs0 (View.ld xs1 (Rect.unit (s := S8x128) ![1, 0] S1x128.size inb_S8x128_S1x128_1_0)) (ix2 0 j)
      = Ognn.pre (fun R => Ognn.agg adj S R j * Ognn.agg adj S R j) (400 * (t + 1)) := by
  rw [pay4_apply, ld_row1, h0, ← Ognn.pre_step (fun R => Ognn.agg adj S R j * Ognn.agg adj S R j) t ht]
  congr 1
  exact Finset.sum_congr rfl fun r _ => by rw [blockY_val x4 xs0 adj S (400 * t) (by omega) hx hs r j]

end Cert.KernelIdeal.Hand

end
-- ==== Proof.KIValue2.lean ====
/-
  The induction over the grid's points: the transformed features, the running column statistics
  and the rows of the output's staging buffer after each point, and the closed form of the result.
-/
import proofs.«167329_g16630113370191_cont_week2b_735_26_alg».proof.Proof.KIValue1

set_option maxRecDepth 16384

noncomputable section

namespace Cert.KernelIdeal.Hand

open Cert.KernelIdeal Cert.KernelIdeal.Gen Idealize.ShloMosaic.ValueIdx Cert.KernelIdeal.Pay Cert.KernelIdeal.Ham
open Idealize.ShloMosaic Idealize.ShloMosaic.TcCoe
open Idealize.SL.Sem
open scoped BigOperators

variable (m : (ℓ : Loc nD τ sig) → Buf (Elt Ideal) ℓ)

/-- The arrays the program is launched with, as arrays of extended reals. -/
abbrev xA (c : Dev nD) : Ognn.Arr 10000 128 := m ((c.tc : Thread nD τ).loc main_arg0)
abbrev adjA (c : Dev nD) : Ognn.Arr 10000 10000 := m ((c.tc : Thread nD τ).loc main_arg1)
abbrev wA (c : Dev nD) : Vec Ideal S16x128 .f32 := m ((c.tc : Thread nD τ).loc main_arg2)
abbrev gA (c : Dev nD) (j : Fin 128) : EReal := m ((c.tc : Thread nD τ).loc main_arg3) (ix1 j)
abbrev bA (c : Dev nD) (j : Fin 128) : EReal := m ((c.tc : Thread nD τ).loc main_arg4) (ix1 j)

/-- The staged blocks at point t, at their literal shapes. -/
abbrev b0 (c : Dev nD) (t : Fin cfg0.N) : Vec Ideal S10000x128 .f32 := iblk m c 0 t
abbrev b1 (c : Dev nD) (t : Fin cfg0.N) : Vec Ideal S16x128 .f32 := iblk m c 1 t
abbrev b2 (c : Dev nD) (t : Fin cfg0.N) : Vec Ideal S1x128 .f32 := iblk m c 2 t
abbrev b3 (c : Dev nD) (t : Fin cfg0.N) : Vec Ideal S1x128 .f32 := iblk m c 3 t
abbrev b4 (c : Dev nD) (t : Fin cfg0.N) : Vec Ideal S400x10000 .f32 := iblk m c 4 t

/-- The feature transform and the aggregated product. -/
def SUP (c : Dev nD) (k : Fin 10000) (j : Fin 128) : EReal := Ognn.sup (xA m c) (hamK (wA m c)) k j
def YY (c : Dev nD) (R : Fin 10000) (j : Fin 128) : EReal := Ognn.agg (adjA m c) (SUP m c) R j

theorem hb0 (c : Dev nD) (t : Fin cfg0.N) (k : Fin 10000) (l : Fin 128) : b0 m c t (ix2 k l) = xA m c (ix2 k l) :=
  iblk0_apply m c t k l

/-- The weight block is the weight array. -/
theorem hb1 (c : Dev nD) (t : Fin cfg0.N) : b1 m c t = wA m c := by
  funext i
  rw [eq_ix2 i]
  exact iblk1_apply m c t (i 0) (i 1)

theorem hb2 (c : Dev nD) (t : Fin cfg0.N) (j : Fin 128) : b2 m c t (ix2 0 j) = gA m c j := iblk2_apply m c t j
theorem hb3 (c : Dev nD) (t : Fin cfg0.N) (j : Fin 128) : b3 m c t (ix2 0 j) = bA m c j := iblk3_apply m c t j

/-- The adjacency block at point t is rows 400·t … of the adjacency matrix. -/
theorem hb4 (c : Dev nD) (t : Fin cfg0.N) (r : Fin 400) (k : Fin 10000) :
    b4 m c t (ix2 r k)
      = adjA m c (ix2 (⟨400 * t.val + r.val, by have := t.isLt; have := r.isLt; have e : cfg0.N = 25 := N25; omega⟩ : Fin 10000) k) :=
  iblk4_apply m c t r k

/-- The first scratch buffer after the first point is the feature transform. -/
theorem scA0_val (c : Dev nD) (t : Fin cfg0.N) (h0 : t.val % 25 = 0) (h1 : ¬t.val % 25 = 24) (k : Fin 10000) (j : Fin 128) :
    scA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (b0 m c t) (b1 m c t) (b2 m c t) (b3 m c t) (b4 m c t) (ix2 k j) = SUP m c k j := by
  rw [scA0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (b0 m c t) (b1 m c t) (b2 m c t) (b3 m c t) (b4 m c t)]
  exact sup_val (b0 m c t) (b1 m c t) (xA m c) (wA m c) (hb0 m c t) (hb1 m c t) k j

/-- What the scratch buffers hold after point t: the transformed features; the column sums and the column sums of
    squares of the first 400·(t+1) rows of the product. -/
def Inv (c : Dev nD) (t : ℕ) (ht : t < cfg0.N) : Prop :=
  (∀ k j, (scAt m c t ht).1 (ix2 k j) = SUP m c k j)
  ∧ (∀ j, (scAt m c t ht).2 (ix2 0 j) = Ognn.pre (fun R => YY m c R j) (400 * (t + 1)))
  ∧ (∀ j, (scAt m c t ht).2 (ix2 1 j) = Ognn.pre (fun R => YY m c R j * YY m c R j) (400 * (t + 1)))

theorem inv_zero (c : Dev nD) (ht : 0 < cfg0.N) : Inv m c 0 ht := by
  have h0 : (⟨0, ht⟩ : Fin cfg0.N).val % 25 = 0 := Nat.zero_mod 25
  have h1 : ¬ (⟨0, ht⟩ : Fin cfg0.N).val % 25 = 24 := by show ¬ (0 % 25 = 24); omega
  have e : scAt m c 0 ht = (scA0 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩), scA1 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩)) :=
    scAt_A m c ⟨0, ht⟩ h0 h1
  unfold Inv
  rw [e]
  dsimp only
  refine ⟨fun k j => scA0_val m c ⟨0, ht⟩ h0 h1 k j, fun j => ?_, fun j => ?_⟩
  · rw [scA1_row0 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩) j]
    exact stat_step (b4 m c ⟨0, ht⟩) (scA0 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩)) (k0_pay1 (F := Ideal) k0_pay34) (adjA m c) (SUP m c) 0 (by omega)
      (fun r k => hb4 m c ⟨0, ht⟩ r k) (scA0_val m c ⟨0, ht⟩ h0 h1) j
      (by rw [pay1_apply]; exact (Ognn.pre_zero _).symm)
  · rw [scA1_row1 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩) j]
    exact stat_step_sq (b4 m c ⟨0, ht⟩) (scA0 c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩)) (k0_pay1 (F := Ideal) k0_pay34) (adjA m c) (SUP m c) 0 (by omega)
      (fun r k => hb4 m c ⟨0, ht⟩ r k) (scA0_val m c ⟨0, ht⟩ h0 h1) j
      (by rw [pay1_apply]; exact (Ognn.pre_zero _).symm)

theorem inv_succ (c : Dev nD) (t : ℕ) (ht : t + 1 < cfg0.N) (ih : Inv m c t (Nat.lt_of_succ_lt ht)) : Inv m c (t + 1) ht := by
  obtain ⟨i1, i2, i3⟩ := ih
  have hN : t + 1 < 25 := lt_of_lt_of_eq ht N25
  have h0 : ¬ (⟨t + 1, ht⟩ : Fin cfg0.N).val % 25 = 0 := not_first t ht
  unfold Inv
  by_cases h1 : (⟨t + 1, ht⟩ : Fin cfg0.N).val % 25 = 24
  · have e : scAt m c (t + 1) ht = ((scAt m c t (Nat.lt_of_succ_lt ht)).1,
        scC1 c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) ((hcond0_1 ⟨t + 1, ht⟩).mpr h1) (b0 m c ⟨t + 1, ht⟩) (b1 m c ⟨t + 1, ht⟩) (b2 m c ⟨t + 1, ht⟩) (b3 m c ⟨t + 1, ht⟩) (b4 m c ⟨t + 1, ht⟩) (scAt m c t (Nat.lt_of_succ_lt ht)).1 (scAt m c t (Nat.lt_of_succ_lt ht)).2) :=
      scAt_C m c ⟨t + 1, ht⟩ h0 h1
    rw [e]
    dsimp only
    refine ⟨i1, fun j => ?_, fun j => ?_⟩
    · rw [scC1_row0 c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) ((hcond0_1 ⟨t + 1, ht⟩).mpr h1) (b0 m c ⟨t + 1, ht⟩) (b1 m c ⟨t + 1, ht⟩) (b2 m c ⟨t + 1, ht⟩) (b3 m c ⟨t + 1, ht⟩) (b4 m c ⟨t + 1, ht⟩) (scAt m c t (Nat.lt_of_succ_lt ht)).1 (scAt m c t (Nat.lt_of_succ_lt ht)).2 j]
      exact stat_step (b4 m c ⟨t + 1, ht⟩) (scAt m c t (Nat.lt_of_succ_lt ht)).1 (scAt m c t (Nat.lt_of_succ_lt ht)).2 (adjA m c) (SUP m c) (t + 1) hN
        (fun r k => hb4 m c ⟨t + 1, ht⟩ r k) i1 j (i2 j)
    · rw [scC1_row1 c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) ((hcond0_1 ⟨t + 1, ht⟩).mpr h1) (b0 m c ⟨t + 1, ht⟩) (b1 m c ⟨t + 1, ht⟩) (b2 m c ⟨t + 1, ht⟩) (b3 m c ⟨t + 1, ht⟩) (b4 m c ⟨t + 1, ht⟩) (scAt m c t (Nat.lt_of_succ_lt ht)).1 (scAt m c t (Nat.lt_of_succ_lt ht)).2 j]
      exact stat_step_sq (b4 m c ⟨t + 1, ht⟩) (scAt m c t (Nat.lt_of_succ_lt ht)).1 (scAt m c t (Nat.lt_of_succ_lt ht)).2 (adjA m c) (SUP m c) (t + 1) hN
        (fun r k => hb4 m c ⟨t + 1, ht⟩ r k) i1 j (i3 j)
  · have e : scAt m c (t + 1) ht = ((scAt m c t (Nat.lt_of_succ_lt ht)).1,
        scB1 c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) (fun h => h1 ((hcond0_1 ⟨t + 1, ht⟩).mp h)) (b0 m c ⟨t + 1, ht⟩) (b1 m c ⟨t + 1, ht⟩) (b2 m c ⟨t + 1, ht⟩) (b3 m c ⟨t + 1, ht⟩) (b4 m c ⟨t + 1, ht⟩) (scAt m c t (Nat.lt_of_succ_lt ht)).1 (scAt m c t (Nat.lt_of_succ_lt ht)).2) :=
      scAt_B m c ⟨t + 1, ht⟩ h0 h1
    rw [e]
    dsimp only
    refine ⟨i1, fun j => ?_, fun j => ?_⟩
    · rw [scB1_row0 c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) (fun h => h1 ((hcond0_1 ⟨t + 1, ht⟩).mp h)) (b0 m c ⟨t + 1, ht⟩) (b1 m c ⟨t + 1, ht⟩) (b2 m c ⟨t + 1, ht⟩) (b3 m c ⟨t + 1, ht⟩) (b4 m c ⟨t + 1, ht⟩) (scAt m c t (Nat.lt_of_succ_lt ht)).1 (scAt m c t (Nat.lt_of_succ_lt ht)).2 j]
      exact stat_step (b4 m c ⟨t + 1, ht⟩) (scAt m c t (Nat.lt_of_succ_lt ht)).1 (scAt m c t (Nat.lt_of_succ_lt ht)).2 (adjA m c) (SUP m c) (t + 1) hN
        (fun r k => hb4 m c ⟨t + 1, ht⟩ r k) i1 j (i2 j)
    · rw [scB1_row1 c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) (fun h => h1 ((hcond0_1 ⟨t + 1, ht⟩).mp h)) (b0 m c ⟨t + 1, ht⟩) (b1 m c ⟨t + 1, ht⟩) (b2 m c ⟨t + 1, ht⟩) (b3 m c ⟨t + 1, ht⟩) (b4 m c ⟨t + 1, ht⟩) (scAt m c t (Nat.lt_of_succ_lt ht)).1 (scAt m c t (Nat.lt_of_succ_lt ht)).2 j]
      exact stat_step_sq (b4 m c ⟨t + 1, ht⟩) (scAt m c t (Nat.lt_of_succ_lt ht)).1 (scAt m c t (Nat.lt_of_succ_lt ht)).2 (adjA m c) (SUP m c) (t + 1) hN
        (fun r k => hb4 m c ⟨t + 1, ht⟩ r k) i1 j (i3 j)

theorem inv_all (c : Dev nD) : ∀ (t : ℕ) (ht : t < cfg0.N), Inv m c t ht
  | 0, ht => inv_zero m c ht
  | t + 1, ht => inv_succ m c t ht (inv_all c t (Nat.lt_of_succ_lt ht))

end Cert.KernelIdeal.Hand

end
-- ==== Proof.KIOutApply.lean ====
/-
  The write-back of the output's staging buffer after the last point, read at an index: the
  output window's block is the whole array, so the array then holds the buffer's contents.
-/
import proofs.«167329_g16630113370191_cont_week2b_735_26_alg».proof.Proof.KIOut
import Idealize.ShloMosaic.Lib.ValueIdx

set_option maxRecDepth 16384

noncomputable section

namespace Cert.KernelIdeal.Hand

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output window sits at block (0, 0) at every point. -/
theorem idx5_facts : ∀ t : Fin cfg0.N, win0_5.index t (0 : Fin 2) = 0 ∧ win0_5.index t (1 : Fin 2) = 0 :=
  (by decide +kernel : ∀ t : Fin grid0.N, _)

theorem write_last_apply (c : Dev nD) (G₀ : Buf (Elt F) ((cfg0.win 5).arr.view.loc (c.tc : Thread nD τ))) (X : Vec F S10000x128 .f32)
    (R : Fin 10000) (j : Fin 128) :
    (((cfg0.win 5).blk tLast).view.write (Elt F) G₀ ((cfg0.win 5).cut (cfg0.grid.coords tLast) X) Finset.univ) (ix2 R j)
      = X (ix2 R j) := by
  obtain ⟨e0, e1⟩ := idx5_facts tLast
  have hemb : ((cfg0.win 5).blk tLast).view.emb (ix2 R j) = (ix2 R j : S10000x128.Idx) := by
    funext b; apply Fin.ext
    match b with
    | ⟨0, _⟩ => show win0_5.index tLast (0 : Fin 2) * 10000 + 1 * R.val = R.val; omega
    | ⟨1, _⟩ => show win0_5.index tLast (1 : Fin 2) * 128 + 1 * j.val = j.val; omega
  have h := View.write_emb_of_mem (v := ((cfg0.win 5).blk tLast).view) (Val := Elt F) G₀
    ((cfg0.win 5).cut (cfg0.grid.coords tLast) X) (M := Finset.univ) (x := ix2 R j) (Finset.mem_univ _)
  rw [hemb] at h
  exact h

end Cert.KernelIdeal.Hand

end
-- ==== Proof.KIValue3.lean ====
/-
  The rows of the output's staging buffer after each point, and the closed form of the result:
  after point t < 24 the first 400·(t+1) rows hold the product Y; after the last point every entry
  holds tanh(Y · scale + shift), the folded batch normalisation of Y.
-/
import proofs.«167329_g16630113370191_cont_week2b_735_26_alg».proof.Proof.KIValue2
import proofs.«167329_g16630113370191_cont_week2b_735_26_alg».proof.Proof.KIOutApply

set_option maxRecDepth 16384

noncomputable section

namespace Cert.KernelIdeal.Hand

open Cert.KernelIdeal Cert.KernelIdeal.Gen Idealize.ShloMosaic.ValueIdx Cert.KernelIdeal.Pay Cert.KernelIdeal.Ham
open Idealize.ShloMosaic Idealize.ShloMosaic.TcCoe
open Idealize.SL.Sem
open scoped BigOperators

variable (m : (ℓ : Loc nD τ sig) → Buf (Elt Ideal) ℓ)

/-- A row of the current block of the product, whatever buffer holds the transformed features. -/
theorem blockY_at (c : Dev nD) (t : Fin cfg0.N) (xs0 : Vec Ideal S10000x128 .f32) (hs : ∀ k j, xs0 (ix2 k j) = SUP m c k j)
    (R : Fin 10000) (r : Fin 400) (j : Fin 128) (hR : R.val = 400 * t.val + r.val) :
    k0_pay2 (F := Ideal) (b4 m c t) xs0 (ix2 r j) = YY m c R j := by
  have hN : t.val < 25 := lt_of_lt_of_eq t.isLt N25
  rw [blockY_val (b4 m c t) xs0 (adjA m c) (SUP m c) (400 * t.val) (by omega) (fun r k => hb4 m c t r k) hs r j]
  unfold YY
  exact congrArg (fun R' => Ognn.agg (adjA m c) (SUP m c) R' j) (Fin.ext hR.symm)

/-- After point t < 24 the first 400·(t+1) rows of the output's staging buffer hold the product. -/
theorem out_inv (c : Dev nD) (Y0 : Vec Ideal S10000x128 .f32) : ∀ (t : ℕ) (ht : t < cfg0.N), t < 24 →
    ∀ (R : Fin 10000) (j : Fin 128), R.val < 400 * (t + 1) → outAfter m c Y0 t ht (ix2 R j) = YY m c R j
  | 0, ht, _, R, j, hR => by
    have h0 : (⟨0, ht⟩ : Fin cfg0.N).val % 25 = 0 := Nat.zero_mod 25
    have h1 : ¬ (⟨0, ht⟩ : Fin cfg0.N).val % 25 = 24 := by show ¬ (0 % 25 = 24); omega
    show outStep m c ⟨0, ht⟩ Y0 (ix2 R j) = _
    rw [outStep_A m c ⟨0, ht⟩ h0 h1 Y0]
    rw [oA_in c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) scM0_1 (Memref.isWhole_whole _) ((hcond0_0 ⟨0, ht⟩).mpr h0) (fun h => h1 ((hcond0_1 ⟨0, ht⟩).mp h)) (b0 m c ⟨0, ht⟩) (b1 m c ⟨0, ht⟩) (b2 m c ⟨0, ht⟩) (b3 m c ⟨0, ht⟩) (b4 m c ⟨0, ht⟩) Y0 (400 * (⟨0, ht⟩ : Fin cfg0.N).val) (off_eq ⟨0, ht⟩) R ⟨R.val, by omega⟩ j
      (by show R.val = 400 * 0 + R.val; omega)]
    exact blockY_at m c ⟨0, ht⟩ _ (scA0_val m c ⟨0, ht⟩ h0 h1) R ⟨R.val, by omega⟩ j (by show R.val = 400 * 0 + R.val; omega)
  | t + 1, ht, h24, R, j, hR => by
    have h0 : ¬ (⟨t + 1, ht⟩ : Fin cfg0.N).val % 25 = 0 := not_first t ht
    have h1 : ¬ (⟨t + 1, ht⟩ : Fin cfg0.N).val % 25 = 24 := by show ¬ ((t + 1) % 25 = 24); omega
    have hI := (inv_all m c t (Nat.lt_of_succ_lt ht)).1
    show outStep m c ⟨t + 1, ht⟩ (outAfter m c Y0 t (Nat.lt_of_succ_lt ht)) (ix2 R j) = _
    rw [outStep_B m c ⟨t + 1, ht⟩ h0 h1 _]
    by_cases hlt : R.val < 400 * (t + 1)
    · exact (oB_out c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) (fun h => h1 ((hcond0_1 ⟨t + 1, ht⟩).mp h)) (b0 m c ⟨t + 1, ht⟩) (b1 m c ⟨t + 1, ht⟩) (b2 m c ⟨t + 1, ht⟩) (b3 m c ⟨t + 1, ht⟩) (b4 m c ⟨t + 1, ht⟩) _ _ _
        (400 * (⟨t + 1, ht⟩ : Fin cfg0.N).val) (off_eq ⟨t + 1, ht⟩) R j (Or.inl hlt)).trans
        (out_inv c Y0 t (Nat.lt_of_succ_lt ht) (by omega) R j hlt)
    · exact (oB_in c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _) scM0_1 (Memref.isWhole_whole _) (fun h => h0 ((hcond0_0 ⟨t + 1, ht⟩).mp h)) (fun h => h1 ((hcond0_1 ⟨t + 1, ht⟩).mp h)) (b0 m c ⟨t + 1, ht⟩) (b1 m c ⟨t + 1, ht⟩) (b2 m c ⟨t + 1, ht⟩) (b3 m c ⟨t + 1, ht⟩) (b4 m c ⟨t + 1, ht⟩) _ _ _
        (400 * (⟨t + 1, ht⟩ : Fin cfg0.N).val) (off_eq ⟨t + 1, ht⟩) R ⟨R.val - 400 * (t + 1), by omega⟩ j
        (by show R.val = 400 * (t + 1) + (R.val - 400 * (t + 1)); omega)).trans
        (blockY_at m c ⟨t + 1, ht⟩ _ hI R ⟨R.val - 400 * (t + 1), by omega⟩ j
          (by show R.val = 400 * (t + 1) + (R.val - 400 * (t + 1)); omega))

/-- The last point over any buffers: if the first scratch buffer holds the transformed features, the updated
    statistics rows are the complete column sums and sums of squares, and the rows below 9600 of the output buffer
    hold the product, then every entry ends at the folded normalisation of the product. -/
theorem last_aux (c : Dev nD) (h0 : ¬ (tLast : Fin cfg0.N).val % 25 = 0) (h1 : (tLast : Fin cfg0.N).val % 25 = 24)
    (xs0 : Vec Ideal S10000x128 .f32) (xs1 : Vec Ideal S8x128 .f32) (xo : Vec Ideal S10000x128 .f32)
    (hs0 : ∀ k j, xs0 (ix2 k j) = SUP m c k j)
    (hr0 : ∀ j, scC1 (F := Ideal) c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 (ix2 0 j) = Ognn.colSum (YY m c) j)
    (hr1 : ∀ j, scC1 (F := Ideal) c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 (ix2 1 j) = Ognn.colSumSq (YY m c) j)
    (hxo : ∀ (R : Fin 10000) (j : Fin 128), R.val < 9600 → xo (ix2 R j) = YY m c R j) (R : Fin 10000) (j : Fin 128) :
    oC (F := Ideal) c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 xo (ix2 R j) = Ognn.outK (YY m c) (gA m c) (bA m c) R j := by
  have hp : prevC (F := Ideal) c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 xo (ix2 R j) = YY m c R j := by
    by_cases hlt : R.val < 9600
    · rw [prevC_out c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 xo
        (400 * (tLast : Fin cfg0.N).val) (off_eq tLast) R j (Or.inl hlt)]
      exact hxo R j hlt
    · rw [prevC_in c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 xo
        (400 * (tLast : Fin cfg0.N).val) (off_eq tLast) R ⟨R.val - 9600, by have := R.isLt; omega⟩ j
        (by show R.val = 400 * 24 + (R.val - 9600); omega)]
      exact blockY_at m c tLast xs0 hs0 R ⟨R.val - 9600, by have := R.isLt; omega⟩ j (by show R.val = 400 * 24 + (R.val - 9600); omega)
  rw [oC_apply c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) xs0 xs1 xo (400 * (tLast : Fin cfg0.N).val) (off_eq tLast) rfl R j,
    hp, hr0 j, hr1 j, hb2 m c tLast j, hb3 m c tLast j, Ognn.outK_eq]

/-- After the last point every entry of the output's staging buffer holds the folded normalisation of the product. -/
theorem out_last (c : Dev nD) (Y0 : Vec Ideal S10000x128 .f32) (R : Fin 10000) (j : Fin 128) :
    outAfter m c Y0 24 tLast.isLt (ix2 R j) = Ognn.outK (YY m c) (gA m c) (bA m c) R j := by
  have ht : 23 + 1 < cfg0.N := tLast.isLt
  have h0 : ¬ (tLast : Fin cfg0.N).val % 25 = 0 := by show ¬ (24 % 25 = 0); omega
  have h1 : (tLast : Fin cfg0.N).val % 25 = 24 := rfl
  obtain ⟨i1, i2, i3⟩ := inv_all m c 23 (Nat.lt_of_succ_lt ht)
  have hI := inv_succ m c 23 ht ⟨i1, i2, i3⟩
  unfold Inv at hI
  have e : scAt m c (23 + 1) ht = ((scAt m c 23 (Nat.lt_of_succ_lt ht)).1,
      scC1 c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) scM0_0 (Memref.isWhole_whole _) scM0_1 (Memref.isWhole_whole _) (fun h => h0 ((hcond0_0 tLast).mp h)) ((hcond0_1 tLast).mpr h1) (b0 m c tLast) (b1 m c tLast) (b2 m c tLast) (b3 m c tLast) (b4 m c tLast) (scAt m c 23 (Nat.lt_of_succ_lt ht)).1 (scAt m c 23 (Nat.lt_of_succ_lt ht)).2) :=
    scAt_C m c tLast h0 h1
  rw [e] at hI
  dsimp only at hI
  obtain ⟨-, j2, j3⟩ := hI
  show outStep m c tLast (outAfter m c Y0 23 (Nat.lt_of_succ_lt ht)) (ix2 R j) = _
  rw [outStep_C m c tLast h0 h1 _]
  exact last_aux m c h0 h1 _ _ _ i1
    (fun j => (j2 j).trans (by rw [show 400 * (23 + 1 + 1) = 10000 from rfl, Ognn.pre_full]; rfl))
    (fun j => (j3 j).trans (by rw [show 400 * (23 + 1 + 1) = 10000 from rfl, Ognn.pre_full]; rfl))
    (fun R j hlt => out_inv m c Y0 23 (Nat.lt_of_succ_lt ht) (by omega) R j hlt) R j

/-- The program's result at the extended reals: the output array ends at the folded normalisation of the product,
    the arguments unchanged. -/
theorem run_value (ρ : Dev nD → PrngReg) :
    θ_run defs (onTc (τ := τ) (main (F := Ideal))) ⟨m, fun _ => 0, ρ⟩ (fun r => ∀ c : Dev nD,
      (∀ (R : Fin 10000) (j : Fin 128), r.2.mem ((c.tc : Thread nD τ).loc main_v2) (ix2 R j) = Ognn.outK (YY m c) (gA m c) (bA m c) R j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    refine ⟨fun R j => ?_, (Pipeline.RDat.FramePost.arr_in h c 0 rfl).trans ((A_eq m c 0).trans (V_main_arg0 m c)),
      (Pipeline.RDat.FramePost.arr_in h c 4 rfl).trans ((A_eq m c 4).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩
    obtain ⟨Y0, hY0⟩ := arrAt5 m c _ ((h c).1 5)
    have e : r.2.mem ((c.tc : Thread nD τ).loc main_v2) (ix2 R j)
        = (((cfg0.win 5).blk tLast).view.write (Elt Ideal) ((rdat m c).A 5)
            ((cfg0.win 5).cut (cfg0.grid.coords tLast) (outAfter m c Y0 24 tLast.isLt)) Finset.univ) (ix2 R j) :=
      congrFun hY0 (ix2 R j)
    rw [e, write_last_apply c _ (outAfter m c Y0 24 tLast.isLt) R j]
    exact out_last m c Y0 R j) (run_main m ρ)

end Cert.KernelIdeal.Hand

end
-- ==== Proof.RefRun.lean ====
/-
  The reference program as a straight line of array operations, the term it composes, and its run.

  The program is ninety-two array operations in order: eight 16-column slices of the weight array and
  twenty-eight negations of them, eight row-wise concatenations of eight blocks each and one column-wise
  concatenation of those (the Hamilton matrix), two matrix products, the column mean, the variance
  routine in line at its call (column sums, centring, squares, the divisor, the guarded selection),
  and the normalisation, scale, shift and hyperbolic tangent.

  The line is cut after the Hamilton matrix: what a buffer holds after the whole line is what it holds
  after the second stretch started from the contents the first stretch leaves.
-/
import proofs.«167329_g16630113370191_cont_week2b_735_26_alg».proof.Proof.Gen.ReferenceIdeal
import Idealize.ShloMosaic.Lib.StableHlo.Run
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The first forty-five operations: the eight slices, the twenty-eight negations, the nine concatenations. -/
abbrev opsH : List (HloOp τ sig (Elt F)) :=
  [
    StableHlo.unary main_arg2 main_v0 ((extractStridedSlice S16x16 ![0, 0] · slices_S16x128_S16x16_0_0) : (⟨S16x128, .f32⟩ : BufTy).Contents (Elt F) → (⟨S16x16, .f32⟩ : BufTy).Contents (Elt F)),
    StableHlo.unary main_arg2 main_v1 ((extractStridedSlice S16x16 ![0, 16] · slices_S16x128_S16x16_0_16) : (⟨S16x128, .f32⟩ : BufTy).Contents (Elt F) → (⟨S16x16, .f32⟩ : BufTy).Contents (Elt F)),
    StableHlo.unary main_arg2 main_v2 ((extractStridedSlice S16x16 ![0, 32] · slices_S16x128_S16x16_0_32) : (⟨S16x128, .f32⟩ : BufTy).Contents (Elt F) → (⟨S16x16, .f32⟩ : BufTy).Contents (Elt F)),
    StableHlo.unary main_arg2 main_v3 ((extractStridedSlice S16x16 ![0, 48] · slices_S16x128_S16x16_0_48) : (⟨S16x128, .f32⟩ : BufTy).Contents (Elt F) → (⟨S16x16, .f32⟩ : BufTy).Contents (Elt F)),
    StableHlo.unary main_arg2 main_v4 ((extractStridedSlice S16x16 ![0, 64] · slices_S16x128_S16x16_0_64) : (⟨S16x128, .f32⟩ : BufTy).Contents (Elt F) → (⟨S16x16, .f32⟩ : BufTy).Contents (Elt F)),
    StableHlo.unary main_arg2 main_v5 ((extractStridedSlice S16x16 ![0, 80] · slices_S16x128_S16x16_0_80) : (⟨S16x128, .f32⟩ : BufTy).Contents (Elt F) → (⟨S16x16, .f32⟩ : BufTy).Contents (Elt F)),
    StableHlo.unary main_arg2 main_v6 ((extractStridedSlice S16x16 ![0, 96] · slices_S16x128_S16x16_0_96) : (⟨S16x128, .f32⟩ : BufTy).Contents (Elt F) → (⟨S16x16, .f32⟩ : BufTy).Contents (Elt F)),
    StableHlo.unary main_arg2 main_v7 ((extractStridedSlice S16x16 ![0, 112] · slices_S16x128_S16x16_0_112) : (⟨S16x128, .f32⟩ : BufTy).Contents (Elt F) → (⟨S16x16, .f32⟩ : BufTy).Contents (Elt F)),
    StableHlo.unary main_v0 main_v8 (Host.negf : (⟨S16x16, .f32⟩ : BufTy).Contents (Elt F) → (⟨S16x16, .f32⟩ : BufTy).Contents (Elt F)),
    StableHlo.unary main_v2 main_v9 (Host.negf : (⟨S16x16, .f32⟩ : BufTy).Contents (Elt F) → (⟨S16x16, .f32⟩ : BufTy).Contents (Elt F)),
    StableHlo.unary main_v4 main_v10 (Host.negf : (⟨S16x16, .f32⟩ : BufTy).Contents (Elt F) → (⟨S16x16, .f32⟩ : BufTy).Contents (Elt F)),
    StableHlo.unary main_v7 main_v11 (Host.negf : (⟨S16x16, .f32⟩ : BufTy).Contents (Elt F) → (⟨S16x16, .f32⟩ : BufTy).Contents (Elt F)),
    StableHlo.unary main_v3 main_v12 (Host.negf : (⟨S16x16, .f32⟩ : BufTy).Contents (Elt F) → (⟨S16x16, .f32⟩ : BufTy).Contents (Elt F)),
    StableHlo.unary main_v0 main_v13 (Host.negf : (⟨S16x16, .f32⟩ : BufTy).Contents (Elt F) → (⟨S16x16, .f32⟩ : BufTy).Contents (Elt F)),
    StableHlo.unary main_v4 main_v14 (Host.negf : (⟨S16x16, .f32⟩ : BufTy).Contents (Elt F) → (⟨S16x16, .f32⟩ : BufTy).Contents (Elt F)),
    StableHlo.unary main_v5 main_v15 (Host.negf : (⟨S16x16, .f32⟩ : BufTy).Contents (Elt F) → (⟨S16x16, .f32⟩ : BufTy).Contents (Elt F)),
    StableHlo.unary main_v1 main_v16 (Host.negf : (⟨S16x16, .f32⟩ : BufTy).Contents (Elt F) → (⟨S16x16, .f32⟩ : BufTy).Contents (Elt F)),
    StableHlo.unary main_v0 main_v17 (Host.negf : (⟨S16x16, .f32⟩ : BufTy).Contents (Elt F) → (⟨S16x16, .f32⟩ : BufTy).Contents (Elt F)),
    StableHlo.unary main_v6 main_v18 (Host.negf : (⟨S16x16, .f32⟩ : BufTy).Contents (Elt F) → (⟨S16x16, .f32⟩ : BufTy).Contents (Elt F)),
    StableHlo.unary main_v4 main_v19 (Host.negf : (⟨S16x16, .f32⟩ : BufTy).Contents (Elt F) → (⟨S16x16, .f32⟩ : BufTy).Contents (Elt F)),
    StableHlo.unary main_v5 main_v20 (Host.negf : (⟨S16x16, .f32⟩ : BufTy).Contents (Elt F) → (⟨S16x16, .f32⟩ : BufTy).Contents (Elt F)),
    StableHlo.unary main_v6 main_v21 (Host.negf : (⟨S16x16, .f32⟩ : BufTy).Contents (Elt F) → (⟨S16x16, .f32⟩ : BufTy).Contents (Elt F)),
    StableHlo.unary main_v7 main_v22 (Host.negf : (⟨S16x16, .f32⟩ : BufTy).Contents (Elt F) → (⟨S16x16, .f32⟩ : BufTy).Contents (Elt F)),
    StableHlo.unary main_v0 main_v23 (Host.negf : (⟨S16x16, .f32⟩ : BufTy).Contents (Elt F) → (⟨S16x16, .f32⟩ : BufTy).Contents (Elt F)),
    StableHlo.unary main_v7 main_v24 (Host.negf : (⟨S16x16, .f32⟩ : BufTy).Contents (Elt F) → (⟨S16x16, .f32⟩ : BufTy).Contents (Elt F)),
    StableHlo.unary main_v1 main_v25 (Host.negf : (⟨S16x16, .f32⟩ : BufTy).Contents (Elt F) → (⟨S16x16, .f32⟩ : BufTy).Contents (Elt F)),
    StableHlo.unary main_v0 main_v26 (Host.negf : (⟨S16x16, .f32⟩ : BufTy).Contents (Elt F) → (⟨S16x16, .f32⟩ : BufTy).Contents (Elt F)),
    StableHlo.unary main_v3 main_v27 (Host.negf : (⟨S16x16, .f32⟩ : BufTy).Contents (Elt F) → (⟨S16x16, .f32⟩ : BufTy).Contents (Elt F)),
    StableHlo.unary main_v5 main_v28 (Host.negf : (⟨S16x16, .f32⟩ : BufTy).Contents (Elt F) → (⟨S16x16, .f32⟩ : BufTy).Contents (Elt F)),
    StableHlo.unary main_v2 main_v29 (Host.negf : (⟨S16x16, .f32⟩ : BufTy).Contents (Elt F) → (⟨S16x16, .f32⟩ : BufTy).Contents (Elt F)),
    StableHlo.unary main_v0 main_v30 (Host.negf : (⟨S16x16, .f32⟩ : BufTy).Contents (Elt F) → (⟨S16x16, .f32⟩ : BufTy).Contents (Elt F)),
    StableHlo.unary main_v1 main_v31 (Host.negf : (⟨S16x16, .f32⟩ : BufTy).Contents (Elt F) → (⟨S16x16, .f32⟩ : BufTy).Contents (Elt F)),
    StableHlo.unary main_v6 main_v32 (Host.negf : (⟨S16x16, .f32⟩ : BufTy).Contents (Elt F) → (⟨S16x16, .f32⟩ : BufTy).Contents (Elt F)),
    StableHlo.unary main_v3 main_v33 (Host.negf : (⟨S16x16, .f32⟩ : BufTy).Contents (Elt F) → (⟨S16x16, .f32⟩ : BufTy).Contents (Elt F)),
    StableHlo.unary main_v2 main_v34 (Host.negf : (⟨S16x16, .f32⟩ : BufTy).Contents (Elt F) → (⟨S16x16, .f32⟩ : BufTy).Contents (Elt F)),
    StableHlo.unary main_v0 main_v35 (Host.negf : (⟨S16x16, .f32⟩ : BufTy).Contents (Elt F) → (⟨S16x16, .f32⟩ : BufTy).Contents (Elt F)),
    StableHlo.nary ![main_v0, main_v1, main_v2, main_v3, main_v4, main_v5, main_v6, main_v7] main_v36 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v1, main_v8, main_v3, main_v9, main_v5, main_v10, main_v11, main_v6] main_v37 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v2, main_v12, main_v13, main_v1, main_v6, main_v7, main_v14, main_v15] main_v38 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v3, main_v2, main_v16, main_v17, main_v7, main_v18, main_v5, main_v19] main_v39 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v4, main_v20, main_v21, main_v22, main_v23, main_v1, main_v2, main_v3] main_v40 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v5, main_v4, main_v24, main_v6, main_v25, main_v26, main_v27, main_v2] main_v41 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v6, main_v7, main_v4, main_v28, main_v29, main_v3, main_v30, main_v31] main_v42 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v7, main_v32, main_v5, main_v4, main_v33, main_v34, main_v1, main_v35] main_v43 (fun u => concatenate S128x16 0 [⟨S16x16, u 0⟩, ⟨S16x16, u 1⟩, ⟨S16x16, u 2⟩, ⟨S16x16, u 3⟩, ⟨S16x16, u 4⟩, ⟨S16x16, u 5⟩, ⟨S16x16, u 6⟩, ⟨S16x16, u 7⟩] concatenates_S16x16_S16x16_S16x16_S16x16_S16x16_S16x16_S16x16_S16x16_S128x16_d0),
    StableHlo.nary ![main_v36, main_v37, main_v38, main_v39, main_v40, main_v41, main_v42, main_v43] main_v44 (fun u => concatenate S128x128 1 [⟨S128x16, u 0⟩, ⟨S128x16, u 1⟩, ⟨S128x16, u 2⟩, ⟨S128x16, u 3⟩, ⟨S128x16, u 4⟩, ⟨S128x16, u 5⟩, ⟨S128x16, u 6⟩, ⟨S128x16, u 7⟩] concatenates_S128x16_S128x16_S128x16_S128x16_S128x16_S128x16_S128x16_S128x16_S128x128_d1) ]

/-- The remaining forty-seven operations: the two matrix products, the column mean, the variance routine
    (nineteen operations and the three of the guarded selection), and the normalisation. -/
abbrev opsT : List (HloOp τ sig (Elt F)) :=
  [
    StableHlo.binary main_arg0 main_v44 main_v45 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg1 main_v45 main_v46 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.nullary main_cst (constant S_ .f32 0x00000000#32),
    StableHlo.binary main_v46 main_cst main_v47 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_0 (constant S_ .f32 0x461C4000#32),
    StableHlo.unary main_cst_0 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_v46) main_call0.cst main_call0.v0 (fun x v => Host.reduceAdd x v reducesTo_S10000x128_S128_d0 h_S_),
    StableHlo.TRef.unary main_call0.v0 main_call0.v1 (broadcastInDim S1x128 ![1] bcast_S128_S1x128_1),
    StableHlo.TRef.nullary main_call0.cst_0 (constant S_ .f32 0x461C4000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S10000x128 ![0, 1] bcast_S1x128_S10000x128_0_1),
    StableHlo.TRef.binary (.of main_v46) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S10000x128 ![0, 1] bcast_S1x128_S10000x128_0_1 : (⟨S1x128, .f32⟩ : BufTy).Contents (Elt F) → (⟨S10000x128, .f32⟩ : BufTy).Contents (Elt F)),
    StableHlo.binary main_v46 main_v52 main_v53 (subf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3727C5AC#32),
    StableHlo.unary main_cst_1 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.sqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S10000x128 ![0, 1] bcast_S1x128_S10000x128_0_1 : (⟨S1x128, .f32⟩ : BufTy).Contents (Elt F) → (⟨S10000x128, .f32⟩ : BufTy).Contents (Elt F)),
    StableHlo.binary main_v53 main_v58 main_v59 (Host.divf : (⟨S10000x128, .f32⟩ : BufTy).Contents (Elt F) → (⟨S10000x128, .f32⟩ : BufTy).Contents (Elt F) → (⟨S10000x128, .f32⟩ : BufTy).Contents (Elt F)),
    StableHlo.unary main_arg3 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S10000x128 ![0, 1] bcast_S1x128_S10000x128_0_1 : (⟨S1x128, .f32⟩ : BufTy).Contents (Elt F) → (⟨S10000x128, .f32⟩ : BufTy).Contents (Elt F)),
    StableHlo.binary main_v59 main_v61 main_v62 (mulf : (⟨S10000x128, .f32⟩ : BufTy).Contents (Elt F) → (⟨S10000x128, .f32⟩ : BufTy).Contents (Elt F) → (⟨S10000x128, .f32⟩ : BufTy).Contents (Elt F)),
    StableHlo.unary main_arg4 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S10000x128 ![0, 1] bcast_S1x128_S10000x128_0_1 : (⟨S1x128, .f32⟩ : BufTy).Contents (Elt F) → (⟨S10000x128, .f32⟩ : BufTy).Contents (Elt F)),
    StableHlo.binary main_v62 main_v64 main_v65 (addf : (⟨S10000x128, .f32⟩ : BufTy).Contents (Elt F) → (⟨S10000x128, .f32⟩ : BufTy).Contents (Elt F) → (⟨S10000x128, .f32⟩ : BufTy).Contents (Elt F)),
    StableHlo.unary main_v65 main_v66 (Host.tanh : (⟨S10000x128, .f32⟩ : BufTy).Contents (Elt F) → (⟨S10000x128, .f32⟩ : BufTy).Contents (Elt F)) ]

/-- The whole line. -/
abbrev ops : List (HloOp τ sig (Elt F)) := opsH ++ opsT

set_option maxRecDepth 4096 in
set_option maxHeartbeats 4000000 in
/-- The program is that line: the two windows and the two routines unfolded at their calls, sequencing
    reassociated, both sides are one chain of single steps. -/
theorem main_eq (c : Dev nD) : main (F := F) c = seq ops := by
  rw [show (ops : List (HloOp τ sig (Elt F))) = opsH ++ opsT from rfl, seq_append]
  simp only [main, main_part0, main_part1, fn_var.body, fn_where.body, seq, bind_assoc, pure_bind]

/-! ## An operation over eight literal references, read at its result

An operation over a family of references, read at its result, is its function applied to
`fun k => (contents at reference k)`; under that binder the reference is no literal, and no further
rewriting reaches the operands. For a literal family of eight the same value is the function at the eight
contents listed one by one. -/

section Nary8

variable {τ' : Topo} {sig' : RefSig} {Val : EltTy → Type}
variable {x0 x1 x2 x3 x4 x5 x6 x7 y : Ref sig' .tc}

theorem nary8_result
    (f : ((k : Fin 8) → ((![x0, x1, x2, x3, x4, x5, x6, x7] : Fin 8 → Ref sig' .tc) k).ty.Contents Val) → y.ty.Contents Val) (hxs hy)
    (V : Valuation τ' sig' Val) :
    (nary (τ := τ') ![x0, x1, x2, x3, x4, x5, x6, x7] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (fun i => i.elim0))))))))) := by
  rw [nary_result]; congr 1; funext k; fin_cases k <;> rfl

theorem nary8_result'
    (f : ((k : Fin 8) → ((![x0, x1, x2, x3, x4, x5, x6, x7] : Fin 8 → Ref sig' .tc) k).ty.Contents Val) → y.ty.Contents Val) (hxs hy)
    (V : Valuation τ' sig' Val) :
    (nary (τ := τ') ![x0, x1, x2, x3, x4, x5, x6, x7] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (fun i => i.elim0))))))))) :=
  nary8_result f hxs hy V

end Nary8

/-! ## The composed term -/
/-- Columns 0 to 15 of the weight array. -/
def blk0 (w : FVec Ideal S16x128 .f32) : FVec Ideal S16x16 .f32 :=
  extractStridedSlice S16x16 ![0, 0] w slices_S16x128_S16x16_0_0
/-- Columns 16 to 31 of the weight array. -/
def blk1 (w : FVec Ideal S16x128 .f32) : FVec Ideal S16x16 .f32 :=
  extractStridedSlice S16x16 ![0, 16] w slices_S16x128_S16x16_0_16
/-- Columns 32 to 47 of the weight array. -/
def blk2 (w : FVec Ideal S16x128 .f32) : FVec Ideal S16x16 .f32 :=
  extractStridedSlice S16x16 ![0, 32] w slices_S16x128_S16x16_0_32
/-- Columns 48 to 63 of the weight array. -/
def blk3 (w : FVec Ideal S16x128 .f32) : FVec Ideal S16x16 .f32 :=
  extractStridedSlice S16x16 ![0, 48] w slices_S16x128_S16x16_0_48
/-- Columns 64 to 79 of the weight array. -/
def blk4 (w : FVec Ideal S16x128 .f32) : FVec Ideal S16x16 .f32 :=
  extractStridedSlice S16x16 ![0, 64] w slices_S16x128_S16x16_0_64
/-- Columns 80 to 95 of the weight array. -/
def blk5 (w : FVec Ideal S16x128 .f32) : FVec Ideal S16x16 .f32 :=
  extractStridedSlice S16x16 ![0, 80] w slices_S16x128_S16x16_0_80
/-- Columns 96 to 111 of the weight array. -/
def blk6 (w : FVec Ideal S16x128 .f32) : FVec Ideal S16x16 .f32 :=
  extractStridedSlice S16x16 ![0, 96] w slices_S16x128_S16x16_0_96
/-- Columns 112 to 127 of the weight array. -/
def blk7 (w : FVec Ideal S16x128 .f32) : FVec Ideal S16x16 .f32 :=
  extractStridedSlice S16x16 ![0, 112] w slices_S16x128_S16x16_0_112
/-- Block column 0 of the Hamilton matrix: eight 16 × 16 blocks, signed, stacked along the rows. -/
def col0 (w : FVec Ideal S16x128 .f32) : FVec Ideal S128x16 .f32 :=
  concatenate S128x16 0 [⟨S16x16, blk0 w⟩, ⟨S16x16, blk1 w⟩, ⟨S16x16, blk2 w⟩, ⟨S16x16, blk3 w⟩, ⟨S16x16, blk4 w⟩, ⟨S16x16, blk5 w⟩, ⟨S16x16, blk6 w⟩, ⟨S16x16, blk7 w⟩]
    concatenates_S16x16_S16x16_S16x16_S16x16_S16x16_S16x16_S16x16_S16x16_S128x16_d0
/-- Block column 1 of the Hamilton matrix: eight 16 × 16 blocks, signed, stacked along the rows. -/
def col1 (w : FVec Ideal S16x128 .f32) : FVec Ideal S128x16 .f32 :=
  concatenate S128x16 0 [⟨S16x16, blk1 w⟩, ⟨S16x16, Host.negf (blk0 w)⟩, ⟨S16x16, blk3 w⟩, ⟨S16x16, Host.negf (blk2 w)⟩, ⟨S16x16, blk5 w⟩, ⟨S16x16, Host.negf (blk4 w)⟩, ⟨S16x16, Host.negf (blk7 w)⟩, ⟨S16x16, blk6 w⟩]
    concatenates_S16x16_S16x16_S16x16_S16x16_S16x16_S16x16_S16x16_S16x16_S128x16_d0
/-- Block column 2 of the Hamilton matrix: eight 16 × 16 blocks, signed, stacked along the rows. -/
def col2 (w : FVec Ideal S16x128 .f32) : FVec Ideal S128x16 .f32 :=
  concatenate S128x16 0 [⟨S16x16, blk2 w⟩, ⟨S16x16, Host.negf (blk3 w)⟩, ⟨S16x16, Host.negf (blk0 w)⟩, ⟨S16x16, blk1 w⟩, ⟨S16x16, blk6 w⟩, ⟨S16x16, blk7 w⟩, ⟨S16x16, Host.negf (blk4 w)⟩, ⟨S16x16, Host.negf (blk5 w)⟩]
    concatenates_S16x16_S16x16_S16x16_S16x16_S16x16_S16x16_S16x16_S16x16_S128x16_d0
/-- Block column 3 of the Hamilton matrix: eight 16 × 16 blocks, signed, stacked along the rows. -/
def col3 (w : FVec Ideal S16x128 .f32) : FVec Ideal S128x16 .f32 :=
  concatenate S128x16 0 [⟨S16x16, blk3 w⟩, ⟨S16x16, blk2 w⟩, ⟨S16x16, Host.negf (blk1 w)⟩, ⟨S16x16, Host.negf (blk0 w)⟩, ⟨S16x16, blk7 w⟩, ⟨S16x16, Host.negf (blk6 w)⟩, ⟨S16x16, blk5 w⟩, ⟨S16x16, Host.negf (blk4 w)⟩]
    concatenates_S16x16_S16x16_S16x16_S16x16_S16x16_S16x16_S16x16_S16x16_S128x16_d0
/-- Block column 4 of the Hamilton matrix: eight 16 × 16 blocks, signed, stacked along the rows. -/
def col4 (w : FVec Ideal S16x128 .f32) : FVec Ideal S128x16 .f32 :=
  concatenate S128x16 0 [⟨S16x16, blk4 w⟩, ⟨S16x16, Host.negf (blk5 w)⟩, ⟨S16x16, Host.negf (blk6 w)⟩, ⟨S16x16, Host.negf (blk7 w)⟩, ⟨S16x16, Host.negf (blk0 w)⟩, ⟨S16x16, blk1 w⟩, ⟨S16x16, blk2 w⟩, ⟨S16x16, blk3 w⟩]
    concatenates_S16x16_S16x16_S16x16_S16x16_S16x16_S16x16_S16x16_S16x16_S128x16_d0
/-- Block column 5 of the Hamilton matrix: eight 16 × 16 blocks, signed, stacked along the rows. -/
def col5 (w : FVec Ideal S16x128 .f32) : FVec Ideal S128x16 .f32 :=
  concatenate S128x16 0 [⟨S16x16, blk5 w⟩, ⟨S16x16, blk4 w⟩, ⟨S16x16, Host.negf (blk7 w)⟩, ⟨S16x16, blk6 w⟩, ⟨S16x16, Host.negf (blk1 w)⟩, ⟨S16x16, Host.negf (blk0 w)⟩, ⟨S16x16, Host.negf (blk3 w)⟩, ⟨S16x16, blk2 w⟩]
    concatenates_S16x16_S16x16_S16x16_S16x16_S16x16_S16x16_S16x16_S16x16_S128x16_d0
/-- Block column 6 of the Hamilton matrix: eight 16 × 16 blocks, signed, stacked along the rows. -/
def col6 (w : FVec Ideal S16x128 .f32) : FVec Ideal S128x16 .f32 :=
  concatenate S128x16 0 [⟨S16x16, blk6 w⟩, ⟨S16x16, blk7 w⟩, ⟨S16x16, blk4 w⟩, ⟨S16x16, Host.negf (blk5 w)⟩, ⟨S16x16, Host.negf (blk2 w)⟩, ⟨S16x16, blk3 w⟩, ⟨S16x16, Host.negf (blk0 w)⟩, ⟨S16x16, Host.negf (blk1 w)⟩]
    concatenates_S16x16_S16x16_S16x16_S16x16_S16x16_S16x16_S16x16_S16x16_S128x16_d0
/-- Block column 7 of the Hamilton matrix: eight 16 × 16 blocks, signed, stacked along the rows. -/
def col7 (w : FVec Ideal S16x128 .f32) : FVec Ideal S128x16 .f32 :=
  concatenate S128x16 0 [⟨S16x16, blk7 w⟩, ⟨S16x16, Host.negf (blk6 w)⟩, ⟨S16x16, blk5 w⟩, ⟨S16x16, blk4 w⟩, ⟨S16x16, Host.negf (blk3 w)⟩, ⟨S16x16, Host.negf (blk2 w)⟩, ⟨S16x16, blk1 w⟩, ⟨S16x16, Host.negf (blk0 w)⟩]
    concatenates_S16x16_S16x16_S16x16_S16x16_S16x16_S16x16_S16x16_S16x16_S128x16_d0
/-- The Hamilton matrix: the eight block columns side by side. -/
def hamR (w : FVec Ideal S16x128 .f32) : FVec Ideal S128x128 .f32 :=
  concatenate S128x128 1 [⟨S128x16, col0 w⟩, ⟨S128x16, col1 w⟩, ⟨S128x16, col2 w⟩, ⟨S128x16, col3 w⟩, ⟨S128x16, col4 w⟩, ⟨S128x16, col5 w⟩, ⟨S128x16, col6 w⟩, ⟨S128x16, col7 w⟩]
    concatenates_S128x16_S128x16_S128x16_S128x16_S128x16_S128x16_S128x16_S128x16_S128x128_d1

/-- The feature transform: the node features times a 128 × 128 matrix. -/
def supT (x : FVec Ideal S10000x128 .f32) (H : FVec Ideal S128x128 .f32) : FVec Ideal S10000x128 .f32 :=
  Host.dotGeneral dot_S10000x128_S128x128_S10000x128_1_0_0_1_n_n none x H

/-- The aggregation: the adjacency matrix times the transformed features. -/
def aggT (adj : FVec Ideal S10000x10000 .f32) (S : FVec Ideal S10000x128 .f32) : FVec Ideal S10000x128 .f32 :=
  Host.dotGeneral dot_S10000x10000_S10000x128_S10000x128_1_0_0_1_n_n none adj S

/-- The layer's pre-normalisation output Y = adj · (x · H(w)). -/
def yT (x : FVec Ideal S10000x128 .f32) (adj : FVec Ideal S10000x10000 .f32) (w : FVec Ideal S16x128 .f32) :
    FVec Ideal S10000x128 .f32 :=
  aggT adj (supT x (hamR w))

/-- The scalar zero the column sums start from. -/
def zeroS : FVec Ideal S_ .f32 := constant S_ .f32 0x00000000#32
/-- The scalar row count, 10000. -/
def cntS : FVec Ideal S_ .f32 := constant S_ .f32 0x461C4000#32

/-- The column sums of Y. -/
def colSumT (Y : FVec Ideal S10000x128 .f32) : FVec Ideal S128 .f32 :=
  Host.reduceAdd Y zeroS reducesTo_S10000x128_S128_d0 h_S_

/-- The column means, as a vector of 128: column sums over the row count. -/
def meanT (Y : FVec Ideal S10000x128 .f32) : FVec Ideal S128 .f32 :=
  Host.divf (colSumT Y) (broadcastInDim S128 ![] bcast_S_S128 cntS)

/-- The column means again, as the variance routine spells them: a 1 × 128 row, column sums over the row count. -/
def meanRowT (Y : FVec Ideal S10000x128 .f32) : FVec Ideal S1x128 .f32 :=
  Host.divf (broadcastInDim S1x128 ![1] bcast_S128_S1x128_1 (colSumT Y)) (broadcastInDim S1x128 ![] bcast_S_S1x128 cntS)

/-- The deviations from the column mean inside the variance routine. -/
def devT (Y : FVec Ideal S10000x128 .f32) : FVec Ideal S10000x128 .f32 :=
  subf Y (broadcastInDim S10000x128 ![0, 1] bcast_S1x128_S10000x128_0_1 (meanRowT Y))

/-- The squared deviations. -/
def sqDevT (Y : FVec Ideal S10000x128 .f32) : FVec Ideal S10000x128 .f32 := mulf (devT Y) (devT Y)

/-- The variance's divisor: the row count minus the degrees-of-freedom correction, the integer 0 converted. -/
def divisorS : FVec Ideal S_ .f32 := subf cntS (sitofp .f32 (constantI S_ 32 0#32))

/-- The mean of the squared deviations, before the guard on the divisor. -/
def varRawT (Y : FVec Ideal S10000x128 .f32) : FVec Ideal S128 .f32 :=
  Host.divf (Host.reduceAdd (sqDevT Y) zeroS reducesTo_S10000x128_S128_d0 h_S_) (broadcastInDim S128 ![] bcast_S_S128 divisorS)

/-- The variance: the mean of squared deviations where the divisor is positive, the not-a-number word elsewhere. -/
def varT (Y : FVec Ideal S10000x128 .f32) : FVec Ideal S128 .f32 :=
  select (broadcastInDim S128 ![] bcast_S_S128 (cmpf .ogt divisorS zeroS)) (varRawT Y)
    (broadcastInDim S128 ![] bcast_S_S128 (constant S_ .f32 0x7FC00000#32))

/-- Y centred by the column means. -/
def cenT (Y : FVec Ideal S10000x128 .f32) : FVec Ideal S10000x128 .f32 :=
  subf Y (broadcastInDim S10000x128 ![0, 1] bcast_S1x128_S10000x128_0_1 (broadcastInDim S1x128 ![1] bcast_S128_S1x128_1 (meanT Y)))

/-- The column standard deviations: the square root of variance plus the offset. -/
def sdT (Y : FVec Ideal S10000x128 .f32) : FVec Ideal S128 .f32 :=
  Host.sqrt (addf (varT Y) (broadcastInDim S128 ![] bcast_S_S128 (constant S_ .f32 0x3727C5AC#32)))

/-- The normalised array: centred Y over the standard deviations. -/
def normT (Y : FVec Ideal S10000x128 .f32) : FVec Ideal S10000x128 .f32 :=
  Host.divf (cenT Y) (broadcastInDim S10000x128 ![0, 1] bcast_S1x128_S10000x128_0_1 (broadcastInDim S1x128 ![1] bcast_S128_S1x128_1 (sdT Y)))

/-- The output from Y: normalise, scale by g, shift by b, hyperbolic tangent. -/
def outT (Y : FVec Ideal S10000x128 .f32) (g b : FVec Ideal S128 .f32) : FVec Ideal S10000x128 .f32 :=
  Host.tanh (addf (mulf (normT Y) (broadcastInDim S10000x128 ![0, 1] bcast_S1x128_S10000x128_0_1 (broadcastInDim S1x128 ![1] bcast_S128_S1x128_1 g)))
    (broadcastInDim S10000x128 ![0, 1] bcast_S1x128_S10000x128_0_1 (broadcastInDim S1x128 ![1] bcast_S128_S1x128_1 b)))

/-- The whole program's result from its five arguments. -/
def refTerm (x : FVec Ideal S10000x128 .f32) (adj : FVec Ideal S10000x10000 .f32) (w : FVec Ideal S16x128 .f32)
    (g b : FVec Ideal S128 .f32) : FVec Ideal S10000x128 .f32 :=
  outT (yT x adj w) g b

/-! ## The contents after the line -/

/-- The contents after two stretches run one after the other: the second's from the first's. -/
theorem after_app {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l₁, l₂, V => by rw [List.cons_append, after_cons, after_cons, after_app l₁ l₂]

theorem ops_split : (ops : List (HloOp τ sig (Elt F))) = opsH ++ opsT := rfl

set_option maxHeartbeats 4000000 in
set_option maxRecDepth 8192 in
/-- After the first stretch the buffer of the last concatenation holds the Hamilton matrix of the weight array:
    the outer concatenation read at its eight operands, the rest by computation. -/
theorem ham_eq (V : Valuation τ sig (Elt Ideal)) :
    after (opsH (F := Ideal)) V (main_v44 : DevRef τ sig) = hamR (V (main_arg2 : DevRef τ sig)) := by
  simp (disch := decide) only [after_cons, after_nil,
      nullary_result', unary_result', binary_result', ternary_result', nary8_result', nary_result',
      nullary_result_ne', unary_result_ne', binary_result_ne', ternary_result_ne', nary_result_ne']
  rfl

set_option maxHeartbeats 4000000 in
set_option maxRecDepth 8192 in
/-- After the second stretch the result buffer holds the normalised, scaled, shifted hyperbolic tangent of
    adj · (x · H), H whatever the buffer of the last concatenation held. -/
theorem tail_eq (W : Valuation τ sig (Elt Ideal)) :
    after (opsT (F := Ideal)) W (main_v66 : DevRef τ sig)
      = outT (aggT (W (main_arg1 : DevRef τ sig)) (supT (W (main_arg0 : DevRef τ sig)) (W (main_v44 : DevRef τ sig))))
          (W (main_arg3 : DevRef τ sig)) (W (main_arg4 : DevRef τ sig)) := by
  after_results_simp
  rfl

/-! Neither stretch writes an argument. -/
theorem head_arg0 (V : Valuation τ sig (Elt Ideal)) :
    after (opsH (F := Ideal)) V (main_arg0 : DevRef τ sig) = V (main_arg0 : DevRef τ sig) := by after_results_simp
theorem head_arg1 (V : Valuation τ sig (Elt Ideal)) :
    after (opsH (F := Ideal)) V (main_arg1 : DevRef τ sig) = V (main_arg1 : DevRef τ sig) := by after_results_simp
theorem head_arg2 (V : Valuation τ sig (Elt Ideal)) :
    after (opsH (F := Ideal)) V (main_arg2 : DevRef τ sig) = V (main_arg2 : DevRef τ sig) := by after_results_simp
theorem head_arg3 (V : Valuation τ sig (Elt Ideal)) :
    after (opsH (F := Ideal)) V (main_arg3 : DevRef τ sig) = V (main_arg3 : DevRef τ sig) := by after_results_simp
theorem head_arg4 (V : Valuation τ sig (Elt Ideal)) :
    after (opsH (F := Ideal)) V (main_arg4 : DevRef τ sig) = V (main_arg4 : DevRef τ sig) := by after_results_simp
theorem tail_arg0 (W : Valuation τ sig (Elt Ideal)) :
    after (opsT (F := Ideal)) W (main_arg0 : DevRef τ sig) = W (main_arg0 : DevRef τ sig) := by after_results_simp
theorem tail_arg1 (W : Valuation τ sig (Elt Ideal)) :
    after (opsT (F := Ideal)) W (main_arg1 : DevRef τ sig) = W (main_arg1 : DevRef τ sig) := by after_results_simp
theorem tail_arg2 (W : Valuation τ sig (Elt Ideal)) :
    after (opsT (F := Ideal)) W (main_arg2 : DevRef τ sig) = W (main_arg2 : DevRef τ sig) := by after_results_simp
theorem tail_arg3 (W : Valuation τ sig (Elt Ideal)) :
    after (opsT (F := Ideal)) W (main_arg3 : DevRef τ sig) = W (main_arg3 : DevRef τ sig) := by after_results_simp
theorem tail_arg4 (W : Valuation τ sig (Elt Ideal)) :
    after (opsT (F := Ideal)) W (main_arg4 : DevRef τ sig) = W (main_arg4 : DevRef τ sig) := by after_results_simp

/-- The result buffer after the whole line. -/
theorem out_eq (V : Valuation τ sig (Elt Ideal)) :
    after (ops (F := Ideal)) V (main_v66 : DevRef τ sig)
      = refTerm (V (main_arg0 : DevRef τ sig)) (V (main_arg1 : DevRef τ sig)) (V (main_arg2 : DevRef τ sig))
          (V (main_arg3 : DevRef τ sig)) (V (main_arg4 : DevRef τ sig)) := by
  rw [ops_split, after_app, tail_eq, ham_eq, head_arg0, head_arg1, head_arg3, head_arg4]
  rfl

theorem arg0_eq (V : Valuation τ sig (Elt Ideal)) :
    after (ops (F := Ideal)) V (main_arg0 : DevRef τ sig) = V (main_arg0 : DevRef τ sig) := by
  rw [ops_split, after_app, tail_arg0, head_arg0]
theorem arg1_eq (V : Valuation τ sig (Elt Ideal)) :
    after (ops (F := Ideal)) V (main_arg1 : DevRef τ sig) = V (main_arg1 : DevRef τ sig) := by
  rw [ops_split, after_app, tail_arg1, head_arg1]
theorem arg2_eq (V : Valuation τ sig (Elt Ideal)) :
    after (ops (F := Ideal)) V (main_arg2 : DevRef τ sig) = V (main_arg2 : DevRef τ sig) := by
  rw [ops_split, after_app, tail_arg2, head_arg2]
theorem arg3_eq (V : Valuation τ sig (Elt Ideal)) :
    after (ops (F := Ideal)) V (main_arg3 : DevRef τ sig) = V (main_arg3 : DevRef τ sig) := by
  rw [ops_split, after_app, tail_arg3, head_arg3]
theorem arg4_eq (V : Valuation τ sig (Elt Ideal)) :
    after (ops (F := Ideal)) V (main_arg4 : DevRef τ sig) = V (main_arg4 : DevRef τ sig) := by
  rw [ops_split, after_app, tail_arg4, head_arg4]

/-! ## The run -/

theorem scopedRefs_eq : (Finset.univ.filter fun b : Ref sig .tc => b.isScoped) = ∅ := by decide
theorem scopedSems_eq : (Finset.univ.filter fun sm : SemLoc sig => sm.isScoped .tc) = ∅ := by decide

theorem opsH_sub : (opsH : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub .., nary_bufs_sub .., nary_bufs_sub .., nary_bufs_sub .., nary_bufs_sub .., nary_bufs_sub ..⟩
theorem opsT_sub : (opsT : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem ops_sub : (ops : List (HloOp τ sig (Elt F))).Forall fun op => op.bufs ⊆ tcRefs τ sig :=
  List.forall_append.mpr ⟨opsH_sub, opsT_sub⟩

/-- Every operation determines what it writes. -/
theorem ops_fresh : ∀ op ∈ (ops : List (HloOp τ sig (Elt F))), op.fresh = ∅ := by
  intro op h
  rcases List.mem_append.mp h with h | h
  · (repeat (cases h with | head => rfl | tail _ h => ?_)); exact nomatch h
  · (repeat (cases h with | head => rfl | tail _ h => ?_)); exact nomatch h

/-- On the one device, from any memory with zero counters: every weakly fair execution of the program terminates
    with the result buffer at `refTerm` of the five arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v66) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v66).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ (fun _ => ops_fresh))

end Cert.ReferenceIdeal.RefRun

end
-- ==== Proof.RefValue.lean ====
/-
  The reference program's composed term read at one entry.

  With Y = adj · (x · H), H the Hamilton matrix of the weight array, the term at row r and column j is the
  centred form of the specification: the hyperbolic tangent of ((Y r j − mean j) / sqrt(var j + eps)) · g j + b j,
  where mean j is the column sum over the row count and var j the mean of the squared deviations.
  Each stage is read at an index in turn: a matrix product with one contracted axis is a plain sum, a sum over
  the rows from the zero word is the sum over the rows, a broadcast reads its operand at the column, the variance
  routine's divisor is the row count (the correction subtracted is the integer 0) and is above zero, so its
  guarded selection returns the quotient. The program spells the mean twice, as a vector of 128 and as a 1 × 128
  row; both are the column sum over the row count.
-/
import proofs.«167329_g16630113370191_cont_week2b_735_26_alg».proof.Proof.RefRun
import proofs.«167329_g16630113370191_cont_week2b_735_26_alg».proof.Proof.Consts
import proofs.«167329_g16630113370191_cont_week2b_735_26_alg».proof.Proof.LibPlainDot
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Scalars -/

/-- The zero scalar reads 0. -/
theorem zeroS_apply (i : S_.Idx) : zeroS i = 0 := Ognn.ofBits_zero
/-- The row-count scalar reads the row count. -/
theorem cntS_apply (i : S_.Idx) : cntS i = Ognn.cN := rfl
/-- The divisor is the row count: the correction subtracted is the integer 0. -/
theorem divisorS_apply (i : S_.Idx) : divisorS i = Ognn.cN := by
  show Ognn.cN - (((0#32 : BitVec 32).toInt : ℝ) : EReal) = Ognn.cN
  rw [show (0#32 : BitVec 32).toInt = 0 from rfl, Int.cast_zero, EReal.coe_zero, sub_zero]

/-! ## The three broadcasts, read at an index -/

section Bcast
variable {α : Type}

/-- A vector of 128 laid as a 1 × 128 row reads the vector at the column. -/
theorem bcRow_apply (v : S128.Idx → α) (j : Fin 128) :
    broadcastInDim S1x128 ![1] bcast_S128_S1x128_1 v (ix2 (0 : Fin 1) j) = v (ix1 j) :=
  broadcastInDim_apply _ _ _ _ (ix1 j) (fun a => by
    match a with
    | ⟨0, _⟩ => rfl)

/-- A 1 × 128 row repeated down 10000 rows reads the row at the column. -/
theorem bcMat_apply (v : S1x128.Idx → α) (r : Fin 10000) (j : Fin 128) :
    broadcastInDim S10000x128 ![0, 1] bcast_S1x128_S10000x128_0_1 v (ix2 r j) = v (ix2 (0 : Fin 1) j) :=
  broadcastInDim_apply _ _ _ _ (ix2 (0 : Fin 1) j) (fun a => by
    match a with
    | ⟨0, _⟩ => rfl
    | ⟨1, _⟩ => rfl)

/-- So a vector of 128 repeated down the rows reads the vector at the column. -/
theorem bcCols_apply (v : S128.Idx → α) (r : Fin 10000) (j : Fin 128) :
    broadcastInDim S10000x128 ![0, 1] bcast_S1x128_S10000x128_0_1 (broadcastInDim S1x128 ![1] bcast_S128_S1x128_1 v) (ix2 r j)
      = v (ix1 j) := by
  rw [bcMat_apply, bcRow_apply]

end Bcast

/-! ## Column sums -/

/-- The shape fact of a sum over the rows, in the form that names the inserted row. -/
theorem redRows : S10000x128.Reduces [0] S128 := by decide

/-- The index that drops to column j with row k inserted is (k, j). -/
theorem lift_rows (j : Fin 128) (k : Fin 10000) : redRows.lift (ix1 j) k = ix2 k j := by
  funext a
  match a with
  | ⟨0, _⟩ => exact Fin.ext rfl
  | ⟨1, _⟩ => exact Fin.ext rfl

/-- A sum over the rows from the zero scalar, read at column j: the sum over the rows of the entries of column j. -/
theorem colSum_apply (Z : FVec Ideal S10000x128 .f32) (j : Fin 128) :
    Host.reduceAdd Z zeroS reducesTo_S10000x128_S128_d0 h_S_ (ix1 j) = ∑ r : Fin 10000, Z (ix2 r j) := by
  rw [hostReduceAdd_apply, Ideal.hostReduceAdd_single _ redRows, zeroS_apply, zero_add]
  exact Finset.sum_congr rfl fun k _ => congrArg Z (lift_rows j k)

/-! ## The stages, read at an index -/

/-- An array of 10000 × 128 as a function of row and column. -/
abbrev fn (Y : FVec Ideal S10000x128 .f32) : Fin 10000 → Fin 128 → EReal := fun r j => Y (ix2 r j)

section Stages
variable (Y : FVec Ideal S10000x128 .f32)

theorem colSumT_apply (j : Fin 128) : colSumT Y (ix1 j) = Ognn.colSum (fn Y) j := colSum_apply Y j

/-- The mean as a vector of 128 … -/
theorem meanT_apply (j : Fin 128) : meanT Y (ix1 j) = Ognn.mean (fn Y) j := by
  unfold meanT Ognn.mean
  rw [hostDivf_apply, colSumT_apply, broadcastInDim_scalar_apply, cntS_apply]

/-- … and as a 1 × 128 row: the same number. -/
theorem meanRowT_apply (j : Fin 128) : meanRowT Y (ix2 (0 : Fin 1) j) = Ognn.mean (fn Y) j := by
  unfold meanRowT Ognn.mean
  rw [hostDivf_apply, bcRow_apply, colSumT_apply, broadcastInDim_scalar_apply, cntS_apply]

theorem devT_apply (r : Fin 10000) (j : Fin 128) : devT Y (ix2 r j) = fn Y r j - Ognn.mean (fn Y) j := by
  unfold devT
  rw [subf_apply, bcMat_apply, meanRowT_apply]

theorem sqDevT_apply (r : Fin 10000) (j : Fin 128) :
    sqDevT Y (ix2 r j) = (fn Y r j - Ognn.mean (fn Y) j) * (fn Y r j - Ognn.mean (fn Y) j) := by
  unfold sqDevT
  rw [mulf_apply, devT_apply]

/-- The mean of the squared deviations is the centred variance. -/
theorem varRawT_apply (j : Fin 128) : varRawT Y (ix1 j) = Ognn.varR (fn Y) j := by
  unfold varRawT Ognn.varR
  rw [hostDivf_apply, colSum_apply, broadcastInDim_scalar_apply, divisorS_apply,
    Finset.sum_congr rfl fun r _ => sqDevT_apply Y r j]

/-- The row count is above zero, so the comparison's bit is 1. -/
theorem cmp_cN : FloatOps.cmpf (F := Ideal) (φ := .f32) .ogt Ognn.cN 0 = 1#1 := by
  show BitVec.ofBool (decide ((0 : EReal) < Ognn.cN)) = 1#1
  rw [decide_eq_true (by rw [Ognn.cN_eq]; exact EReal.coe_pos.mpr (by norm_num))]
  rfl

/-- The guard holds, so the selection returns the mean of the squared deviations. -/
theorem varT_apply (j : Fin 128) : varT Y (ix1 j) = Ognn.varR (fn Y) j := by
  unfold varT
  rw [select_apply, broadcastInDim_scalar_apply, cmpf_apply, divisorS_apply, zeroS_apply, cmp_cN, select_one, varRawT_apply]

theorem cenT_apply (r : Fin 10000) (j : Fin 128) : cenT Y (ix2 r j) = fn Y r j - Ognn.mean (fn Y) j := by
  unfold cenT
  rw [subf_apply, bcCols_apply, meanT_apply]

theorem sdT_apply (j : Fin 128) : sdT Y (ix1 j) = Ideal.sqrt (Ognn.varR (fn Y) j + Ognn.eps) := by
  unfold sdT
  show Ideal.sqrt (addf (varT Y) (broadcastInDim S128 ![] bcast_S_S128 (constant S_ .f32 0x3727C5AC#32)) (ix1 j)) = _
  rw [addf_apply, varT_apply, broadcastInDim_scalar_apply]
  rfl

theorem normT_apply (r : Fin 10000) (j : Fin 128) :
    normT Y (ix2 r j) = Ideal.div (fn Y r j - Ognn.mean (fn Y) j) (Ideal.sqrt (Ognn.varR (fn Y) j + Ognn.eps)) := by
  unfold normT
  rw [hostDivf_apply, cenT_apply, bcCols_apply, sdT_apply]

/-- The output from Y is the centred form of the specification. -/
theorem outT_apply (g b : FVec Ideal S128 .f32) (r : Fin 10000) (j : Fin 128) :
    outT Y g b (ix2 r j) = Ognn.outR (fn Y) (fun j => g (ix1 j)) (fun j => b (ix1 j)) r j := by
  unfold outT Ognn.outR
  show Ideal.tanh (addf (mulf (normT Y) _) _ (ix2 r j)) = _
  rw [addf_apply, mulf_apply, normT_apply, bcCols_apply, bcCols_apply]

end Stages

/-! ## The two matrix products -/

theorem dot1_eq : dot_S10000x128_S128x128_S10000x128_1_0_0_1_n_n = DotDims.plain 10000 128 128 := rfl
theorem dot2_eq : dot_S10000x10000_S10000x128_S10000x128_1_0_0_1_n_n = DotDims.plain 10000 10000 128 := rfl

theorem supT_apply (x : FVec Ideal S10000x128 .f32) (H : FVec Ideal S128x128 .f32) (k : Fin 10000) (j : Fin 128) :
    supT x H (ix2 k j) = Ognn.sup x H k j := by
  unfold supT Ognn.sup
  rw [dot1_eq]
  exact PlainDot.dotGeneral_apply 10000 128 128 _ x H (ix2 k j)

theorem aggT_apply (adj : FVec Ideal S10000x10000 .f32) (S : FVec Ideal S10000x128 .f32) (r : Fin 10000) (j : Fin 128) :
    aggT adj S (ix2 r j) = Ognn.agg adj (fn S) r j := by
  unfold aggT Ognn.agg
  rw [dot2_eq]
  exact PlainDot.dotGeneral_apply 10000 10000 128 _ adj S (ix2 r j)

theorem yT_apply (x : FVec Ideal S10000x128 .f32) (adj : FVec Ideal S10000x10000 .f32) (w : FVec Ideal S16x128 .f32)
    (r : Fin 10000) (j : Fin 128) :
    yT x adj w (ix2 r j) = Ognn.agg adj (Ognn.sup x (hamR w)) r j := by
  unfold yT
  rw [aggT_apply, show fn (supT x (hamR w)) = Ognn.sup x (hamR w) from funext fun k => funext fun l => supT_apply x (hamR w) k l]

/-! ## The whole term -/

theorem refTerm_apply (x : FVec Ideal S10000x128 .f32) (adj : FVec Ideal S10000x10000 .f32) (w : FVec Ideal S16x128 .f32)
    (g b : FVec Ideal S128 .f32) (r : Fin 10000) (j : Fin 128) :
    refTerm x adj w g b (ix2 r j)
      = Ognn.outR (Ognn.agg adj (Ognn.sup x (hamR w))) (fun j => g (ix1 j)) (fun j => b (ix1 j)) r j := by
  unfold refTerm
  rw [outT_apply, show fn (yT x adj w) = Ognn.agg adj (Ognn.sup x (hamR w)) from
    funext fun r => funext fun j => yT_apply x adj w r j]

end Cert.ReferenceIdeal.RefValue

end
-- ==== Proof.Algebra.lean ====
/-
  The algebra behind the two normalisations, over the extended reals and the reals.

  Real-valuedness passes through the two matrix products (finite sums of products of reals).
  On real data every column statistic is the coercion of a real expression, the mean of squared
  deviations equals the mean of squares minus the squared mean, the variance is nonnegative so
  the offset variance is positive, and the folded multiply-add equals the centred quotient.
-/
import proofs.«167329_g16630113370191_cont_week2b_735_26_alg».proof.Proof.Consts
import Mathlib.Tactic.FieldSimp
import Mathlib.Tactic.Ring
import Mathlib.Tactic.Positivity
import Mathlib.Tactic.Linarith

noncomputable section

open scoped BigOperators

namespace Ognn

open Idealize.ShloMosaic Idealize.ShloMosaic.ValueIdx

/-! ### Finite sums of reals inside the extended reals -/

/-- The coercion from the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real-valued terms is real-valued. -/
theorem sum_real {ι : Type*} (s : Finset ι) (f : ι → EReal)
    (hf : ∀ i, ∃ v : ℝ, f i = (v : EReal)) : ∃ v : ℝ, ∑ i ∈ s, f i = (v : EReal) := by
  choose w hw using hf
  exact ⟨∑ i ∈ s, w i, by rw [coe_sum]; exact Finset.sum_congr rfl (fun i _ => hw i)⟩

/-- real-valuedness is closed under the two products -/
theorem sup_real (x : Arr 10000 128) (H : Arr 128 128) (hx : ∀ i, ∃ v : ℝ, x i = (v : EReal))
    (hH : ∀ i, ∃ v : ℝ, H i = (v : EReal)) : ∀ k j, ∃ v : ℝ, sup x H k j = (v : EReal) := by
  intro k j
  unfold sup
  apply sum_real
  intro l
  obtain ⟨a, ha⟩ := hx (ix2 k l)
  obtain ⟨c, hc⟩ := hH (ix2 l j)
  exact ⟨a * c, by rw [ha, hc, EReal.coe_mul]⟩

theorem agg_real (adj : Arr 10000 10000) (S : Fin 10000 → Fin 128 → EReal)
    (hadj : ∀ i, ∃ v : ℝ, adj i = (v : EReal)) (hS : ∀ k j, ∃ v : ℝ, S k j = (v : EReal)) :
    ∀ r j, ∃ v : ℝ, agg adj S r j = (v : EReal) := by
  intro r j
  unfold agg
  apply sum_real
  intro k
  obtain ⟨a, ha⟩ := hadj (ix2 r k)
  obtain ⟨c, hc⟩ := hS k j
  exact ⟨a * c, by rw [ha, hc, EReal.coe_mul]⟩

/-! ### One column of real data: the statistics over ℝ -/

/-- The real mean of a column: the sum times the reciprocal of the row count. -/
def meanR (y : Fin 10000 → ℝ) : ℝ := (∑ r, y r) * (1 / 10000)

/-- The real variance as mean of squares minus squared mean. -/
def varKR (y : Fin 10000 → ℝ) : ℝ := (∑ r, y r * y r) * (1 / 10000) - meanR y * meanR y

/-- The real variance as mean of squared deviations. -/
def varRR (y : Fin 10000 → ℝ) : ℝ := (∑ r, (y r - meanR y) * (y r - meanR y)) * (1 / 10000)

/-- Expanding the squared deviations: Σ (y − m)² = Σ y² − 2 m Σ y + n m², with n = 10000 terms. -/
theorem sum_sq_dev (y : Fin 10000 → ℝ) (m : ℝ) :
    ∑ r, (y r - m) * (y r - m) = (∑ r, y r * y r) - 2 * m * (∑ r, y r) + 10000 * (m * m) := by
  have h1 : ∀ r, (y r - m) * (y r - m) = y r * y r - 2 * m * y r + m * m := fun r => by ring
  simp only [h1]
  rw [Finset.sum_add_distrib, Finset.sum_sub_distrib, ← Finset.mul_sum, Finset.sum_const,
    Finset.card_univ, Fintype.card_fin, nsmul_eq_mul]
  norm_num

/-- The two variances are one real number. -/
theorem varKR_eq_varRR (y : Fin 10000 → ℝ) : varKR y = varRR y := by
  unfold varKR varRR
  rw [sum_sq_dev]
  unfold meanR
  ring

/-- The variance is nonnegative: a sum of squares over a positive count. -/
theorem varRR_nonneg (y : Fin 10000 → ℝ) : 0 ≤ varRR y := by
  unfold varRR
  apply mul_nonneg
  · exact Finset.sum_nonneg (fun r _ => mul_self_nonneg _)
  · norm_num

/-! ### The same statistics inside the extended reals -/

/-- Division by the row count is the product with the reciprocal of 10000. -/
theorem div_cN (x : EReal) : Ideal.div x cN = x * ((1 / 10000 : ℝ) : EReal) := by
  have h : (10000 : ℝ) ≠ 0 := by norm_num
  rw [cN_eq, Ideal.div_coe h]

section Column

variable (Y : Fin 10000 → Fin 128 → EReal) (j : Fin 128) (y : Fin 10000 → ℝ)
  (hy : ∀ r, Y r j = (y r : EReal))

include hy

/-- The column mean of real data is the coercion of the real mean. -/
theorem mean_coe : mean Y j = (meanR y : EReal) := by
  unfold mean colSum meanR
  simp only [hy]
  rw [div_cN, EReal.coe_mul, coe_sum]

/-- The raw-moment variance of real data is the coercion of its real counterpart. -/
theorem varK_coe : varK Y j = (varKR y : EReal) := by
  unfold varK colSumSq varKR
  simp only [hy]
  rw [mean_coe Y j y hy, div_cN, EReal.coe_sub, EReal.coe_mul, EReal.coe_mul, coe_sum]
  simp only [EReal.coe_mul]

/-- The centred variance of real data is the coercion of its real counterpart. -/
theorem varR_coe : varR Y j = (varRR y : EReal) := by
  unfold varR varRR
  simp only [hy]
  rw [mean_coe Y j y hy, div_cN, EReal.coe_mul, coe_sum]
  simp only [EReal.coe_mul, EReal.coe_sub]

end Column

/-! ### The two outputs -/

/-- Over ℝ: y · (s · g) + (b − m · (s · g)) = ((y − m) / √v) · g + b when s = (√v)⁻¹ and v > 0. -/
theorem fold_eq_centre (y m g b v : ℝ) (hv : 0 < v) :
    y * ((Real.sqrt v)⁻¹ * g) + (b - m * ((Real.sqrt v)⁻¹ * g))
      = (y - m) * (1 / Real.sqrt v) * g + b := by
  have hs : Real.sqrt v ≠ 0 := (Real.sqrt_pos.mpr hv).ne'
  field_simp
  ring

/-- the two normalisations agree on real data -/
theorem outK_eq_outR (Y : Fin 10000 → Fin 128 → EReal) (g b : Fin 128 → EReal)
    (hY : ∀ r j, ∃ v : ℝ, Y r j = (v : EReal)) (hg : ∀ j, ∃ v : ℝ, g j = (v : EReal))
    (hb : ∀ j, ∃ v : ℝ, b j = (v : EReal)) (r : Fin 10000) (j : Fin 128) :
    outK Y g b r j = outR Y g b r j := by
  choose y hy using hY
  obtain ⟨gj, hgj⟩ := hg j
  obtain ⟨bj, hbj⟩ := hb j
  obtain ⟨e, he, hee⟩ := eps_pos
  have hcol : ∀ r, Y r j = ((fun r => y r j) r : EReal) := fun r => hy r j
  have hm := mean_coe Y j (fun r => y r j) hcol
  have hK := varK_coe Y j (fun r => y r j) hcol
  have hR := varR_coe Y j (fun r => y r j) hcol
  set yc : Fin 10000 → ℝ := fun r => y r j with hyc
  have hv : 0 < varRR yc + e := by have := varRR_nonneg yc; linarith
  have hsq : Real.sqrt (varRR yc + e) ≠ 0 := (Real.sqrt_pos.mpr hv).ne'
  unfold outK outR
  rw [hm, hK, hR, varKR_eq_varRR, hee, hgj, hbj, hy r j, ← EReal.coe_add, Ideal.rsqrt_coe,
    if_neg (not_lt.mpr hv.le), if_neg hv.ne', Ideal.sqrt_coe, if_neg (not_lt.mpr hv.le),
    ← EReal.coe_sub, Ideal.div_coe hsq]
  simp only [← EReal.coe_mul, ← EReal.coe_add, ← EReal.coe_sub]
  rw [show y r j = yc r from rfl, fold_eq_centre _ _ _ _ _ hv]

end Ognn

end
-- ==== Proof.Finite.lean ====
/-
  From the finiteness predicate to real-valued inputs.

  The predicate is a conjunction of five statements "every entry of a has magnitude below +∞".
  A conjunction of one-bit words that is 1 has every conjunct 1; a reduction by "and" over all
  axes that is 1 had 1 at every entry; and an extended real whose magnitude max(x, −x) lies
  strictly below ⊤ is neither ⊤ nor ⊥, hence a real.
-/
import proofs.«167329_g16630113370191_cont_week2b_735_26_alg».proof.Proof.Gen.Pre_finite_inputs
import Idealize.ShloMosaic.Lib.ReduceAll
import Idealize.ShloMosaic.Lib.ValueIdx

noncomputable section

namespace Cert.Finite

open Idealize.ShloMosaic Cert.Pre_finite_inputs

/-- The rank-0 shape has a single index. -/
instance : Subsingleton S_.Idx := ⟨fun a b => funext fun d => d.elim0⟩

/-- The word 0x7F800000 denotes ⊤. -/
theorem inf_word : Ideal.ofBits .f32 0x7F800000#32 = ⊤ := by
  simp [Ideal.ofBits, Ideal.ieee]

/-- An extended real with max(x, −x) strictly below +∞ is a real. -/
theorem real_of_abs_lt_inf (x : EReal)
    (h : Ideal.cmp .olt (max x (-x)) (Ideal.ofBits .f32 0x7F800000#32) = 1#1) :
    ∃ v : ℝ, x = (v : EReal) := by
  rw [inf_word] at h
  induction x using EReal.rec with
  | bot => simp [Ideal.cmp] at h
  | coe r => exact ⟨r, rfl⟩
  | top => simp [Ideal.cmp] at h

/-- Over any shape: if "all entries of |a| are below +∞" reduces to 1, every entry of a is a real. -/
theorem all_real {s : Shape} {axes : List (Fin s.rank)} (a : FVec Ideal s .f32)
    (hb : S_.BroadcastsInDim s (![] : Fin 0 → Fin s.rank)) (hr : s.ReducesTo axes S_)
    (hu : 0 < S_.numel) (init : IVec S_ 1) (j : S_.Idx)
    (e : Host.reduce IntOp.andi
          (cmpf .olt (Host.absf a) (broadcastInDim s ![] hb (constant (F := Ideal) S_ .f32 0x7F800000#32)))
          init hr hu j = 1#1) :
    ∀ i, ∃ v : ℝ, a i = (v : EReal) := by
  intro i
  have h1 := Host.reduce_andi_all _ init hr hu j e i
  exact real_of_abs_lt_inf (a i) h1

/-- The predicate holding says every entry of each of the five inputs is a real. -/
theorem real_of_pre [hP : Cert.Pre_finite_inputs.Facts] (x : FVec Ideal S10000x128 .f32)
    (adj : FVec Ideal S10000x10000 .f32) (w : FVec Ideal S16x128 .f32) (g b : FVec Ideal S128 .f32)
    (h : Cert.Pre_finite_inputs.fn (F := Ideal) x adj w g b = (fun _ => 1#1)) :
    (∀ i, ∃ v : ℝ, x i = (v : EReal)) ∧ (∀ i, ∃ v : ℝ, adj i = (v : EReal)) ∧
      (∀ i, ∃ v : ℝ, w i = (v : EReal)) ∧ (∀ i, ∃ v : ℝ, g i = (v : EReal)) ∧
      (∀ i, ∃ v : ℝ, b i = (v : EReal)) := by
  have h0 := congrFun h ValueIdx.ix0
  dsimp only [fn, fn_part1, andi] at h0
  obtain ⟨h4, eb⟩ := IntOp.andi_eq_one.1 h0
  obtain ⟨h3, eg⟩ := IntOp.andi_eq_one.1 h4
  obtain ⟨h2, ew⟩ := IntOp.andi_eq_one.1 h3
  obtain ⟨ex, eadj⟩ := IntOp.andi_eq_one.1 h2
  exact ⟨all_real x _ _ _ _ _ ex, all_real adj _ _ _ _ _ eadj, all_real w _ _ _ _ _ ew,
    all_real g _ _ _ _ _ eg, all_real b _ _ _ _ _ eb⟩

end Cert.Finite

end
-- ==== Proof.HamBridge.lean ====
/-
  The Hamilton matrix is one matrix under both spellings.

  Both programs cut the weight block into the same eight 16 × 16 slices and lay the same signed
  blocks in the same 8 × 8 pattern; one writes the negated blocks as 0 − A, the other as −A.
  Over the extended reals 0 − x = −x for every x (the infinities included), so each negated block
  is the same array, and the two stacks of blocks are then the same term.
-/
import proofs.«167329_g16630113370191_cont_week2b_735_26_alg».proof.Proof.KIHam
import proofs.«167329_g16630113370191_cont_week2b_735_26_alg».proof.Proof.RefRun
import Idealize.ShloMosaic.Lib.KernelVsHost

noncomputable section

namespace Cert.HamBridge

open Cert.KernelIdeal Cert.KernelIdeal.Gen Cert.KernelIdeal.Ham Idealize.ShloMosaic

section Negations

variable (w : Vec Ideal S16x128 .f32)

/-! Each block written 0 − A is the block −A. -/
theorem pay17_eq : k0_pay17 (F := Ideal) w = Host.negf (k0_pay9 w) := subf_zero_eq_hostNegf (k0_pay9 w)
theorem pay18_eq : k0_pay18 (F := Ideal) w = Host.negf (k0_pay11 w) := subf_zero_eq_hostNegf (k0_pay11 w)
theorem pay19_eq : k0_pay19 (F := Ideal) w = Host.negf (k0_pay13 w) := subf_zero_eq_hostNegf (k0_pay13 w)
theorem pay20_eq : k0_pay20 (F := Ideal) w = Host.negf (k0_pay16 w) := subf_zero_eq_hostNegf (k0_pay16 w)
theorem pay21_eq : k0_pay21 (F := Ideal) w = Host.negf (k0_pay12 w) := subf_zero_eq_hostNegf (k0_pay12 w)
theorem pay22_eq : k0_pay22 (F := Ideal) w = Host.negf (k0_pay9 w) := subf_zero_eq_hostNegf (k0_pay9 w)
theorem pay23_eq : k0_pay23 (F := Ideal) w = Host.negf (k0_pay13 w) := subf_zero_eq_hostNegf (k0_pay13 w)
theorem pay24_eq : k0_pay24 (F := Ideal) w = Host.negf (k0_pay14 w) := subf_zero_eq_hostNegf (k0_pay14 w)
theorem pay25_eq : k0_pay25 (F := Ideal) w = Host.negf (k0_pay10 w) := subf_zero_eq_hostNegf (k0_pay10 w)
theorem pay26_eq : k0_pay26 (F := Ideal) w = Host.negf (k0_pay9 w) := subf_zero_eq_hostNegf (k0_pay9 w)
theorem pay27_eq : k0_pay27 (F := Ideal) w = Host.negf (k0_pay15 w) := subf_zero_eq_hostNegf (k0_pay15 w)
theorem pay28_eq : k0_pay28 (F := Ideal) w = Host.negf (k0_pay13 w) := subf_zero_eq_hostNegf (k0_pay13 w)
theorem pay29_eq : k0_pay29 (F := Ideal) w = Host.negf (k0_pay14 w) := subf_zero_eq_hostNegf (k0_pay14 w)
theorem pay30_eq : k0_pay30 (F := Ideal) w = Host.negf (k0_pay15 w) := subf_zero_eq_hostNegf (k0_pay15 w)
theorem pay31_eq : k0_pay31 (F := Ideal) w = Host.negf (k0_pay16 w) := subf_zero_eq_hostNegf (k0_pay16 w)
theorem pay32_eq : k0_pay32 (F := Ideal) w = Host.negf (k0_pay9 w) := subf_zero_eq_hostNegf (k0_pay9 w)

end Negations

/-- The matrix built with 0 − A is the matrix built with −A. -/
theorem hamK_eq_hamR (w : Vec Ideal S16x128 .f32) : hamK w = Cert.ReferenceIdeal.RefRun.hamR w := by
  unfold hamK
  rw [pay17_eq, pay18_eq, pay19_eq, pay20_eq, pay21_eq, pay22_eq, pay23_eq, pay24_eq, pay25_eq, pay26_eq, pay27_eq, pay28_eq, pay29_eq, pay30_eq, pay31_eq, pay32_eq,
    subf_zero_eq_hostNegf (k0_pay9 w), subf_zero_eq_hostNegf (k0_pay10 w), subf_zero_eq_hostNegf (k0_pay11 w), subf_zero_eq_hostNegf (k0_pay12 w), subf_zero_eq_hostNegf (k0_pay14 w), subf_zero_eq_hostNegf (k0_pay15 w), subf_zero_eq_hostNegf (k0_pay16 w)]
  rfl

end Cert.HamBridge

end
-- ==== Proof.Bridge.lean ====
/-
  The two programs compute one function of finite inputs.

  The kernel's result is the folded normalisation of Y = adj · (x · H); the reference's result is
  the centred normalisation of the same Y (the two Hamilton matrices are one matrix: a negation
  written 0 − a is −a). On finite inputs H, x · H and Y are real-valued, and there the two
  normalisations agree (the variance as mean of squares minus squared mean is the mean of squared
  deviations; the reciprocal square root is one over the square root of a positive number).
-/
import proofs.«167329_g16630113370191_cont_week2b_735_26_alg».proof.Proof.KIValue3
import proofs.«167329_g16630113370191_cont_week2b_735_26_alg».proof.Proof.RefValue
import proofs.«167329_g16630113370191_cont_week2b_735_26_alg».proof.Proof.Algebra
import proofs.«167329_g16630113370191_cont_week2b_735_26_alg».proof.Proof.Finite
import proofs.«167329_g16630113370191_cont_week2b_735_26_alg».proof.Proof.HamBridge
import proofs.«167329_g16630113370191_cont_week2b_735_26_alg».proof.Proof.Gen.Pre_finite_inputs

set_option maxRecDepth 16384

noncomputable section

namespace Cert.Bridge

open Idealize.ShloMosaic Idealize.ShloMosaic.ValueIdx Idealize.ShloMosaic.TcCoe Idealize.SL.Sem
open Cert.KernelIdeal Cert.KernelIdeal.Hand

variable (m : (ℓ : Loc nD τ sig) → Buf (Elt Ideal) ℓ)

/-- On finite inputs the kernel's closed form is the reference's term, entry by entry. -/
theorem result_eq (c : Dev nD)
    (hpre : Cert.Pre_finite_inputs.fn (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = (fun _ => 1#1))
    (R : Fin 10000) (j : Fin 128) :
    Ognn.outK (YY m c) (gA m c) (bA m c) R j
      = Cert.ReferenceIdeal.RefRun.refTerm (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix2 R j) := by
  obtain ⟨hx, hadj, hw, hg, hb⟩ := @Cert.Finite.real_of_pre Cert.Pre_finite_inputs.Gen.facts _ _ _ _ _ hpre
  rw [Cert.ReferenceIdeal.RefValue.refTerm_apply, ← Cert.HamBridge.hamK_eq_hamR]
  have hH := Cert.KernelIdeal.Ham.hamK_real (wA m c) hw
  have hS := Ognn.sup_real (xA m c) (Cert.KernelIdeal.Ham.hamK (wA m c)) hx hH
  have hY := Ognn.agg_real (adjA m c) (Ognn.sup (xA m c) (Cert.KernelIdeal.Ham.hamK (wA m c))) hadj hS
  exact Ognn.outK_eq_outR (Ognn.agg (adjA m c) (Ognn.sup (xA m c) (Cert.KernelIdeal.Ham.hamK (wA m c)))) (gA m c) (bA m c) hY
    (fun j => hg (ix1 j)) (fun j => hb (ix1 j)) R j

end Cert.Bridge

end
-- ==== Proof.lean ====
/-
  The certificate of the fused layer kernel against its reference.

  Frames: each kernel program (at the word level and at the extended reals) runs its 25-point
  pipeline to the end with its arguments unchanged (the same proof at both instances); the
  reference is a straight line of host operations. Nothing was rewritten by the idealization, so
  there is nothing to preserve. Equivalence over the extended reals: the kernel's result is the
  folded batch normalisation of Y = adj · (x · H), the reference's the centred one; on finite inputs
  they are one function.
-/
import proofs.«167329_g16630113370191_cont_week2b_735_26_alg».proof.Defs
import proofs.«167329_g16630113370191_cont_week2b_735_26_alg».proof.Proof.Gen.Kernel
import proofs.«167329_g16630113370191_cont_week2b_735_26_alg».proof.Proof.Gen.KernelIdeal
import proofs.«167329_g16630113370191_cont_week2b_735_26_alg».proof.Proof.Gen.ReferenceIdeal
import proofs.«167329_g16630113370191_cont_week2b_735_26_alg».proof.Proof.Gen.Pre_finite_inputs
import proofs.«167329_g16630113370191_cont_week2b_735_26_alg».proof.Proof.KBody
import proofs.«167329_g16630113370191_cont_week2b_735_26_alg».proof.Proof.KIValue3
import proofs.«167329_g16630113370191_cont_week2b_735_26_alg».proof.Proof.RefValue
import proofs.«167329_g16630113370191_cont_week2b_735_26_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories agreeing on the arguments both programs end at the reference's term of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.RefRun.refTerm
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)), ?_, ?_⟩
  · refine (θ_run Cert.KernelIdeal.defs _ _).mono (fun r h c => ⟨?_, (h c).2⟩) (Cert.KernelIdeal.Hand.run_value m ρ)
    beta_reduce
    rw [(hagree c).1, (hagree c).2.1, (hagree c).2.2.1, (hagree c).2.2.2.1, (hagree c).2.2.2.2]
    funext (i : Cert.KernelIdeal.S10000x128.Idx)
    obtain ⟨R, j, rfl⟩ : ∃ (R : Fin 10000) (j : Fin 128), i = ix2 R j := ⟨i 0, i 1, eq_ix2 i⟩
    exact ((h c).1 R j).trans (Cert.Bridge.result_eq m c (hpre c) R j)
  · exact Cert.ReferenceIdeal.RefRun.run m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
